-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512x7 : Shape := ⟨3, ![4096, 512, 7]⟩
abbrev S4096x512x3 : Shape := ⟨3, ![4096, 512, 3]⟩
abbrev S512 : Shape := ⟨1, ![512]⟩
abbrev S_ : Shape := ⟨0, ![]⟩
abbrev S4096x512x1 : Shape := ⟨3, ![4096, 512, 1]⟩

class Facts : Prop where
  bcast_S_S4096x512x7 : S_.BroadcastsInDim S4096x512x7 (![] : Fin 0 → Fin S4096x512x7.rank)
  reducesTo_S4096x512x7_S_d0_1_2 : S4096x512x7.ReducesTo [0, 1, 2] S_
  h_S_ : 0 < S_.numel
  bcast_S_S4096x512x3 : S_.BroadcastsInDim S4096x512x3 (![] : Fin 0 → Fin S4096x512x3.rank)
  reducesTo_S4096x512x3_S_d0_1_2 : S4096x512x3.ReducesTo [0, 1, 2] S_
  slices_S4096x512x3_S4096x512x1_0_0_0 : S4096x512x3.Slices ![0, 0, 0] S4096x512x1
  bcast_S_S4096x512x1 : S_.BroadcastsInDim S4096x512x1 (![] : Fin 0 → Fin S4096x512x1.rank)
  reducesTo_S4096x512x1_S_d0_1_2 : S4096x512x1.ReducesTo [0, 1, 2] S_
  slices_S4096x512x3_S4096x512x1_0_0_1 : S4096x512x3.Slices ![0, 0, 1] S4096x512x1
  slices_S4096x512x3_S4096x512x1_0_0_2 : S4096x512x3.Slices ![0, 0, 2] S4096x512x1

variable [Facts]

def fn_part1 {F : FTy → Type} [FloatOps F] (main_arg1 : IVec S4096x512x3 32) (main_v12 : IVec S_ 1) (main_v15 : IVec S4096x512x1 1) (main_c_5 : IVec S_ 1) : IVec S_ 1 :=
  let main_v16 : IVec S_ 1 := (fun x v => Host.reduce IntOp.andi x v reducesTo_S4096x512x1_S_d0_1_2 h_S_) main_v15 main_c_5
  let main_v17 : IVec S_ 1 := andi main_v12 main_v16
  let main_v18 : IVec S4096x512x1 32 := (extractStridedSlice S4096x512x1 ![0, 0, 2] · slices_S4096x512x3_S4096x512x1_0_0_2) main_arg1
  let main_c_6 : IVec S_ 32 := constantI S_ 32 2#32
  let main_v19 : IVec S4096x512x1 32 := broadcastInDim S4096x512x1 ![] bcast_S_S4096x512x1 main_c_6
  let main_v20 : IVec S4096x512x1 1 := cmpi .slt main_v18 main_v19
  let main_c_7 : IVec S_ 1 := constantI S_ 1 1#1
  let main_v21 : IVec S_ 1 := (fun x v => Host.reduce IntOp.andi x v reducesTo_S4096x512x1_S_d0_1_2 h_S_) main_v20 main_c_7
  let main_v22 : IVec S_ 1 := andi main_v17 main_v21
  main_v22

def fn {F : FTy → Type} [FloatOps F] (main_arg0 : FVec F S4096x512x7 .f32) (main_arg1 : IVec S4096x512x3 32) (main_arg2 : IVec S512 32) : IVec S_ 1 :=
  let main_v0 : FVec F S4096x512x7 .f32 := Host.absf main_arg0
  let main_cst : FVec F S_ .f32 := constant S_ .f32 0x7F800000#32
  let main_v1 : FVec F S4096x512x7 .f32 := broadcastInDim S4096x512x7 ![] bcast_S_S4096x512x7 main_cst
  let main_v2 : IVec S4096x512x7 1 := cmpf .olt main_v0 main_v1
  let main_c : IVec S_ 1 := constantI S_ 1 1#1
  let main_v3 : IVec S_ 1 := (fun x v => Host.reduce IntOp.andi x v reducesTo_S4096x512x7_S_d0_1_2 h_S_) main_v2 main_c
  let main_c_0 : IVec S_ 32 := constantI S_ 32 0#32
  let main_v4 : IVec S4096x512x3 32 := broadcastInDim S4096x512x3 ![] bcast_S_S4096x512x3 main_c_0
  let main_v5 : IVec S4096x512x3 1 := cmpi .sge main_arg1 main_v4
  let main_c_1 : IVec S_ 1 := constantI S_ 1 1#1
  let main_v6 : IVec S_ 1 := (fun x v => Host.reduce IntOp.andi x v reducesTo_S4096x512x3_S_d0_1_2 h_S_) main_v5 main_c_1
  let main_v7 : IVec S_ 1 := andi main_v3 main_v6
  let main_v8 : IVec S4096x512x1 32 := (extractStridedSlice S4096x512x1 ![0, 0, 0] · slices_S4096x512x3_S4096x512x1_0_0_0) main_arg1
  let main_c_2 : IVec S_ 32 := constantI S_ 32 3#32
  let main_v9 : IVec S4096x512x1 32 := broadcastInDim S4096x512x1 ![] bcast_S_S4096x512x1 main_c_2
  let main_v10 : IVec S4096x512x1 1 := cmpi .slt main_v8 main_v9
  let main_c_3 : IVec S_ 1 := constantI S_ 1 1#1
  let main_v11 : IVec S_ 1 := (fun x v => Host.reduce IntOp.andi x v reducesTo_S4096x512x1_S_d0_1_2 h_S_) main_v10 main_c_3
  let main_v12 : IVec S_ 1 := andi main_v7 main_v11
  let main_v13 : IVec S4096x512x1 32 := (extractStridedSlice S4096x512x1 ![0, 0, 1] · slices_S4096x512x3_S4096x512x1_0_0_1) main_arg1
  let main_c_4 : IVec S_ 32 := constantI S_ 32 2#32
  let main_v14 : IVec S4096x512x1 32 := broadcastInDim S4096x512x1 ![] bcast_S_S4096x512x1 main_c_4
  let main_v15 : IVec S4096x512x1 1 := cmpi .slt main_v13 main_v14
  let main_c_5 : IVec S_ 1 := constantI S_ 1 1#1
  fn_part1 (F := F) main_arg1 main_v12 main_v15 main_c_5
-- ==== Kernel.lean ====
abbrev S4096x512x7 : Shape := ⟨3, ![4096, 512, 7]⟩
abbrev S4096x512x3 : Shape := ⟨3, ![4096, 512, 3]⟩
abbrev S512 : Shape := ⟨1, ![512]⟩
abbrev S7x4096x512 : Shape := ⟨3, ![7, 4096, 512]⟩
abbrev S3x4096x512 : Shape := ⟨3, ![3, 4096, 512]⟩
abbrev S1x512 : Shape := ⟨2, ![1, 512]⟩
abbrev S7x1024x256 : Shape := ⟨3, ![7, 1024, 256]⟩
abbrev S3x1024x256 : Shape := ⟨3, ![3, 1024, 256]⟩
abbrev S1x256 : Shape := ⟨2, ![1, 256]⟩
abbrev S1x1024x256 : Shape := ⟨3, ![1, 1024, 256]⟩
abbrev S1024x256 : Shape := ⟨2, ![1024, 256]⟩
abbrev S1024x1 : Shape := ⟨2, ![1024, 1]⟩
abbrev S256 : Shape := ⟨1, ![256]⟩
abbrev S_ : Shape := ⟨0, ![]⟩

abbrev nBuf : Space → Nat
  | .hbm => 25
  | .vmem => 8
  | .smem => 0
  | _ => 0

abbrev bufTy : (tb : Table) → Fin (tcTables nBuf tb) → BufTy
  | .hbm, ⟨0, _⟩ => ⟨S4096x512x7, .f32⟩
  | .hbm, ⟨1, _⟩ => ⟨S4096x512x3, .i32⟩
  | .hbm, ⟨2, _⟩ => ⟨S512, .i32⟩
  | .hbm, ⟨3, _⟩ => ⟨S7x4096x512, .f32⟩
  | .hbm, ⟨4, _⟩ => ⟨S3x4096x512, .i32⟩
  | .hbm, ⟨5, _⟩ => ⟨S1x512, .i32⟩
  | .hbm, ⟨6, _⟩ => ⟨S1x512, .f32⟩
  | .hbm, ⟨7, _⟩ => ⟨S512, .f32⟩
  | .hbm, ⟨8, _⟩ => ⟨S_, .i32⟩
  | .hbm, ⟨9, _⟩ => ⟨S512, .i32⟩
  | .hbm, ⟨10, _⟩ => ⟨S512, .i1⟩
  | .hbm, ⟨11, _⟩ => ⟨S_, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .f32⟩
  | .hbm, ⟨16, _⟩ => ⟨S512, .f32⟩
  | .hbm, ⟨17, _⟩ => ⟨S_, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S7x1024x256, .f32⟩
  | .local _ .vmem, ⟨1, _⟩ => ⟨S7x1024x256, .f32⟩
  | .local _ .vmem, ⟨2, _⟩ => ⟨S3x1024x256, .i32⟩
  | .local _ .vmem, ⟨3, _⟩ => ⟨S3x1024x256, .i32⟩
  | .local _ .vmem, ⟨4, _⟩ => ⟨S1x256, .i32⟩
  | .local _ .vmem, ⟨5, _⟩ => ⟨S1x256, .i32⟩
  | .local _ .vmem, ⟨6, _⟩ => ⟨S1x256, .f32⟩
  | .local _ .vmem, ⟨7, _⟩ => ⟨S1x256, .f32⟩
  | _, _ => ⟨S4096x512x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S7x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4096x512x7_S7x4096x512_2_0_1 : S4096x512x7.Transposes [2, 0, 1] S7x4096x512
  transposes_S4096x512x3_S3x4096x512_2_0_1 : S4096x512x3.Transposes [2, 0, 1] S3x4096x512
  shapeCasts_S512_S1x512 : S512.ShapeCasts S1x512
  inb_S1x256_S1x256_0_0 : ∀ a, (![0, 0] : Fin 2 → Nat) a + S1x256.size a ≤ S1x256.size a
  h_S1x256 : 0 < S1x256.numel
  inb_S7x1024x256_S1x1024x256_0_0_0 : ∀ a, (![0, 0, 0] : Fin 3 → Nat) a + S1x1024x256.size a ≤ S7x1024x256.size a
  h_S1x1024x256 : 0 < S1x1024x256.numel
  shapeCasts_S1x1024x256_S1024x256 : S1x1024x256.ShapeCasts S1024x256
  inb_S7x1024x256_S1x1024x256_1_0_0 : ∀ a, (![1, 0, 0] : Fin 3 → Nat) a + S1x1024x256.size a ≤ S7x1024x256.size a
  inb_S7x1024x256_S1x1024x256_2_0_0 : ∀ a, (![2, 0, 0] : Fin 3 → Nat) a + S1x1024x256.size a ≤ S7x1024x256.size a
  inb_S7x1024x256_S1x1024x256_3_0_0 : ∀ a, (![3, 0, 0] : Fin 3 → Nat) a + S1x1024x256.size a ≤ S7x1024x256.size a
  inb_S7x1024x256_S1x1024x256_4_0_0 : ∀ a, (![4, 0, 0] : Fin 3 → Nat) a + S1x1024x256.size a ≤ S7x1024x256.size a
  inb_S7x1024x256_S1x1024x256_5_0_0 : ∀ a, (![5, 0, 0] : Fin 3 → Nat) a + S1x1024x256.size a ≤ S7x1024x256.size a
  inb_S7x1024x256_S1x1024x256_6_0_0 : ∀ a, (![6, 0, 0] : Fin 3 → Nat) a + S1x1024x256.size a ≤ S7x1024x256.size a
  inb_S3x1024x256_S1x1024x256_0_0_0 : ∀ a, (![0, 0, 0] : Fin 3 → Nat) a + S1x1024x256.size a ≤ S3x1024x256.size a
  inb_S3x1024x256_S1x1024x256_1_0_0 : ∀ a, (![1, 0, 0] : Fin 3 → Nat) a + S1x1024x256.size a ≤ S3x1024x256.size a
  inb_S3x1024x256_S1x1024x256_2_0_0 : ∀ a, (![2, 0, 0] : Fin 3 → Nat) a + S1x1024x256.size a ≤ S3x1024x256.size a
  iota_S1024x1_d0_w32 : S1024x1.Iotas .tc 32 [0]
  shapeCasts_S1x256_S1x256 : S1x256.ShapeCasts S1x256
  broadcasts_S1024x1_S1024x256 : S1024x1.Broadcasts S1024x256
  broadcasts_S1x256_S1024x256 : S1x256.Broadcasts S1024x256
  reduces_S1024x256_S256 : S1024x256.Reduces [0] S256
  shapeCasts_S256_S1x256 : S256.ShapeCasts S1x256
  shapeCasts_S1x512_S512 : S1x512.ShapeCasts S512
  bcast_S_S512 : S_.BroadcastsInDim S512 (![] : Fin 0 → Fin S512.rank)
  reducesTo_S512_S_d0 : S512.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x1024x256.size a ≤ S7x4096x512.size a
  hwx0_0 : ∀ i : grid0.Coords, EltTy.bits .f32 = 32 ∨ (Rect.block (s := S7x4096x512) S7x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1024x256.size a ≤ S3x4096x512.size a
  hwx0_1 : ∀ i : grid0.Coords, EltTy.bits .i32 = 32 ∨ (Rect.block (s := S3x4096x512) S3x1024x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x512.size a
  hwx0_2 : ∀ i : grid0.Coords, EltTy.bits .i32 = 32 ∨ (Rect.block (s := S1x512) S1x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x512.size a
  hwx0_3 : ∀ i : grid0.Coords, EltTy.bits .f32 = 32 ∨ (Rect.block (s := S1x512) S1x256.size (cc0_transform_3 i) (hinb0_3 i)).WholeWords (EltTy.packing .f32)

variable [Facts₀]

abbrev win0_0 : Pipeline.Window sig grid0 :=
  Pipeline.Window.ofSpec (Memref.whole main_v0) S7x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512x7 : Shape := ⟨3, ![4096, 512, 7]⟩
abbrev S4096x512x3 : Shape := ⟨3, ![4096, 512, 3]⟩
abbrev S512 : Shape := ⟨1, ![512]⟩
abbrev S4096 : Shape := ⟨1, ![4096]⟩
abbrev S4096x1 : Shape := ⟨2, ![4096, 1]⟩
abbrev S1x512 : Shape := ⟨2, ![1, 512]⟩
abbrev S4096x512 : Shape := ⟨2, ![4096, 512]⟩
abbrev S_ : Shape := ⟨0, ![]⟩
abbrev S4096x512x1 : Shape := ⟨3, ![4096, 512, 1]⟩
abbrev S4096x512x1x1 : Shape := ⟨4, ![4096, 512, 1, 1]⟩
abbrev S1 : Shape := ⟨1, ![1]⟩
abbrev S1x1x1x1 : Shape := ⟨4, ![1, 1, 1, 1]⟩
abbrev S4096x512x2 : Shape := ⟨3, ![4096, 512, 2]⟩

abbrev nBuf : Space → Nat
  | .hbm => 175
  | .vmem => 0
  | .smem => 0
  | _ => 0

abbrev hbmTy0_0 (i : Nat) : BufTy := match i % 128 with
  | 0 => ⟨S4096x512x7, .f32⟩
  | 1 => ⟨S4096x512x3, .i32⟩
  | 2 => ⟨S512, .i32⟩
  | 3 => ⟨S4096, .i32⟩
  | 4 => ⟨S4096x1, .i32⟩
  | 5 => ⟨S1x512, .i32⟩
  | 6 => ⟨S4096x512, .i32⟩
  | 7 => ⟨S4096x512, .i32⟩
  | 8 => ⟨S4096x512, .i1⟩
  | 9 => ⟨S_, .i32⟩
  | 10 => ⟨S512, .i32⟩
  | 11 => ⟨S512, .i1⟩
  | 12 => ⟨S_, .i32⟩
  | 13 => ⟨S_, .i32⟩
  | 14 => ⟨S512, .i32⟩
  | 15 => ⟨S512, .i32⟩
  | 16 => ⟨S512, .f32⟩
  | 17 => ⟨S4096x512x3, .f32⟩
  | 18 => ⟨S4096x512x1, .i32⟩
  | 19 => ⟨S4096x512, .i32⟩
  | 20 => ⟨S_, .f32⟩
  | 21 => ⟨S4096x512, .f32⟩
  | 22 => ⟨S_, .f32⟩
  | 23 => ⟨S4096x512, .f32⟩
  | 24 => ⟨S4096x512, .f32⟩
  | 25 => ⟨S4096x512x1, .f32⟩
  | 26 => ⟨S4096x512x3, .f32⟩
  | 27 => ⟨S4096x512x3, .f32⟩
  | 28 => ⟨S4096x512x3, .f32⟩
  | 29 => ⟨S_, .f32⟩
  | 30 => ⟨S4096x512, .f32⟩
  | 31 => ⟨S4096x512x1, .f32⟩
  | 32 => ⟨S4096x512x1, .f32⟩
  | 33 => ⟨S4096x512x3, .f32⟩
  | 34 => ⟨S4096x512x3, .f32⟩
  | 35 => ⟨S4096x512x1, .i32⟩
  | 36 => ⟨S_, .i32⟩
  | 37 => ⟨S4096x512x1, .i32⟩
  | 38 => ⟨S4096x512x1, .i1⟩
  | 39 => ⟨S_, .i32⟩
  | 40 => ⟨S4096x512x1, .i32⟩
  | 41 => ⟨S4096x512x1, .i32⟩
  | 42 => ⟨S4096x512x1, .i32⟩
  | 43 => ⟨S4096x512x1x1, .i32⟩
  | 44 => ⟨S1, .i32⟩
  | 45 => ⟨S_, .i32⟩
  | 46 => ⟨S4096x512x1x1, .i32⟩
  | 47 => ⟨S4096x512x1x1, .i1⟩
  | 48 => ⟨S1x1x1x1, .i32⟩
  | 49 => ⟨S4096x512x1x1, .i32⟩
  | 50 => ⟨S4096x512x1x1, .i1⟩
  | 51 => ⟨S4096x512x1x1, .i1⟩
  | 52 => ⟨S_, .i1⟩
  | 53 => ⟨S4096x512x1, .i1⟩
  | 54 => ⟨S4096x512x1, .f32⟩
  | 55 => ⟨S_, .f32⟩
  | 56 => ⟨S4096x512x1, .f32⟩
  | 57 => ⟨S4096x512x1, .f32⟩
  | 58 => ⟨S4096x512, .f32⟩
  | 59 => ⟨S4096x512, .f32⟩
  | 60 => ⟨S_, .f32⟩
  | 61 => ⟨S_, .f32⟩
  | 62 => ⟨S4096x512, .f32⟩
  | 63 => ⟨S4096x512, .f32⟩
  | 64 => ⟨S_, .f32⟩
  | 65 => ⟨S512, .f32⟩
  | 66 => ⟨S4096x512x2, .f32⟩
  | 67 => ⟨S4096x512x1, .i32⟩
  | 68 => ⟨S4096x512, .i32⟩
  | 69 => ⟨S_, .f32⟩
  | 70 => ⟨S4096x512, .f32⟩
  | 71 => ⟨S_, .f32⟩
  | 72 => ⟨S4096x512, .f32⟩
  | 73 => ⟨S4096x512, .f32⟩
  | 74 => ⟨S4096x512x1, .f32⟩
  | 75 => ⟨S4096x512x2, .f32⟩
  | 76 => ⟨S4096x512x2, .f32⟩
  | 77 => ⟨S4096x512x2, .f32⟩
  | 78 => ⟨S_, .f32⟩
  | 79 => ⟨S4096x512, .f32⟩
  | 80 => ⟨S4096x512x1, .f32⟩
  | 81 => ⟨S4096x512x1, .f32⟩
  | 82 => ⟨S4096x512x2, .f32⟩
  | 83 => ⟨S4096x512x2, .f32⟩
  | 84 => ⟨S4096x512x1, .i32⟩
  | 85 => ⟨S_, .i32⟩
  | 86 => ⟨S4096x512x1, .i32⟩
  | 87 => ⟨S4096x512x1, .i1⟩
  | 88 => ⟨S_, .i32⟩
  | 89 => ⟨S4096x512x1, .i32⟩
  | 90 => ⟨S4096x512x1, .i32⟩
  | 91 => ⟨S4096x512x1, .i32⟩
  | 92 => ⟨S4096x512x1x1, .i32⟩
  | 93 => ⟨S1, .i32⟩
  | 94 => ⟨S_, .i32⟩
  | 95 => ⟨S4096x512x1x1, .i32⟩
  | 96 => ⟨S4096x512x1x1, .i1⟩
  | 97 => ⟨S1x1x1x1, .i32⟩
  | 98 => ⟨S4096x512x1x1, .i32⟩
  | 99 => ⟨S4096x512x1x1, .i1⟩
  | 100 => ⟨S4096x512x1x1, .i1⟩
  | 101 => ⟨S_, .i1⟩
  | 102 => ⟨S4096x512x1, .i1⟩
  | 103 => ⟨S4096x512x1, .f32⟩
  | 104 => ⟨S_, .f32⟩
  | 105 => ⟨S4096x512x1, .f32⟩
  | 106 => ⟨S4096x512x1, .f32⟩
  | 107 => ⟨S4096x512, .f32⟩
  | 108 => ⟨S4096x512, .f32⟩
  | 109 => ⟨S_, .f32⟩
  | 110 => ⟨S_, .f32⟩
  | 111 => ⟨S4096x512, .f32⟩
  | 112 => ⟨S4096x512, .f32⟩
  | 113 => ⟨S_, .f32⟩
  | 114 => ⟨S512, .f32⟩
  | 115 => ⟨S512, .f32⟩
  | 116 => ⟨S4096x512x2, .f32⟩
  | 117 => ⟨S4096x512x1, .i32⟩
  | 118 => ⟨S4096x512, .i32⟩
  | 119 => ⟨S_, .f32⟩
  | 120 => ⟨S4096x512, .f32⟩
  | 121 => ⟨S_, .f32⟩
  | 122 => ⟨S4096x512, .f32⟩
  | 123 => ⟨S4096x512, .f32⟩
  | 124 => ⟨S4096x512x1, .f32⟩
  | 125 => ⟨S4096x512x2, .f32⟩
  | 126 => ⟨S4096x512x2, .f32⟩
  | 127 => ⟨S4096x512x2, .f32⟩
  | _ => ⟨S4096x512x7, .f32⟩

abbrev hbmTy0_1 (i : Nat) : BufTy := match i % 128 with
  | 0 => ⟨S_, .f32⟩
  | 1 => ⟨S4096x512, .f32⟩
  | 2 => ⟨S4096x512x1, .f32⟩
  | 3 => ⟨S4096x512x1, .f32⟩
  | 4 => ⟨S4096x512x2, .f32⟩
  | 5 => ⟨S4096x512x2, .f32⟩
  | 6 => ⟨S4096x512x1, .i32⟩
  | 7 => ⟨S_, .i32⟩
  | 8 => ⟨S4096x512x1, .i32⟩
  | 9 => ⟨S4096x512x1, .i1⟩
  | 10 => ⟨S_, .i32⟩
  | 11 => ⟨S4096x512x1, .i32⟩
  | 12 => ⟨S4096x512x1, .i32⟩
  | 13 => ⟨S4096x512x1, .i32⟩
  | 14 => ⟨S4096x512x1x1, .i32⟩
  | 15 => ⟨S1, .i32⟩
  | 16 => ⟨S_, .i32⟩
  | 17 => ⟨S4096x512x1x1, .i32⟩
  | 18 => ⟨S4096x512x1x1, .i1⟩
  | 19 => ⟨S1x1x1x1, .i32⟩
  | 20 => ⟨S4096x512x1x1, .i32⟩
  | 21 => ⟨S4096x512x1x1, .i1⟩
  | 22 => ⟨S4096x512x1x1, .i1⟩
  | 23 => ⟨S_, .i1⟩
  | 24 => ⟨S4096x512x1, .i1⟩
  | 25 => ⟨S4096x512x1, .f32⟩
  | 26 => ⟨S_, .f32⟩
  | 27 => ⟨S4096x512x1, .f32⟩
  | 28 => ⟨S4096x512x1, .f32⟩
  | 29 => ⟨S4096x512, .f32⟩
  | 30 => ⟨S4096x512, .f32⟩
  | 31 => ⟨S_, .f32⟩
  | 32 => ⟨S_, .f32⟩
  | 33 => ⟨S4096x512, .f32⟩
  | 34 => ⟨S4096x512, .f32⟩
  | 35 => ⟨S_, .f32⟩
  | 36 => ⟨S512, .f32⟩
  | 37 => ⟨S512, .f32⟩
  | 38 => ⟨S512, .f32⟩
  | 39 => ⟨S_, .f32⟩
  | 40 => ⟨S_, .f32⟩
  | 41 => ⟨S512, .f32⟩
  | 42 => ⟨S512, .f32⟩
  | 43 => ⟨S_, .f32⟩
  | 44 => ⟨S_, .f32⟩
  | 45 => ⟨S_, .f32⟩
  | 46 => ⟨S_, .f32⟩
  | _ => ⟨S4096x512x7, .f32⟩

abbrev hbmTy (i : Nat) : BufTy := match i / 128 with
  | 0 => hbmTy0_0 i
  | 1 => hbmTy0_1 i
  | _ => ⟨S4096x512x7, .f32⟩

abbrev bufTy : (tb : Table) → Fin (tcTables nBuf tb) → BufTy
  | .hbm, ⟨i, _⟩ => hbmTy i
  | _, _ => ⟨S4096x512x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call1_cst : Ref sig .tc := ⟨.hbm, 20, rfl⟩
abbrev main_call1_v0 : Ref sig .tc := ⟨.hbm, 21, rfl⟩
abbrev main_call1_cst_0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_cst_1 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_v13 : Ref sig .tc := ⟨.hbm, 34, rfl⟩
abbrev main_v14 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_cst : Ref sig .tc := ⟨.hbm, 55, rfl⟩
abbrev main_call2_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst : Ref sig .tc := ⟨.hbm, 60, rfl⟩
abbrev main_call3_v0 : Ref sig .tc := ⟨.hbm, 61, rfl⟩
abbrev main_call3_v1 : Ref sig .tc := ⟨.hbm, 62, rfl⟩
abbrev main_v18 : Ref sig .tc := ⟨.hbm, 63, rfl⟩
abbrev main_cst_1 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_call4_cst : Ref sig .tc := ⟨.hbm, 69, rfl⟩
abbrev main_call4_v0 : Ref sig .tc := ⟨.hbm, 70, rfl⟩
abbrev main_call4_cst_0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_v5 : Ref sig .tc := ⟨.hbm, 76, rfl⟩
abbrev main_call4_v6 : Ref sig .tc := ⟨.hbm, 77, rfl⟩
abbrev main_call4_cst_1 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_v23 : Ref sig .tc := ⟨.hbm, 83, rfl⟩
abbrev main_v24 : Ref sig .tc := ⟨.hbm, 84, rfl⟩
abbrev main_call5_c : Ref sig .tc := ⟨.hbm, 85, rfl⟩
abbrev main_call5_v0 : Ref sig .tc := ⟨.hbm, 86, rfl⟩
abbrev main_call5_v1 : Ref sig .tc := ⟨.hbm, 87, rfl⟩
abbrev main_call5_c_0 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_v5 : Ref sig .tc := ⟨.hbm, 92, rfl⟩
abbrev main_call5_c_1 : Ref sig .tc := ⟨.hbm, 93, rfl⟩
abbrev main_call5_c_2 : Ref sig .tc := ⟨.hbm, 94, rfl⟩
abbrev main_call5_v6 : Ref sig .tc := ⟨.hbm, 95, rfl⟩
abbrev main_call5_v7 : Ref sig .tc := ⟨.hbm, 96, rfl⟩
abbrev main_call5_v8 : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_c_3 : Ref sig .tc := ⟨.hbm, 101, rfl⟩
abbrev main_call5_v12 : Ref sig .tc := ⟨.hbm, 102, rfl⟩
abbrev main_call5_v13 : Ref sig .tc := ⟨.hbm, 103, rfl⟩
abbrev main_call5_cst : Ref sig .tc := ⟨.hbm, 104, rfl⟩
abbrev main_call5_v14 : Ref sig .tc := ⟨.hbm, 105, rfl⟩
abbrev main_v25 : Ref sig .tc := ⟨.hbm, 106, rfl⟩
abbrev main_v26 : Ref sig .tc := ⟨.hbm, 107, rfl⟩
abbrev main_v27 : Ref sig .tc := ⟨.hbm, 108, rfl⟩
abbrev main_cst_2 : Ref sig .tc := ⟨.hbm, 109, rfl⟩
abbrev main_call6_v0 : Ref sig .tc := ⟨.hbm, 110, rfl⟩
abbrev main_call6_v1 : Ref sig .tc := ⟨.hbm, 111, rfl⟩
abbrev main_v28 : Ref sig .tc := ⟨.hbm, 112, rfl⟩
abbrev main_cst_3 : Ref sig .tc := ⟨.hbm, 113, rfl⟩
abbrev main_v29 : Ref sig .tc := ⟨.hbm, 114, rfl⟩
abbrev main_v30 : Ref sig .tc := ⟨.hbm, 115, rfl⟩
abbrev main_v31 : Ref sig .tc := ⟨.hbm, 116, rfl⟩
abbrev main_v32 : Ref sig .tc := ⟨.hbm, 117, rfl⟩
abbrev main_v33 : Ref sig .tc := ⟨.hbm, 118, rfl⟩
abbrev main_call7_cst : Ref sig .tc := ⟨.hbm, 119, rfl⟩
abbrev main_call7_v0 : Ref sig .tc := ⟨.hbm, 120, rfl⟩
abbrev main_call7_cst_0 : Ref sig .tc := ⟨.hbm, 121, rfl⟩
abbrev main_call7_v1 : Ref sig .tc := ⟨.hbm, 122, rfl⟩
abbrev main_call7_v2 : Ref sig .tc := ⟨.hbm, 123, rfl⟩
abbrev main_call7_v3 : Ref sig .tc := ⟨.hbm, 124, rfl⟩
abbrev main_call7_v4 : Ref sig .tc := ⟨.hbm, 125, rfl⟩
abbrev main_call7_v5 : Ref sig .tc := ⟨.hbm, 126, rfl⟩
abbrev main_call7_v6 : Ref sig .tc := ⟨.hbm, 127, rfl⟩
abbrev main_call7_cst_1 : Ref sig .tc := ⟨.hbm, 128, rfl⟩
abbrev main_call7_v7 : Ref sig .tc := ⟨.hbm, 129, rfl⟩
abbrev main_call7_v8 : Ref sig .tc := ⟨.hbm, 130, rfl⟩
abbrev main_call7_v9 : Ref sig .tc := ⟨.hbm, 131, rfl⟩
abbrev main_call7_v10 : Ref sig .tc := ⟨.hbm, 132, rfl⟩
abbrev main_v34 : Ref sig .tc := ⟨.hbm, 133, rfl⟩
abbrev main_v35 : Ref sig .tc := ⟨.hbm, 134, rfl⟩
abbrev main_call8_c : Ref sig .tc := ⟨.hbm, 135, rfl⟩
abbrev main_call8_v0 : Ref sig .tc := ⟨.hbm, 136, rfl⟩
abbrev main_call8_v1 : Ref sig .tc := ⟨.hbm, 137, rfl⟩
abbrev main_call8_c_0 : Ref sig .tc := ⟨.hbm, 138, rfl⟩
abbrev main_call8_v2 : Ref sig .tc := ⟨.hbm, 139, rfl⟩
abbrev main_call8_v3 : Ref sig .tc := ⟨.hbm, 140, rfl⟩
abbrev main_call8_v4 : Ref sig .tc := ⟨.hbm, 141, rfl⟩
abbrev main_call8_v5 : Ref sig .tc := ⟨.hbm, 142, rfl⟩
abbrev main_call8_c_1 : Ref sig .tc := ⟨.hbm, 143, rfl⟩
abbrev main_call8_c_2 : Ref sig .tc := ⟨.hbm, 144, rfl⟩
abbrev main_call8_v6 : Ref sig .tc := ⟨.hbm, 145, rfl⟩
abbrev main_call8_v7 : Ref sig .tc := ⟨.hbm, 146, rfl⟩
abbrev main_call8_v8 : Ref sig .tc := ⟨.hbm, 147, rfl⟩
abbrev main_call8_v9 : Ref sig .tc := ⟨.hbm, 148, rfl⟩
abbrev main_call8_v10 : Ref sig .tc := ⟨.hbm, 149, rfl⟩
abbrev main_call8_v11 : Ref sig .tc := ⟨.hbm, 150, rfl⟩
abbrev main_call8_c_3 : Ref sig .tc := ⟨.hbm, 151, rfl⟩
abbrev main_call8_v12 : Ref sig .tc := ⟨.hbm, 152, rfl⟩
abbrev main_call8_v13 : Ref sig .tc := ⟨.hbm, 153, rfl⟩
abbrev main_call8_cst : Ref sig .tc := ⟨.hbm, 154, rfl⟩
abbrev main_call8_v14 : Ref sig .tc := ⟨.hbm, 155, rfl⟩
abbrev main_v36 : Ref sig .tc := ⟨.hbm, 156, rfl⟩
abbrev main_v37 : Ref sig .tc := ⟨.hbm, 157, rfl⟩
abbrev main_v38 : Ref sig .tc := ⟨.hbm, 158, rfl⟩
abbrev main_cst_4 : Ref sig .tc := ⟨.hbm, 159, rfl⟩
abbrev main_call9_v0 : Ref sig .tc := ⟨.hbm, 160, rfl⟩
abbrev main_call9_v1 : Ref sig .tc := ⟨.hbm, 161, rfl⟩
abbrev main_v39 : Ref sig .tc := ⟨.hbm, 162, rfl⟩
abbrev main_cst_5 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_cst_6 : Ref sig .tc := ⟨.hbm, 167, rfl⟩
abbrev main_call10_v0 : Ref sig .tc := ⟨.hbm, 168, rfl⟩
abbrev main_call10_v1 : Ref sig .tc := ⟨.hbm, 169, rfl⟩
abbrev main_v43 : Ref sig .tc := ⟨.hbm, 170, rfl⟩
abbrev main_cst_7 : Ref sig .tc := ⟨.hbm, 171, rfl⟩
abbrev main_v44 : Ref sig .tc := ⟨.hbm, 172, rfl⟩
abbrev main_cst_8 : Ref sig .tc := ⟨.hbm, 173, rfl⟩
abbrev main_v45 : Ref sig .tc := ⟨.hbm, 174, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S512_S1x512_1 : S512.BroadcastsInDim S1x512 (![1] : Fin 1 → Fin S1x512.rank)
  bcast_S4096x1_S4096x512_0_1 : S4096x1.BroadcastsInDim S4096x512 (![0, 1] : Fin 2 → Fin S4096x512.rank)
  bcast_S1x512_S4096x512_0_1 : S1x512.BroadcastsInDim S4096x512 (![0, 1] : Fin 2 → Fin S4096x512.rank)
  bcast_S_S512 : S_.BroadcastsInDim S512 (![] : Fin 0 → Fin S512.rank)
  slices_S4096x512x7_S4096x512x3_0_0_0 : S4096x512x7.Slices ![0, 0, 0] S4096x512x3
  slices_S4096x512x3_S4096x512x1_0_0_0 : S4096x512x3.Slices ![0, 0, 0] S4096x512x1
  shapeCasts_S4096x512x1_S4096x512 : S4096x512x1.ShapeCasts S4096x512
  reducesTo_S4096x512x3_S4096x512_d2 : S4096x512x3.ReducesTo [2] S4096x512
  h_S_ : 0 < S_.numel
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  bcast_S4096x512x1_S4096x512x3_0_1_2 : S4096x512x1.BroadcastsInDim S4096x512x3 (![0, 1, 2] : Fin 3 → Fin S4096x512x3.rank)
  bcast_S_S4096x512x1 : S_.BroadcastsInDim S4096x512x1 (![] : Fin 0 → Fin S4096x512x1.rank)
  shapeCasts_S4096x512x1_S4096x512x1x1 : S4096x512x1.ShapeCasts S4096x512x1x1
  bcast_S_S4096x512x1x1 : S_.BroadcastsInDim S4096x512x1x1 (![] : Fin 0 → Fin S4096x512x1x1.rank)
  bcast_S1_S1x1x1x1_3 : S1.BroadcastsInDim S1x1x1x1 (![3] : Fin 1 → Fin S1x1x1x1.rank)
  bcast_S1x1x1x1_S4096x512x1x1_0_1_2_3 : S1x1x1x1.BroadcastsInDim S4096x512x1x1 (![0, 1, 2, 3] : Fin 4 → Fin S4096x512x1x1.rank)
  reducesTo_S4096x512x1x1_S4096x512x1_d3 : S4096x512x1x1.ReducesTo [3] S4096x512x1
  reducesTo_S4096x512_S512_d0 : S4096x512.ReducesTo [0] S512
  slices_S4096x512x7_S4096x512x2_0_0_3 : S4096x512x7.Slices ![0, 0, 3] S4096x512x2
  slices_S4096x512x3_S4096x512x1_0_0_1 : S4096x512x3.Slices ![0, 0, 1] S4096x512x1
  reducesTo_S4096x512x2_S4096x512_d2 : S4096x512x2.ReducesTo [2] S4096x512
  bcast_S4096x512x1_S4096x512x2_0_1_2 : S4096x512x1.BroadcastsInDim S4096x512x2 (![0, 1, 2] : Fin 3 → Fin S4096x512x2.rank)
  slices_S4096x512x7_S4096x512x2_0_0_5 : S4096x512x7.Slices ![0, 0, 5] S4096x512x2
  slices_S4096x512x3_S4096x512x1_0_0_2 : S4096x512x3.Slices ![0, 0, 2] S4096x512x1
  reducesTo_S512_S_d0 : S512.ReducesTo [0] S_
  gather_S4096x512x3_S4096x512x1x1_S4096x512x1_n_2_01_01_2_3_111_wf : GatherDims.WF S4096x512x3 S4096x512x1x1 S4096x512x1 [] [2] [0, 1] [2] [0, 1] 3 ![1, 1, 1]
  gather_S4096x512x2_S4096x512x1x1_S4096x512x1_n_2_01_01_2_3_111_wf : GatherDims.WF S4096x512x2 S4096x512x1x1 S4096x512x1 [] [2] [0, 1] [2] [0, 1] 3 ![1, 1, 1]

variable [Facts₀]

def gather_S4096x512x3_S4096x512x1x1_S4096x512x1_n_2_01_01_2_3_111 : GatherDims S4096x512x3 S4096x512x1x1 S4096x512x1 where
  offsetDims := []
  collapsedSliceDims := [2]
  operandBatchingDims := [0, 1]
  startIndicesBatchingDims := [0, 1]
  startIndexMap := [2]
  indexVectorDim := 3
  sliceSizes := ![1, 1, 1]
  wf := gather_S4096x512x3_S4096x512x1x1_S4096x512x1_n_2_01_01_2_3_111_wf
def gather_S4096x512x2_S4096x512x1x1_S4096x512x1_n_2_01_01_2_3_111 : GatherDims S4096x512x2 S4096x512x1x1 S4096x512x1 where
  offsetDims := []
  collapsedSliceDims := [2]
  operandBatchingDims := [0, 1]
  startIndicesBatchingDims := [0, 1]
  startIndexMap := [2]
  indexVectorDim := 3
  sliceSizes := ![1, 1, 1]
  wf := gather_S4096x512x2_S4096x512x1x1_S4096x512x1_n_2_01_01_2_3_111_wf

class Facts : Prop extends Facts₀ where

variable [Facts]
-- ==== Proof.KBody.lean ====
/-
  What one run of the kernel body leaves in the output block. The body reads the seven logit planes and the three label
  planes of its time-step block, the lengths of its 256 samples, and what the output block held (`prev`), and stores
  `prev + Σ_r masked loss`: one lane sum over the block's 1024 time steps. At the first time-step block of a sample block
  the output is first reset to zeros, so `prev` is the zero block there; at the others it is what the point before left.
-/
import proofs.«431143_j2637109919916_2_alg».proof.Proof.Gen.KernelIdeal.Frame
import Idealize.ShloMosaic.Lib.Pipeline.Value
import Idealize.ShloMosaic.Lib.Tactic

noncomputable section

namespace Cert.KernelIdeal.KV

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- Plane `k` of the logit block, as the body loads it: a [1, 1024, 256] slab. -/
abbrev ySlab (x0 : Vec F S7x1024x256 .f32) (off : Fin 3 → Nat) (h : ∀ a, off a + S1x1024x256.size a ≤ S7x1024x256.size a) : Vec F S1x1024x256 .f32 :=
  View.ld x0 (Rect.unit off ![1, 1024, 256] h)

/-- Plane `k` of the label block, as the body loads it. -/
abbrev tSlab (x1 : Vec F S3x1024x256 .i32) (off : Fin 3 → Nat) (h : ∀ a, off a + S1x1024x256.size a ≤ S3x1024x256.size a) : Vec F S1x1024x256 .i32 :=
  View.ld x1 (Rect.unit off ![1, 1024, 256] h)

/-- The value the body stores: the previous contents plus the lane sum of the masked losses, as the printed operations
    compute it from the loaded planes (`ti` the time-step block's number as a word). -/
def body (x0 : Vec F S7x1024x256 .f32) (x1 : Vec F S3x1024x256 .i32) (x2 : Vec F S1x256 .i32) (ti : BitVec 32) (prev : Vec F S1x256 .f32) : Vec F S1x256 .f32 :=
  k0_pay1
    (k0_pay14 (k0_pay3 (ySlab x0 ![0, 0, 0] inb_S7x1024x256_S1x1024x256_0_0_0))
      (k0_pay4 (ySlab x0 ![1, 0, 0] inb_S7x1024x256_S1x1024x256_1_0_0))
      (k0_pay5 (ySlab x0 ![2, 0, 0] inb_S7x1024x256_S1x1024x256_2_0_0))
      (k0_pay6 (ySlab x0 ![3, 0, 0] inb_S7x1024x256_S1x1024x256_3_0_0))
      (k0_pay7 (ySlab x0 ![4, 0, 0] inb_S7x1024x256_S1x1024x256_4_0_0))
      (k0_pay8 (ySlab x0 ![5, 0, 0] inb_S7x1024x256_S1x1024x256_5_0_0))
      (k0_pay9 (ySlab x0 ![6, 0, 0] inb_S7x1024x256_S1x1024x256_6_0_0))
      (k0_pay10 (tSlab x1 ![0, 0, 0] inb_S3x1024x256_S1x1024x256_0_0_0))
      (k0_pay11 (tSlab x1 ![1, 0, 0] inb_S3x1024x256_S1x1024x256_1_0_0))
      (k0_pay12 (tSlab x1 ![2, 0, 0] inb_S3x1024x256_S1x1024x256_2_0_0))
      (k0_pay13 (ySlab x0 ![0, 0, 0] inb_S7x1024x256_S1x1024x256_0_0_0)
        (ySlab x0 ![1, 0, 0] inb_S7x1024x256_S1x1024x256_1_0_0)
        (ySlab x0 ![2, 0, 0] inb_S7x1024x256_S1x1024x256_2_0_0)))
    (k0_pay15 ti x2) (FloatOps.ofBits FTy.f32 0#32) prev

/-- The zero block the reset stores. -/
abbrev zeroBlk : Vec F S1x256 .f32 := k0_pay2 (F := F)

/-- At a point that is not the first of its sample block the body leaves `body` over what the output block held. -/
theorem out_B (c : Dev nD) (i : grid0.Coords) (a2 : Memref sig .tc .vmem S7x1024x256 .f32) (h2 : a2.IsWhole) (a3 : Memref sig .tc .vmem S3x1024x256 .i32) (h3 : a3.IsWhole)
    (a4 : Memref sig .tc .vmem S1x256 .i32) (h4 : a4.IsWhole) (a5 : Memref sig .tc .vmem S1x256 .f32) (h5 : a5.IsWhole) (hc : ¬cond0_0 i)
    (x0 : Vec F S7x1024x256 .f32) (x1 : Vec F S3x1024x256 .i32) (x2 : Vec F S1x256 .i32) (xo : Vec F S1x256 .f32) :
    out0_B_3 c i a2 h2 a3 h3 a4 h4 a5 h5 hc x0 x1 x2 xo = body x0 x1 x2 (BitVec.ofNat 32 (i 1).val) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz]
  simp only [View.readAt_eq_ld, h2.read_unread, h3.read_unread, h4.read_unread, h5.read_unread, View.ld_unit_zero (S := S1x256) hz]
  rfl

/-- At the first point of a sample block the body resets the output block to zeros, reads it back, and leaves `body`
    over the zero block. -/
theorem out_A (c : Dev nD) (i : grid0.Coords) (a2 : Memref sig .tc .vmem S7x1024x256 .f32) (h2 : a2.IsWhole) (a3 : Memref sig .tc .vmem S3x1024x256 .i32) (h3 : a3.IsWhole)
    (a4 : Memref sig .tc .vmem S1x256 .i32) (h4 : a4.IsWhole) (a5 : Memref sig .tc .vmem S1x256 .f32) (h5 : a5.IsWhole) (hc : cond0_0 i)
    (x0 : Vec F S7x1024x256 .f32) (x1 : Vec F S3x1024x256 .i32) (x2 : Vec F S1x256 .i32) :
    out0_A_3 c i a2 h2 a3 h3 a4 h4 a5 h5 hc x0 x1 x2 = body x0 x1 x2 (BitVec.ofNat 32 (i 1).val) zeroBlk := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x256) hz, View.readCov_unit_zero (S := S1x256) _ hz]
  simp only [View.readAt_eq_ld, h2.read_unread, h3.read_unread, h4.read_unread, View.ld_unit_zero (S := S1x256) hz]
  rfl

end Cert.KernelIdeal.KV

end
-- ==== Proof.Spec.lean ====
/-
  What both programs compute, as one function of the three argument arrays, on the extended reals.

  For a time step `r` and a sample `b` the loss is the sum of three softmax cross-entropies: over the logits
  `y[r,b,0..2]` with label `t[r,b,0]`, over `y[r,b,3..4]` with label `t[r,b,1]`, and over `y[r,b,5..6]` with label
  `t[r,b,2]`; each is `log (Σ exp (yₖ - M)) + M - y_label` with `M` the largest logit of the group. A sample's numerator
  is the sum of the loss over the time steps before the sample's length (`r < len[b]`, compared as signed words).
  The label picks by equality tests: label 0 the first logit, label 1 the second, anything else the last.
-/
import Idealize.ShloMosaic.PureOps.Ideal
import Idealize.ShloMosaic.Lib.ValueIdx

noncomputable section

namespace Cert.Spec

open Idealize.ShloMosaic Idealize.ShloMosaic.ValueIdx

abbrev SY : Shape := ⟨3, ![4096, 512, 7]⟩
abbrev ST : Shape := ⟨3, ![4096, 512, 3]⟩
abbrev SL : Shape := ⟨1, ![512]⟩

/-- `log (eᵃ⁻ᴹ + eᵇ⁻ᴹ + eᶜ⁻ᴹ) + M`, `M` the largest of the three. -/
def lse3 (a b c : EReal) : EReal :=
  Ideal.log (Ideal.exp (a - max (max a b) c) + Ideal.exp (b - max (max a b) c) + Ideal.exp (c - max (max a b) c)) + max (max a b) c

/-- `log (eᵃ⁻ᴹ + eᵇ⁻ᴹ) + M`, `M` the larger of the two. -/
def lse2 (a b : EReal) : EReal :=
  Ideal.log (Ideal.exp (a - max a b) + Ideal.exp (b - max a b)) + max a b

/-- The logit a three-class label picks: 0 the first, 1 the second, otherwise the third. -/
def pick3 (t : BitVec 32) (a b c : EReal) : EReal :=
  Scalar.select (IntOp.cmpi .eq t 0#32) a (Scalar.select (IntOp.cmpi .eq t 1#32) b c)

/-- The logit a two-class label picks: 0 the first, otherwise the second. -/
def pick2 (t : BitVec 32) (a b : EReal) : EReal :=
  Scalar.select (IntOp.cmpi .eq t 0#32) a b

/-- The three cross-entropies of time step `r`, sample `b`, added. -/
def nll (y : FVec Ideal SY .f32) (t : IVec ST 32) (r : Fin 4096) (b : Fin 512) : EReal :=
  (lse3 (y (ix3 r b 0)) (y (ix3 r b 1)) (y (ix3 r b 2)) - pick3 (t (ix3 r b 0)) (y (ix3 r b 0)) (y (ix3 r b 1)) (y (ix3 r b 2))
    + (lse2 (y (ix3 r b 3)) (y (ix3 r b 4)) - pick2 (t (ix3 r b 1)) (y (ix3 r b 3)) (y (ix3 r b 4))))
    + (lse2 (y (ix3 r b 5)) (y (ix3 r b 6)) - pick2 (t (ix3 r b 2)) (y (ix3 r b 5)) (y (ix3 r b 6)))

/-- Time step `r` counts for sample `b`: `r < len[b]` as signed words. -/
def live (len : IVec SL 32) (r : Fin 4096) (b : Fin 512) : BitVec 1 :=
  IntOp.cmpi .slt (BitVec.ofNat 32 r.val) (len (ix1 b))

/-- The masked loss of time step `r`, sample `b`. -/
def term (y : FVec Ideal SY .f32) (t : IVec ST 32) (len : IVec SL 32) (r : Fin 4096) (b : Fin 512) : EReal :=
  Scalar.select (live len r b) (nll y t r b) 0

/-- Sample `b`'s numerator: the masked loss summed over all time steps. -/
def num (y : FVec Ideal SY .f32) (t : IVec ST 32) (len : IVec SL 32) (b : Fin 512) : EReal :=
  ∑ r : Fin 4096, term y t len r b

/-- The numerators as a vector over the samples. -/
def numVec (y : FVec Ideal SY .f32) (t : IVec ST 32) (len : IVec SL 32) : FVec Ideal SL .f32 :=
  fun j => num y t len (j 0)

/-- Every logit is a real number. -/
def Finite (y : FVec Ideal SY .f32) : Prop := ∀ i : SY.Idx, ∃ x : ℝ, y i = (x : EReal)

/-- Every label is a class of its group: 0, 1 or 2 for the first, 0 or 1 for the other two. -/
def Labels (t : IVec ST 32) : Prop :=
  ∀ (r : Fin 4096) (b : Fin 512),
    (t (ix3 r b 0) = 0#32 ∨ t (ix3 r b 0) = 1#32 ∨ t (ix3 r b 0) = 2#32)
    ∧ (t (ix3 r b 1) = 0#32 ∨ t (ix3 r b 1) = 1#32)
    ∧ (t (ix3 r b 2) = 0#32 ∨ t (ix3 r b 2) = 1#32)

end Cert.Spec

end
-- ==== Proof.KPay.lean ====
/-
  The kernel body's stored value, read at one lane. At lane `j` of the output block the body leaves what the block held
  plus the sum over the block's 1024 time steps `r` of the masked loss: the loss of the seven logits and three labels the
  planes hold at `(r, j)`, kept where the time step's number `1024·ti + r` is below the lane's length and zero elsewhere.
-/
import proofs.«431143_j2637109919916_2_alg».proof.Proof.KBody
import proofs.«431143_j2637109919916_2_alg».proof.Proof.Spec
import Idealize.ShloMosaic.Lib.ValueLayout
import Idealize.ShloMosaic.PureOps.Ideal.Laws

noncomputable section

namespace Cert.KernelIdeal.KV

open Idealize.ShloMosaic Idealize.ShloMosaic.TcCoe Idealize.ShloMosaic.ValueIdx Cert.KernelIdeal Cert.KernelIdeal.Gen Cert.Spec

/-- The loss of one time step of one sample from its seven logits and three labels. -/
def nllS (a0 a1 a2 a3 a4 a5 a6 : EReal) (t0 t1 t2 : BitVec 32) : EReal :=
  (lse3 a0 a1 a2 - pick3 t0 a0 a1 a2 + (lse2 a3 a4 - pick2 t1 a3 a4)) + (lse2 a5 a6 - pick2 t2 a5 a6)

/-- Plane `k` of the logit block, viewed [1024, 256], reads the block at `(k, r, j)`. -/
theorem yplane (x0 : Vec Ideal S7x1024x256 .f32) (k : Fin 7) (off : Fin 3 → Nat) (hoff : off = ![k.val, 0, 0])
    (h : ∀ a, off a + S1x1024x256.size a ≤ S7x1024x256.size a) (r : Fin 1024) (j : Fin 256) :
    shapeCast S1024x256 (ySlab x0 off h) shapeCasts_S1x1024x256_S1024x256 (ix2 r j) = x0 (ix3 k r j) := by
  subst hoff
  refine (shapeCast_1ab_ab_apply _ _ r j).trans ?_
  show x0 _ = x0 _
  congr 1
  funext a
  apply Fin.ext
  match a with
  | ⟨0, _⟩ => show k.val + 1 * 0 = k.val; omega
  | ⟨1, _⟩ => show 0 + 1 * r.val = r.val; omega
  | ⟨2, _⟩ => show 0 + 1 * j.val = j.val; omega

/-- Plane `k` of the label block, viewed [1024, 256], reads the block at `(k, r, j)`. -/
theorem tplane (x1 : Vec Ideal S3x1024x256 .i32) (k : Fin 3) (off : Fin 3 → Nat) (hoff : off = ![k.val, 0, 0])
    (h : ∀ a, off a + S1x1024x256.size a ≤ S3x1024x256.size a) (r : Fin 1024) (j : Fin 256) :
    shapeCast S1024x256 (tSlab x1 off h) shapeCasts_S1x1024x256_S1024x256 (ix2 r j) = x1 (ix3 k r j) := by
  subst hoff
  refine (shapeCast_1ab_ab_apply _ _ r j).trans ?_
  show x1 _ = x1 _
  congr 1
  funext a
  apply Fin.ext
  match a with
  | ⟨0, _⟩ => show k.val + 1 * 0 = k.val; omega
  | ⟨1, _⟩ => show 0 + 1 * r.val = r.val; omega
  | ⟨2, _⟩ => show 0 + 1 * j.val = j.val; omega

/-- A [1024, 1] column laid across 256 lanes reads, at `(r, j)`, the column at `r`. -/
theorem colBroadcast {α : Type} (v : (⟨2, ![1024, 1]⟩ : Shape).Idx → α) (h : (⟨2, ![1024, 1]⟩ : Shape).Broadcasts ⟨2, ![1024, 256]⟩)
    (r : Fin 1024) (j : Fin 256) : broadcastTo ⟨2, ![1024, 256]⟩ v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- The lane sum's index map: lane `j` with time step `k` put back is `(k, j)`. -/
theorem lift_rows (h : (⟨2, ![1024, 256]⟩ : Shape).Reduces [0] (⟨1, ![256]⟩ : Shape)) (j : Fin 256)
    (k : Fin ((⟨2, ![1024, 256]⟩ : Shape).size 0)) : h.lift (ix1 j) k = ix2 (⟨k.val, k.isLt⟩ : Fin 1024) j := by
  funext c; apply Fin.ext
  fin_cases c <;> rfl

/-- The mask bit the body computes at `(r, j)`: the time step's number `1024·ti + r` against lane `j`'s length. -/
theorem mask_apply (ti : BitVec 32) (x2 : Vec Ideal S1x256 .i32) (r : Fin 1024) (j : Fin 256) :
    k0_pay15 (F := Ideal) ti x2 (ix2 r j) = IntOp.cmpi .slt (Scalar.muli ti 1024#32 + BitVec.ofNat 32 r.val) (x2 (ix2 (0 : Fin 1) j)) := by
  unfold k0_pay15
  show IntOp.cmpi .slt (broadcastTo S1024x256 _ broadcasts_S1024x1_S1024x256 (ix2 r j)) (broadcastTo S1024x256 _ broadcasts_S1x256_S1024x256 (ix2 r j)) = _
  rw [colBroadcast, broadcastTo_1b_ab_apply, shapeCast_self]
  show IntOp.cmpi .slt (Scalar.muli ti 1024#32 + iota .tc S1024x1 32 [0] iota_S1024x1_d0_w32 (ix2 r (0 : Fin 1))) _ = _
  rw [iota_single_apply]

/-- The loss the body computes at `(r, j)` from the planes' entries there. -/
theorem loss_apply (v4 v6 v8 v10 v12 v14 v16 : FVec Ideal S1024x256 .f32) (v18 v20 v22 : IVec S1024x256 32) (i : S1024x256.Idx) :
    k0_pay14 (F := Ideal) v4 v6 v8 v10 v12 v14 v16 v18 v20 v22 (maximumf (maximumf v4 v6) v8) i
      = nllS (v4 i) (v6 i) (v8 i) (v10 i) (v12 i) (v14 i) (v16 i) (v18 i) (v20 i) (v22 i) := rfl

/-- The masked loss of the block's time step `r` at lane `j`, from the staged blocks' entries: `ti` is the time-step
    block's number as a word, `x2` the lane's length. -/
def blkTerm (x0 : Vec Ideal S7x1024x256 .f32) (x1 : Vec Ideal S3x1024x256 .i32) (x2 : Vec Ideal S1x256 .i32) (ti : BitVec 32)
    (r : Fin 1024) (j : Fin 256) : EReal :=
  Scalar.select (IntOp.cmpi .slt (Scalar.muli ti 1024#32 + BitVec.ofNat 32 r.val) (x2 (ix2 (0 : Fin 1) j)))
    (nllS (x0 (ix3 (0 : Fin 7) r j)) (x0 (ix3 (1 : Fin 7) r j)) (x0 (ix3 (2 : Fin 7) r j)) (x0 (ix3 (3 : Fin 7) r j))
      (x0 (ix3 (4 : Fin 7) r j)) (x0 (ix3 (5 : Fin 7) r j)) (x0 (ix3 (6 : Fin 7) r j))
      (x1 (ix3 (0 : Fin 3) r j)) (x1 (ix3 (1 : Fin 3) r j)) (x1 (ix3 (2 : Fin 3) r j))) 0

/-- The body's stored value at lane `j`: what the block held there plus the sum of the masked losses over the block's
    1024 time steps (the lane sum is a plain sum on the extended reals, and the fill of the masked-out entries is zero). -/
theorem body_apply (x0 : Vec Ideal S7x1024x256 .f32) (x1 : Vec Ideal S3x1024x256 .i32) (x2 : Vec Ideal S1x256 .i32) (ti : BitVec 32)
    (prev : Vec Ideal S1x256 .f32) (j : Fin 256) :
    body (F := Ideal) x0 x1 x2 ti prev (ix2 (0 : Fin 1) j) = prev (ix2 (0 : Fin 1) j) + ∑ r : Fin 1024, blkTerm x0 x1 x2 ti r j := by
  unfold body k0_pay1
  show shapeCast S1x256 prev shapeCasts_S1x256_S1x256 (ix2 (0 : Fin 1) j) + shapeCast S1x256 _ shapeCasts_S256_S1x256 (ix2 (0 : Fin 1) j) = _
  rw [shapeCast_self, shapeCast_a_1a_apply]
  congr 1
  refine (Ideal.multiReduction_add_single (s := S1024x256) (t := S256) (a := 0) _ _ _ _ _ (ix1 j)).trans ?_
  refine Finset.sum_congr rfl fun k _ => ?_
  obtain ⟨kv, hk⟩ := k
  have hk' : kv < 1024 := hk
  rw [lift_rows]
  show Scalar.select (k0_pay15 (F := Ideal) ti x2 (ix2 (⟨kv, hk'⟩ : Fin 1024) j)) (k0_pay14 (F := Ideal) _ _ _ _ _ _ _ _ _ _ _ (ix2 (⟨kv, hk'⟩ : Fin 1024) j)) (Ideal.ofBits .f32 0#32) = blkTerm x0 x1 x2 ti ⟨kv, hk'⟩ j
  rw [mask_apply]
  unfold k0_pay13
  rw [loss_apply]
  unfold blkTerm k0_pay3 k0_pay4 k0_pay5 k0_pay6 k0_pay7 k0_pay8 k0_pay9 k0_pay10 k0_pay11 k0_pay12
  rw [yplane x0 0 ![0, 0, 0] rfl, yplane x0 1 ![1, 0, 0] rfl, yplane x0 2 ![2, 0, 0] rfl, yplane x0 3 ![3, 0, 0] rfl, yplane x0 4 ![4, 0, 0] rfl,
    yplane x0 5 ![5, 0, 0] rfl, yplane x0 6 ![6, 0, 0] rfl, tplane x1 0 ![0, 0, 0] rfl, tplane x1 1 ![1, 0, 0] rfl, tplane x1 2 ![2, 0, 0] rfl]
  rw [show Ideal.ofBits .f32 0#32 = (0 : EReal) from Ideal.ofBits_zero_f32]

end Cert.KernelIdeal.KV

end
-- ==== Proof.KBlocks.lean ====
/-
  What the kernel's input blocks hold at grid point `t` (sample block `t / 4`, time-step block `t % 4`), in terms of
  the three arguments. The host moves the class axis to the front before the call (logits [7, 4096, 512], labels
  [3, 4096, 512]) and views the lengths as a [1, 512] row; the windows then cut [·, 1024, 256] and [1, 256] blocks. So
  entry `(k, r, j)` of the logit block is `y[1024·(t % 4) + r, 256·(t / 4) + j, k]`, likewise the labels, and lane `j` of
  the length block is `len[256·(t / 4) + j]`.
-/
import proofs.«431143_j2637109919916_2_alg».proof.Proof.Gen.KernelIdeal.Frame
import Idealize.ShloMosaic.Lib.Pipeline.Value
import Idealize.ShloMosaic.Lib.ValueLayout
import Idealize.ShloMosaic.Lib.StableHlo.Run

noncomputable section

namespace Cert.KernelIdeal.KV

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- The three input blocks at point `t`, at their literal types. -/
abbrev yb (c : Dev nD) (t : Fin cfg0.N) : Vec F S7x1024x256 .f32 := iblk m c 0 t
abbrev tb (c : Dev nD) (t : Fin cfg0.N) : Vec F S3x1024x256 .i32 := iblk m c 1 t
abbrev lb (c : Dev nD) (t : Fin cfg0.N) : Vec F S1x256 .i32 := iblk m c 2 t

/-- Grid point `t` is below 8. -/
theorem t_lt (t : Fin cfg0.N) : t.val < 8 := lt_of_lt_of_eq t.isLt (show cfg0.N = 8 from N_0)

/-- The windows' block indices at point `t`: the class axis is never cut, the time-step axis is at `t % 4`, the sample
    axis at `t / 4` — decided once over the eight points. -/
theorem idx0 : ∀ t : Fin cfg0.N, win0_0.index t 0 = 0 ∧ win0_0.index t 1 = t.val % 4 ∧ win0_0.index t 2 = t.val / 4 :=
  (by decide +kernel : ∀ t : Fin grid0.N, win0_0.index t 0 = 0 ∧ win0_0.index t 1 = t.val % 4 ∧ win0_0.index t 2 = t.val / 4)
theorem idx1 : ∀ t : Fin cfg0.N, win0_1.index t 0 = 0 ∧ win0_1.index t 1 = t.val % 4 ∧ win0_1.index t 2 = t.val / 4 :=
  (by decide +kernel : ∀ t : Fin grid0.N, win0_1.index t 0 = 0 ∧ win0_1.index t 1 = t.val % 4 ∧ win0_1.index t 2 = t.val / 4)
theorem idx2 : ∀ t : Fin cfg0.N, win0_2.index t 0 = 0 ∧ win0_2.index t 1 = t.val / 4 :=
  (by decide +kernel : ∀ t : Fin grid0.N, win0_2.index t 0 = 0 ∧ win0_2.index t 1 = t.val / 4)
theorem idx3 : ∀ t : Fin cfg0.N, win0_3.index t 0 = 0 ∧ win0_3.index t 1 = t.val / 4 :=
  (by decide +kernel : ∀ t : Fin grid0.N, win0_3.index t 0 = 0 ∧ win0_3.index t 1 = t.val / 4)

/-- The logits as the call finds them: the argument with its class axis moved to the front. -/
theorem V_y (c : Dev nD) : (V m c main_v0 : S7x4096x512.Idx → F .f32)
    = transpose S7x4096x512 [2, 0, 1] (m ((c : Thread nD τ).loc main_arg0)) transposes_S4096x512x7_S7x4096x512_2_0_1 := by
  show StableHlo.after hostOps0 (fun b => m (c, b)) (Proc.devRef .tc main_v0) = _
  after_results

/-- The labels as the call finds them: the argument with its class axis moved to the front. -/
theorem V_t (c : Dev nD) : (V m c main_v1 : S3x4096x512.Idx → BitVec 32)
    = transpose S3x4096x512 [2, 0, 1] (m ((c : Thread nD τ).loc main_arg1)) transposes_S4096x512x3_S3x4096x512_2_0_1 := by
  show StableHlo.after hostOps0 (fun b => m (c, b)) (Proc.devRef .tc main_v1) = _
  after_results

/-- The lengths as the call finds them: the argument viewed as a [1, 512] row. -/
theorem V_l (c : Dev nD) : (V m c main_v2 : S1x512.Idx → BitVec 32)
    = shapeCast S1x512 (m ((c : Thread nD τ).loc main_arg2)) shapeCasts_S512_S1x512 := by
  show StableHlo.after hostOps0 (fun b => m (c, b)) (Proc.devRef .tc main_v2) = _
  after_results
  rfl

/-- Time step `1024·(t % 4) + r` and sample `256·(t / 4) + j`, as indices of the full axes. -/
abbrev row (t : Fin cfg0.N) (r : Fin 1024) : Fin 4096 := ⟨1024 * (t.val % 4) + r.val, by have := r.isLt; omega⟩
abbrev col (t : Fin cfg0.N) (j : Fin 256) : Fin 512 := ⟨256 * (t.val / 4) + j.val, by have := j.isLt; have := t_lt t; omega⟩

/-- Entry `(k, r, j)` of the logit block at point `t`. -/
theorem yb_apply (c : Dev nD) (t : Fin cfg0.N) (k : Fin 7) (r : Fin 1024) (j : Fin 256) :
    yb m c t (ix3 k r j) = m ((c : Thread nD τ).loc main_arg0) (ix3 (row t r) (col t j) k) := by
  obtain ⟨h0, h1, h2⟩ := idx0 t
  unfold yb iblk
  rw [View.read_apply]
  show V m c main_v0 _ = _
  rw [V_y]
  refine transpose_apply _ _ _ _ (ix3 (row t r) (col t j) k) fun b => ?_
  match b with
  | ⟨0, _⟩ => show k.val = win0_0.index t 0 * 7 + 1 * k.val; rw [h0]; omega
  | ⟨1, _⟩ => show 1024 * (t.val % 4) + r.val = win0_0.index t 1 * 1024 + 1 * r.val; rw [h1]; omega
  | ⟨2, _⟩ => show 256 * (t.val / 4) + j.val = win0_0.index t 2 * 256 + 1 * j.val; rw [h2]; omega

/-- Entry `(k, r, j)` of the label block at point `t`. -/
theorem tb_apply (c : Dev nD) (t : Fin cfg0.N) (k : Fin 3) (r : Fin 1024) (j : Fin 256) :
    tb m c t (ix3 k r j) = m ((c : Thread nD τ).loc main_arg1) (ix3 (row t r) (col t j) k) := by
  obtain ⟨h0, h1, h2⟩ := idx1 t
  unfold tb iblk
  rw [View.read_apply]
  show V m c main_v1 _ = _
  rw [V_t]
  refine transpose_apply _ _ _ _ (ix3 (row t r) (col t j) k) fun b => ?_
  match b with
  | ⟨0, _⟩ => show k.val = win0_1.index t 0 * 3 + 1 * k.val; rw [h0]; omega
  | ⟨1, _⟩ => show 1024 * (t.val % 4) + r.val = win0_1.index t 1 * 1024 + 1 * r.val; rw [h1]; omega
  | ⟨2, _⟩ => show 256 * (t.val / 4) + j.val = win0_1.index t 2 * 256 + 1 * j.val; rw [h2]; omega

/-- Lane `j` of the length block at point `t`. -/
theorem lb_apply (c : Dev nD) (t : Fin cfg0.N) (j : Fin 256) :
    lb m c t (ix2 (0 : Fin 1) j) = m ((c : Thread nD τ).loc main_arg2) (ix1 (col t j)) := by
  obtain ⟨h0, h1⟩ := idx2 t
  unfold lb iblk
  rw [View.read_apply]
  show V m c main_v2 _ = _
  rw [V_l]
  refine (shapeCast_apply _ _ _ (ix1 (col t j)) ?_)
  rw [Shape.rowMajor_val_one, Shape.rowMajor_val_two]
  show 256 * (t.val / 4) + j.val = (win0_2.index t 0 * 1 + 1 * 0) * 512 + (win0_2.index t 1 * 256 + 1 * j.val)
  rw [h0, h1]; omega

end Cert.KernelIdeal.KV

end
-- ==== Proof.KAccum.lean ====
/-
  The accumulation across the grid. Within a sample block the four time-step blocks are visited in order; the first
  resets the output block and every point adds its 1024 masked losses. So after point `t` lane `j` of the output block
  holds the masked loss of sample `256·(t / 4) + j` summed over the time steps below `1024·(t % 4 + 1)` — by induction on
  the point; sums on the extended reals split over consecutive ranges with no side condition.
-/
import proofs.«431143_j2637109919916_2_alg».proof.Proof.KPay
import proofs.«431143_j2637109919916_2_alg».proof.Proof.KBlocks
import Mathlib.Algebra.BigOperators.Fin
import Mathlib.Algebra.BigOperators.Intervals

noncomputable section

namespace Cert.KernelIdeal.KV

open Idealize.ShloMosaic Idealize.ShloMosaic.TcCoe Idealize.ShloMosaic.ValueIdx Idealize.SL.Sem Cert.KernelIdeal Cert.KernelIdeal.Gen Cert.Spec

variable (m : (ℓ : Loc nD τ sig) → Buf (Elt Ideal) ℓ)

/-- The three arguments' contents on core `c`. -/
abbrev yA (c : Dev nD) : FVec Ideal SY .f32 := m ((c : Thread nD τ).loc main_arg0)
abbrev tA (c : Dev nD) : IVec ST 32 := m ((c : Thread nD τ).loc main_arg1)
abbrev lA (c : Dev nD) : IVec SL 32 := m ((c : Thread nD τ).loc main_arg2)

/-- The masked loss of sample `b` at time step `R`, as a function of the natural number `R` (zero past the last step). -/
def termN (c : Dev nD) (b : Fin 512) (R : ℕ) : EReal :=
  if h : R < 4096 then term (yA m c) (tA m c) (lA m c) ⟨R, h⟩ b else 0

/-- The masked losses of sample `b` summed over the time steps below `n`. -/
def accN (c : Dev nD) (b : Fin 512) (n : ℕ) : EReal := ∑ R ∈ Finset.range n, termN m c b R

/-- Summing below `1024·k` and then the next 1024 steps is summing below `1024·(k+1)`. -/
theorem acc_step (f : ℕ → EReal) (k : ℕ) :
    (∑ R ∈ Finset.range (1024 * k), f R) + ∑ r : Fin 1024, f (1024 * k + r.val) = ∑ R ∈ Finset.range (1024 * (k + 1)), f R := by
  rw [Fin.sum_univ_eq_sum_range (fun r => f (1024 * k + r)) 1024, ← Finset.sum_range_add, Nat.mul_succ]

/-- The whole range is the sum over all time steps. -/
theorem accN_all (c : Dev nD) (b : Fin 512) : accN m c b 4096 = num (yA m c) (tA m c) (lA m c) b := by
  unfold accN num
  rw [← Fin.sum_univ_eq_sum_range (fun R => termN m c b R) 4096]
  refine Finset.sum_congr rfl fun R _ => ?_
  unfold termN
  rw [dif_pos R.isLt]

/-- The second grid coordinate of point `t` is `t % 4` — decided over the eight points. -/
theorem coord1 : ∀ t : Fin cfg0.N, (grid0.coords t 1).val = t.val % 4 :=
  (by decide +kernel : ∀ t : Fin grid0.N, (grid0.coords t 1).val = t.val % 4)

/-- The time step's number as the body computes it, a word: `1024·a + r`. -/
theorem word_row (a r : ℕ) : Scalar.muli (BitVec.ofNat 32 a) 1024#32 + BitVec.ofNat 32 r = BitVec.ofNat 32 (1024 * a + r) := by
  show BitVec.ofNat 32 a * BitVec.ofNat 32 1024 + BitVec.ofNat 32 r = _
  rw [← BitVec.ofNat_mul, ← BitVec.ofNat_add, Nat.mul_comm]

/-- A block's masked loss at `(r, j)` is the sample's masked loss at the block's time step. -/
theorem blkTerm_eq (c : Dev nD) (t : Fin cfg0.N) (r : Fin 1024) (j : Fin 256) :
    blkTerm (yb m c t) (tb m c t) (lb m c t) (BitVec.ofNat 32 (grid0.coords t 1).val) r j
      = termN m c (col t j) (1024 * (t.val % 4) + r.val) := by
  have hR : 1024 * (t.val % 4) + r.val < 4096 := by have := r.isLt; omega
  unfold blkTerm termN
  rw [dif_pos hR, coord1, word_row]
  rw [yb_apply, yb_apply, yb_apply, yb_apply, yb_apply, yb_apply, yb_apply, tb_apply, tb_apply, tb_apply, lb_apply]
  rfl

/-- THE ACCUMULATION: after point `n`, lane `j` of the output block holds the sample's masked losses summed over the
    time steps below `1024·(n % 4 + 1)`. -/
theorem outs_eq (c : Dev nD) : ∀ (n : ℕ) (h : n < cfg0.N) (j : Fin 256),
    outsAt0 m c n h (ix2 (0 : Fin 1) j) = accN m c (col ⟨n, h⟩ j) (1024 * (n % 4 + 1))
  | 0, h, j => by
    rw [outsAt0_A m c ⟨0, h⟩ rfl, out_A, body_apply]
    show Ideal.ofBits .f32 0#32 + _ = _
    rw [show Ideal.ofBits .f32 0#32 = (0 : EReal) from Ideal.ofBits_zero_f32, zero_add]
    have e := acc_step (termN m c (col ⟨0, h⟩ j)) 0
    rw [Nat.mul_zero, Finset.range_zero, Finset.sum_empty, zero_add] at e
    rw [show accN m c (col ⟨0, h⟩ j) (1024 * (0 % 4 + 1)) = ∑ R ∈ Finset.range (1024 * (0 + 1)), termN m c (col ⟨0, h⟩ j) R from rfl, ← e]
    refine Finset.sum_congr rfl fun r _ => ?_
    exact (blkTerm_eq m c ⟨0, h⟩ r j).trans (congrArg (termN m c (col ⟨0, h⟩ j)) (by show 1024 * (0 % 4) + r.val = 0 + r.val; omega))
  | n + 1, h, j => by
    have hN : n + 1 < 8 := lt_of_lt_of_eq h (show cfg0.N = 8 from N_0)
    by_cases h0 : (n + 1) % 4 = 0
    · rw [outsAt0_A m c ⟨n + 1, h⟩ h0, out_A, body_apply]
      show Ideal.ofBits .f32 0#32 + _ = _
      rw [show Ideal.ofBits .f32 0#32 = (0 : EReal) from Ideal.ofBits_zero_f32, zero_add]
      have e := acc_step (termN m c (col ⟨n + 1, h⟩ j)) 0
      rw [Nat.mul_zero, Finset.range_zero, Finset.sum_empty, zero_add] at e
      rw [show accN m c (col ⟨n + 1, h⟩ j) (1024 * ((n + 1) % 4 + 1)) = ∑ R ∈ Finset.range (1024 * (0 + 1)), termN m c (col ⟨n + 1, h⟩ j) R from by rw [h0]; rfl, ← e]
      refine Finset.sum_congr rfl fun r _ => ?_
      exact (blkTerm_eq m c ⟨n + 1, h⟩ r j).trans (by show termN m c _ (1024 * ((n + 1) % 4) + r.val) = _; rw [h0])
    · have hB : ¬(⟨n + 1, h⟩ : Fin cfg0.N).val % 4 = 0 := h0
      rw [outsAt0_B m c ⟨n + 1, h⟩ hB, out_B, body_apply]
      show outsAt0 m c n _ (ix2 (0 : Fin 1) j) + _ = _
      rw [outs_eq c n _ j]
      have hc : col (⟨n, Nat.lt_of_succ_lt h⟩ : Fin cfg0.N) j = col ⟨n + 1, h⟩ j := Fin.ext (by show 256 * (n / 4) + j.val = 256 * ((n + 1) / 4) + j.val; omega)
      have hk : n % 4 + 1 = (n + 1) % 4 := by omega
      rw [hc, hk]
      have e := acc_step (termN m c (col ⟨n + 1, h⟩ j)) ((n + 1) % 4)
      unfold accN
      rw [← e]
      refine congrArg (fun x => (∑ R ∈ Finset.range (1024 * ((n + 1) % 4)), termN m c (col ⟨n + 1, h⟩ j) R) + x) ?_
      refine Finset.sum_congr rfl fun r _ => ?_
      exact blkTerm_eq m c ⟨n + 1, h⟩ r j

end Cert.KernelIdeal.KV

end
-- ==== Proof.SpecTail.lean ====
/-
  The tail both programs share: from the per-sample numerators `n` and the lengths, the mean loss. Each numerator is
  divided by its sample's length as a float (by 1 where the length is not positive), samples of non-positive length
  contribute zero, and the sum over the 512 samples is divided by 512.
-/
import Idealize.ShloMosaic.PureOps.Ideal
import Idealize.ShloMosaic.Lib.ValueIdx

noncomputable section

namespace Cert.Spec

open Idealize.ShloMosaic

/-- The mean loss from the numerators and the lengths, as the host operations compute it. -/
def tail (hb : (⟨0, ![]⟩ : Shape).BroadcastsInDim (⟨1, ![512]⟩ : Shape) (![] : Fin 0 → Fin 1))
    (hr : (⟨1, ![512]⟩ : Shape).ReducesTo [0] (⟨0, ![]⟩ : Shape)) (h0 : 0 < (⟨0, ![]⟩ : Shape).numel)
    (n : FVec Ideal ⟨1, ![512]⟩ .f32) (len : IVec ⟨1, ![512]⟩ 32) : FVec Ideal ⟨0, ![]⟩ .f32 :=
  Host.divf (F := Ideal)
    (Host.reduceAdd (F := Ideal)
      (select (cmpi .sgt len (broadcastInDim ⟨1, ![512]⟩ ![] hb (constantI ⟨0, ![]⟩ 32 0#32)))
        (Host.divf (F := Ideal) n
          (sitofp (F := Ideal) .f32
            (select (cmpi .sgt len (broadcastInDim ⟨1, ![512]⟩ ![] hb (constantI ⟨0, ![]⟩ 32 0#32))) len
              (broadcastInDim ⟨1, ![512]⟩ ![] hb (id (constantI ⟨0, ![]⟩ 32 1#32))))))
        (broadcastInDim ⟨1, ![512]⟩ ![] hb (id (constant (F := Ideal) ⟨0, ![]⟩ .f32 0x00000000#32))))
      (constant (F := Ideal) ⟨0, ![]⟩ .f32 0x00000000#32) hr h0)
    (constant (F := Ideal) ⟨0, ![]⟩ .f32 0x44000000#32)

end Cert.Spec

end
-- ==== Proof.KFinal.lean ====
/-
  The kernel program's result. The output block is written back after the last time-step block of each sample block
  (points 3 and 7), and then holds the full sums; the two blocks cover the [1, 512] result row, which therefore ends at
  the numerators. The host operations after the call turn the row into the mean loss: the shared tail.
-/
import proofs.«431143_j2637109919916_2_alg».proof.Proof.KAccum
import proofs.«431143_j2637109919916_2_alg».proof.Proof.SpecTail

noncomputable section

namespace Cert.KernelIdeal.KV

open Idealize.ShloMosaic Idealize.ShloMosaic.TcCoe Idealize.ShloMosaic.ValueIdx Idealize.SL.Sem Cert.KernelIdeal Cert.KernelIdeal.Gen Cert.Spec
open Idealize.ShloMosaic.Pipeline (Dat)

variable (m : (ℓ : Loc nD τ sig) → Buf (Elt Ideal) ℓ) (ρ : Dev nD → PrngReg)

/-- The numerators as the [1, 512] row the call writes. -/
def numRow (c : Dev nD) : Vec Ideal S1x512 .f32 := fun i => num (yA m c) (tA m c) (lA m c) (i 1)

/-- A write-back happens after the fourth time-step block, and writes the full sums of its 256 samples. -/
theorem flushed_eq (c : Dev nD) (t : Fin cfg0.N) (hf : (cfg0.win 3).flush t = true) :
    (dats m 0 c).flushed 3 t = ((cfg0.win 3).blk t).view.read (Elt Ideal) (numRow m c) := by
  have h3 : t.val % 4 = 3 := (flush0_3 t).mp hf
  obtain ⟨i0, i1⟩ := idx3 t
  show (cfg0.win 3).cut (grid0.coords t) ((dats m 0 c).after 3 t) = _
  rw [after0_3]
  funext y
  rw [View.read_apply]
  obtain ⟨u, j, rfl⟩ : ∃ (u : Fin 1) (j : Fin 256), y = ix2 u j := ⟨y 0, y 1, eq_ix2 y⟩
  obtain rfl : u = 0 := Subsingleton.elim _ _
  show outsAt0 m c t.val t.isLt (ix2 (0 : Fin 1) j) = _
  rw [outs_eq m c t.val t.isLt j, h3]
  show accN m c (col t j) 4096 = _
  rw [accN_all]
  show num _ _ _ (col t j) = num _ _ _ _
  congr 1
  apply Fin.ext
  show 256 * (t.val / 4) + j.val = win0_3.index t 1 * 256 + 1 * j.val
  rw [i1]; omega

/-- So the result row ends holding the numerators: points 3 and 7 cover it. -/
theorem final (c : Dev nD) : (dats m 0 c).arrAt 3 cfg0.N = numRow m c :=
  (dats m 0 c).arrAt_eq_of_cover 3 (numRow m c) (flushed_eq m c) fun i => by
    have h0 : (i 0 : Nat) < 1 := (i 0).isLt
    have h1 : (i 1 : Nat) < 512 := (i 1).isLt
    by_cases hlt : (i 1 : Nat) < 256
    · refine ⟨t0_3, (flush0_3 t0_3).mpr rfl, ?_⟩
      show i ∈ ((View.whole main_v3).slice (win0_3.rect t0_3)).set
      rw [View.set_slice_whole, Rect.mem_set_unit]
      intro a
      match a with
      | ⟨0, _⟩ => show win0_3.index t0_3 0 * win0_3.size 0 ≤ (i 0 : Nat) ∧ (i 0 : Nat) < win0_3.index t0_3 0 * win0_3.size 0 + win0_3.xsize (grid0.coords t0_3) 0
                  rw [show win0_3.index t0_3 0 * win0_3.size 0 = 0 from by decide +kernel, show win0_3.xsize (grid0.coords t0_3) 0 = 1 from by decide +kernel]; omega
      | ⟨1, _⟩ => show win0_3.index t0_3 1 * win0_3.size 1 ≤ (i 1 : Nat) ∧ (i 1 : Nat) < win0_3.index t0_3 1 * win0_3.size 1 + win0_3.xsize (grid0.coords t0_3) 1
                  rw [show win0_3.index t0_3 1 * win0_3.size 1 = 0 from by decide +kernel, show win0_3.xsize (grid0.coords t0_3) 1 = 256 from by decide +kernel]; omega
    · refine ⟨t0_7, (flush0_3 t0_7).mpr rfl, ?_⟩
      show i ∈ ((View.whole main_v3).slice (win0_3.rect t0_7)).set
      rw [View.set_slice_whole, Rect.mem_set_unit]
      intro a
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 256 from by decide +kernel, show win0_3.xsize (grid0.coords t0_7) 1 = 256 from by decide +kernel]; omega

/-- The result row viewed as a vector over the samples is the vector of numerators. -/
theorem row_as_vec (c : Dev nD) : shapeCast S512 (numRow m c) shapeCasts_S1x512_S512 = numVec (yA m c) (tA m c) (lA m c) := by
  funext i
  obtain ⟨b, rfl⟩ : ∃ b : Fin 512, i = ix1 b := ⟨i 0, eq_ix1 i⟩
  exact shapeCast_1a_a_apply _ _ b

/-- What the host operations after the call leave in the result buffer: the shared tail of the numerators. -/
theorem tail_eq (c : Dev nD) :
    Pipeline.afterTail₀ cfgs (dats m) 0 (V0 m) [hostOps1, hostOps1_1, hostOps1_2, hostOps1_3, hostOps1_4] c main_v12
      = tail bcast_S_S512 reducesTo_S512_S_d0 h_S_ (numVec (yA m c) (tA m c) (lA m c)) (lA m c) := by
  unfold Pipeline.afterTail₀
  simp only [hostOps1, hostOps1_1, hostOps1_2, hostOps1_3, hostOps1_4, List.flatten_cons, List.flatten_nil, List.append_nil, List.cons_append, List.nil_append]
  after_results
  rw [show Pipeline.withArrays (cfgs 0).spec c (V0 m c) (fun w => (dats m 0 c).arrAt w (cfgs 0).N) (Proc.devRef .tc main_v3) = numRow m c from
        (Pipeline.withArrays_arr spec0 launch0.win.arr_inj c _ _ 3).trans (final m c),
      show Pipeline.withArrays (cfgs 0).spec c (V0 m c) (fun w => (dats m 0 c).arrAt w (cfgs 0).N) (Proc.devRef .tc main_arg2) = lA m c from
        (Pipeline.withArrays_of_ne _ c (V0 m c) _ main_arg2 (by exact (by decide : ∀ w, Pipeline.arrRef spec0 w ≠ main_arg2))).trans (V_main_arg2 m c)]
  rw [← row_as_vec m c]
  unfold tail
  simp only [StableHlo.TRef.ofBuf, StableHlo.TRef.toBuf, cast_eq]
  rfl

/-- The kernel program's run, read: the result buffer at the shared tail of the numerators, the arguments unchanged. -/
theorem run : θ_run defs (onTc (τ := τ) (main (F := Ideal))) ⟨m, fun _ => 0, ρ⟩ fun r => ∀ c : Dev nD,
      r.2.mem ((c.tc : Thread nD τ).loc main_v12) = tail bcast_S_S512 reducesTo_S512_S_d0 h_S_ (numVec (yA m c) (tA m c) (lA m c)) (lA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KV

end
-- ==== Proof.RefOps.lean ====
/-
  The reference's @main as a list of host operations, in program order, laid out in five stretches: a prelude, one
  stretch per softmax head, and the tail. The whole list is their concatenation, and @main is the sequence of it.
-/
import proofs.«431143_j2637109919916_2_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The prelude: the time-step mask `r < len[b]`, the test `len[b] > 0`, and the divisor `len[b]` (or 1) as a float. (14 operations) -/
abbrev opsP : List (HloOp τ sig (Elt F)) :=
  [ nullary main_v0 (iotaInDim S4096 32 0),
    unary main_v0 main_v1 (broadcastInDim S4096x1 ![0] bcast_S4096_S4096x1_0 : (⟨S4096, .i32⟩ : BufTy).Contents (Elt F) → (⟨S4096x1, .i32⟩ : BufTy).Contents (Elt F)),
    unary main_arg2 main_v2 (broadcastInDim S1x512 ![1] bcast_S512_S1x512_1 : (⟨S512, .i32⟩ : BufTy).Contents (Elt F) → (⟨S1x512, .i32⟩ : BufTy).Contents (Elt F)),
    unary main_v1 main_v3 (broadcastInDim S4096x512 ![0, 1] bcast_S4096x1_S4096x512_0_1 : (⟨S4096x1, .i32⟩ : BufTy).Contents (Elt F) → (⟨S4096x512, .i32⟩ : BufTy).Contents (Elt F)),
    unary main_v2 main_v4 (broadcastInDim S4096x512 ![0, 1] bcast_S1x512_S4096x512_0_1 : (⟨S1x512, .i32⟩ : BufTy).Contents (Elt F) → (⟨S4096x512, .i32⟩ : BufTy).Contents (Elt F)),
    binary main_v3 main_v4 main_v5 (cmpi .slt : (⟨S4096x512, .i32⟩ : BufTy).Contents (Elt F) → (⟨S4096x512, .i32⟩ : BufTy).Contents (Elt F) → (⟨S4096x512, .i1⟩ : BufTy).Contents (Elt F)),
    nullary main_c (constantI S_ 32 0#32),
    unary main_c main_v6 (broadcastInDim S512 ![] bcast_S_S512 : (⟨S_, .i32⟩ : BufTy).Contents (Elt F) → (⟨S512, .i32⟩ : BufTy).Contents (Elt F)),
    binary main_arg2 main_v6 main_v7 (cmpi .sgt : (⟨S512, .i32⟩ : BufTy).Contents (Elt F) → (⟨S512, .i32⟩ : BufTy).Contents (Elt F) → (⟨S512, .i1⟩ : BufTy).Contents (Elt F)),
    nullary main_c_0 (constantI S_ 32 1#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S512, .i32⟩) main_call0_v1) (broadcastInDim S512 ![] bcast_S_S512),
    TRef.ternary (TRef.of (T := ⟨S512, .i1⟩) main_v7) (TRef.of (T := ⟨S512, .i32⟩) main_arg2) (TRef.of (T := ⟨S512, .i32⟩) main_call0_v1) (TRef.of (T := ⟨S512, .i32⟩) main_v8) select,
    unary main_v8 main_v9 (sitofp .f32 : (⟨S512, .i32⟩ : BufTy).Contents (Elt F) → (⟨S512, .f32⟩ : BufTy).Contents (Elt F)) ]

theorem opsP_sub : (opsP : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub ..⟩

/-- The first head: log-softmax of logits 0..2, the entry the label picks, negated, masked, summed over the time steps. (49 operations) -/
abbrev opsH0 : List (HloOp τ sig (Elt F)) :=
  [ unary main_arg0 main_v10 ((extractStridedSlice S4096x512x3 ![0, 0, 0] · slices_S4096x512x7_S4096x512x3_0_0_0) : (⟨S4096x512x7, .f32⟩ : BufTy).Contents (Elt F) → (⟨S4096x512x3, .f32⟩ : BufTy).Contents (Elt F)),
    unary main_arg1 main_v11 ((extractStridedSlice S4096x512x1 ![0, 0, 0] · slices_S4096x512x3_S4096x512x1_0_0_0) : (⟨S4096x512x3, .i32⟩ : BufTy).Contents (Elt F) → (⟨S4096x512x1, .i32⟩ : BufTy).Contents (Elt F)),
    reshape main_v11 main_v12 rfl shapeCasts_S4096x512x1_S4096x512,
    TRef.nullary (TRef.of (T := ⟨S_, .f32⟩) main_call1_cst) (constant S_ .f32 0xFF800000#32),
    TRef.binary (TRef.of (T := ⟨S4096x512x3, .f32⟩) main_v10) (TRef.of (T := ⟨S_, .f32⟩) main_call1_cst) (TRef.of (T := ⟨S4096x512, .f32⟩) main_call1_v0) (fun x v => Host.reduce FloatOps.maximumf x v reducesTo_S4096x512x3_S4096x512_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S4096x512, .f32⟩) main_call1_v1) (broadcastInDim S4096x512 ![] bcast_S_S4096x512),
    TRef.binary (TRef.of (T := ⟨S4096x512, .f32⟩) main_call1_v1) (TRef.of (T := ⟨S4096x512, .f32⟩) main_call1_v0) (TRef.of (T := ⟨S4096x512, .f32⟩) main_call1_v2) maximumf,
    TRef.unary (TRef.of (T := ⟨S4096x512, .f32⟩) main_call1_v2) (TRef.of (T := ⟨S4096x512x1, .f32⟩) main_call1_v3) (broadcastInDim S4096x512x1 ![0, 1] bcast_S4096x512_S4096x512x1_0_1),
    TRef.unary (TRef.of (T := ⟨S4096x512x1, .f32⟩) main_call1_v3) (TRef.of (T := ⟨S4096x512x3, .f32⟩) main_call1_v4) (broadcastInDim S4096x512x3 ![0, 1, 2] bcast_S4096x512x1_S4096x512x3_0_1_2),
    TRef.binary (TRef.of (T := ⟨S4096x512x3, .f32⟩) main_v10) (TRef.of (T := ⟨S4096x512x3, .f32⟩) main_call1_v4) (TRef.of (T := ⟨S4096x512x3, .f32⟩) main_call1_v5) subf,
    TRef.unary (TRef.of (T := ⟨S4096x512x3, .f32⟩) main_call1_v5) (TRef.of (T := ⟨S4096x512x3, .f32⟩) main_call1_v6) Host.exp,
    TRef.nullary (TRef.of (T := ⟨S_, .f32⟩) main_call1_cst_1) (constant S_ .f32 0x00000000#32),
    TRef.binary (TRef.of (T := ⟨S4096x512x3, .f32⟩) main_call1_v6) (TRef.of (T := ⟨S_, .f32⟩) main_call1_cst_1) (TRef.of (T := ⟨S4096x512, .f32⟩) main_call1_v7) (fun x v => Host.reduceAdd x v reducesTo_S4096x512x3_S4096x512_d2 h_S_),
    TRef.unary (TRef.of (T := ⟨S4096x512, .f32⟩) main_call1_v7) (TRef.of (T := ⟨S4096x512x1, .f32⟩) main_call1_v8) (broadcastInDim S4096x512x1 ![0, 1] bcast_S4096x512_S4096x512x1_0_1),
    TRef.unary (TRef.of (T := ⟨S4096x512x1, .f32⟩) main_call1_v8) (TRef.of (T := ⟨S4096x512x1, .f32⟩) main_call1_v9) Host.log,
    TRef.unary (TRef.of (T := ⟨S4096x512x1, .f32⟩) main_call1_v9) (TRef.of (T := ⟨S4096x512x3, .f32⟩) main_call1_v10) (broadcastInDim S4096x512x3 ![0, 1, 2] bcast_S4096x512x1_S4096x512x3_0_1_2),
    TRef.binary (TRef.of (T := ⟨S4096x512x3, .f32⟩) main_call1_v5) (TRef.of (T := ⟨S4096x512x3, .f32⟩) main_call1_v10) (TRef.of (T := ⟨S4096x512x3, .f32⟩) main_v13) subf,
    unary main_v12 main_v14 (broadcastInDim S4096x512x1 ![0, 1] bcast_S4096x512_S4096x512x1_0_1 : (⟨S4096x512, .i32⟩ : BufTy).Contents (Elt F) → (⟨S4096x512x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4096x512x1, .i32⟩) main_call2_v0) (broadcastInDim S4096x512x1 ![] bcast_S_S4096x512x1),
    TRef.binary (TRef.of (T := ⟨S4096x512x1, .i32⟩) main_v14) (TRef.of (T := ⟨S4096x512x1, .i32⟩) main_call2_v0) (TRef.of (T := ⟨S4096x512x1, .i1⟩) main_call2_v1) (cmpi .slt),
    TRef.nullary (TRef.of (T := ⟨S_, .i32⟩) main_call2_c_0) (constantI S_ 32 3#32),
    TRef.unary (TRef.of (T := ⟨S_, .i32⟩) main_call2_c_0) (TRef.of (T := ⟨S4096x512x1, .i32⟩) main_call2_v2) (broadcastInDim S4096x512x1 ![] bcast_S_S4096x512x1),
    TRef.binary (TRef.of (T := ⟨S4096x512x1, .i32⟩) main_v14) (TRef.of (T := ⟨S4096x512x1, .i32⟩) main_call2_v2) (TRef.of (T := ⟨S4096x512x1, .i32⟩) main_call2_v3) addi,
    TRef.ternary (TRef.of (T := ⟨S4096x512x1, .i1⟩) main_call2_v1) (TRef.of (T := ⟨S4096x512x1, .i32⟩) main_call2_v3) (TRef.of (T := ⟨S4096x512x1, .i32⟩) main_v14) (TRef.of (T := ⟨S4096x512x1, .i32⟩) main_call2_v4) select,
    TRef.reshape (TRef.of (T := ⟨S4096x512x1, .i32⟩) main_call2_v4) (TRef.of (T := ⟨S4096x512x1x1, .i32⟩) main_call2_v5) rfl shapeCasts_S4096x512x1_S4096x512x1x1,
    TRef.nullary (TRef.of (T := ⟨S1, .i32⟩) main_call2_c_1) (constantI S1 32 2#32),
    TRef.nullary (TRef.of (T := ⟨S_, .i32⟩) main_call2_c_2) (constantI S_ 32 0#32),
    TRef.unary (TRef.of (T := ⟨S_, .i32⟩) main_call2_c_2) (TRef.of (T := ⟨S4096x512x1x1, .i32⟩) main_call2_v6) (broadcastInDim S4096x512x1x1 ![] bcast_S_S4096x512x1x1),
    TRef.binary (TRef.of (T := ⟨S4096x512x1x1, .i32⟩) main_call2_v5) (TRef.of (T := ⟨S4096x512x1x1, .i32⟩) main_call2_v6) (TRef.of (T := ⟨S4096x512x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S4096x512x1x1, .i32⟩) main_call2_v9) (broadcastInDim S4096x512x1x1 ![0, 1, 2, 3] bcast_S1x1x1x1_S4096x512x1x1_0_1_2_3),
    TRef.binary (TRef.of (T := ⟨S4096x512x1x1, .i32⟩) main_call2_v5) (TRef.of (T := ⟨S4096x512x1x1, .i32⟩) main_call2_v9) (TRef.of (T := ⟨S4096x512x1x1, .i1⟩) main_call2_v10) (cmpi .sle),
    TRef.binary (TRef.of (T := ⟨S4096x512x1x1, .i1⟩) main_call2_v7) (TRef.of (T := ⟨S4096x512x1x1, .i1⟩) main_call2_v10) (TRef.of (T := ⟨S4096x512x1x1, .i1⟩) main_call2_v11) andi,
    TRef.nullary (TRef.of (T := ⟨S_, .i1⟩) main_call2_c_3) (constantI S_ 1 1#1),
    TRef.binary (TRef.of (T := ⟨S4096x512x1x1, .i1⟩) main_call2_v11) (TRef.of (T := ⟨S_, .i1⟩) main_call2_c_3) (TRef.of (T := ⟨S4096x512x1, .i1⟩) main_call2_v12) (fun x v => Host.reduce IntOp.andi x v reducesTo_S4096x512x1x1_S4096x512x1_d3 h_S_),
    TRef.binary (TRef.of (T := ⟨S4096x512x3, .f32⟩) main_v13) (TRef.of (T := ⟨S4096x512x1x1, .i32⟩) main_call2_v5) (TRef.of (T := ⟨S4096x512x1, .f32⟩) main_call2_v13) (fun x i => Host.gather gather_S4096x512x3_S4096x512x1x1_S4096x512x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S4096x512x1, .f32⟩) main_call2_v14) (broadcastInDim S4096x512x1 ![] bcast_S_S4096x512x1),
    TRef.ternary (TRef.of (T := ⟨S4096x512x1, .i1⟩) main_call2_v12) (TRef.of (T := ⟨S4096x512x1, .f32⟩) main_call2_v13) (TRef.of (T := ⟨S4096x512x1, .f32⟩) main_call2_v14) (TRef.of (T := ⟨S4096x512x1, .f32⟩) main_v15) select,
    reshape main_v15 main_v16 rfl shapeCasts_S4096x512x1_S4096x512,
    unary main_v16 main_v17 (Host.negf : (⟨S4096x512, .f32⟩ : BufTy).Contents (Elt F) → (⟨S4096x512, .f32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S4096x512, .f32⟩) main_call3_v1) (broadcastInDim S4096x512 ![] bcast_S_S4096x512),
    TRef.ternary (TRef.of (T := ⟨S4096x512, .i1⟩) main_v5) (TRef.of (T := ⟨S4096x512, .f32⟩) main_v17) (TRef.of (T := ⟨S4096x512, .f32⟩) main_call3_v1) (TRef.of (T := ⟨S4096x512, .f32⟩) main_v18) select,
    nullary main_cst_1 (constant S_ .f32 0x00000000#32),
    binary main_v18 main_cst_1 main_v19 ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)) ]

theorem opsH0_sub : (opsH0 : List (HloOp τ sig (Elt F))).Forall fun op => op.bufs ⊆ tcRefs τ sig :=
  ⟨unary_bufs_sub .., unary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., unary_bufs_sub .., ternary_bufs_sub .., nullary_bufs_sub .., binary_bufs_sub ..⟩

/-- The second head (logits 3..4), the same, and its sum added to the first's. (50 operations) -/
abbrev opsH1 : List (HloOp τ sig (Elt F)) :=
  [ unary main_arg0 main_v20 ((extractStridedSlice S4096x512x2 ![0, 0, 3] · slices_S4096x512x7_S4096x512x2_0_0_3) : (⟨S4096x512x7, .f32⟩ : BufTy).Contents (Elt F) → (⟨S4096x512x2, .f32⟩ : BufTy).Contents (Elt F)),
    unary main_arg1 main_v21 ((extractStridedSlice S4096x512x1 ![0, 0, 1] · slices_S4096x512x3_S4096x512x1_0_0_1) : (⟨S4096x512x3, .i32⟩ : BufTy).Contents (Elt F) → (⟨S4096x512x1, .i32⟩ : BufTy).Contents (Elt F)),
    reshape main_v21 main_v22 rfl shapeCasts_S4096x512x1_S4096x512,
    TRef.nullary (TRef.of (T := ⟨S_, .f32⟩) main_call4_cst) (constant S_ .f32 0xFF800000#32),
    TRef.binary (TRef.of (T := ⟨S4096x512x2, .f32⟩) main_v20) (TRef.of (T := ⟨S_, .f32⟩) main_call4_cst) (TRef.of (T := ⟨S4096x512, .f32⟩) main_call4_v0) (fun x v => Host.reduce FloatOps.maximumf x v reducesTo_S4096x512x2_S4096x512_d2 h_S_),
    TRef.nullary (TRef.of (T := ⟨S_, .f32⟩) main_call4_cst_0) (constant S_ .f32 0xFF800000#32),
    TRef.unary (TRef.of (T := ⟨S_, .f32⟩) main_call4_cst_0) (TRef.of (T := ⟨S4096x512, .f32⟩) main_call4_v1) (broadcastInDim S4096x512 ![] bcast_S_S4096x512),
    TRef.binary (TRef.of (T := ⟨S4096x512, .f32⟩) main_call4_v1) (TRef.of (T := ⟨S4096x512, .f32⟩) main_call4_v0) (TRef.of (T := ⟨S4096x512, .f32⟩) main_call4_v2) maximumf,
    TRef.unary (TRef.of (T := ⟨S4096x512, .f32⟩) main_call4_v2) (TRef.of (T := ⟨S4096x512x1, .f32⟩) main_call4_v3) (broadcastInDim S4096x512x1 ![0, 1] bcast_S4096x512_S4096x512x1_0_1),
    TRef.unary (TRef.of (T := ⟨S4096x512x1, .f32⟩) main_call4_v3) (TRef.of (T := ⟨S4096x512x2, .f32⟩) main_call4_v4) (broadcastInDim S4096x512x2 ![0, 1, 2] bcast_S4096x512x1_S4096x512x2_0_1_2),
    TRef.binary (TRef.of (T := ⟨S4096x512x2, .f32⟩) main_v20) (TRef.of (T := ⟨S4096x512x2, .f32⟩) main_call4_v4) (TRef.of (T := ⟨S4096x512x2, .f32⟩) main_call4_v5) subf,
    TRef.unary (TRef.of (T := ⟨S4096x512x2, .f32⟩) main_call4_v5) (TRef.of (T := ⟨S4096x512x2, .f32⟩) main_call4_v6) Host.exp,
    TRef.nullary (TRef.of (T := ⟨S_, .f32⟩) main_call4_cst_1) (constant S_ .f32 0x00000000#32),
    TRef.binary (TRef.of (T := ⟨S4096x512x2, .f32⟩) main_call4_v6) (TRef.of (T := ⟨S_, .f32⟩) main_call4_cst_1) (TRef.of (T := ⟨S4096x512, .f32⟩) main_call4_v7) (fun x v => Host.reduceAdd x v reducesTo_S4096x512x2_S4096x512_d2 h_S_),
    TRef.unary (TRef.of (T := ⟨S4096x512, .f32⟩) main_call4_v7) (TRef.of (T := ⟨S4096x512x1, .f32⟩) main_call4_v8) (broadcastInDim S4096x512x1 ![0, 1] bcast_S4096x512_S4096x512x1_0_1),
    TRef.unary (TRef.of (T := ⟨S4096x512x1, .f32⟩) main_call4_v8) (TRef.of (T := ⟨S4096x512x1, .f32⟩) main_call4_v9) Host.log,
    TRef.unary (TRef.of (T := ⟨S4096x512x1, .f32⟩) main_call4_v9) (TRef.of (T := ⟨S4096x512x2, .f32⟩) main_call4_v10) (broadcastInDim S4096x512x2 ![0, 1, 2] bcast_S4096x512x1_S4096x512x2_0_1_2),
    TRef.binary (TRef.of (T := ⟨S4096x512x2, .f32⟩) main_call4_v5) (TRef.of (T := ⟨S4096x512x2, .f32⟩) main_call4_v10) (TRef.of (T := ⟨S4096x512x2, .f32⟩) main_v23) subf,
    unary main_v22 main_v24 (broadcastInDim S4096x512x1 ![0, 1] bcast_S4096x512_S4096x512x1_0_1 : (⟨S4096x512, .i32⟩ : BufTy).Contents (Elt F) → (⟨S4096x512x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S4096x512x1, .i32⟩) main_call5_v0) (broadcastInDim S4096x512x1 ![] bcast_S_S4096x512x1),
    TRef.binary (TRef.of (T := ⟨S4096x512x1, .i32⟩) main_v24) (TRef.of (T := ⟨S4096x512x1, .i32⟩) main_call5_v0) (TRef.of (T := ⟨S4096x512x1, .i1⟩) main_call5_v1) (cmpi .slt),
    TRef.nullary (TRef.of (T := ⟨S_, .i32⟩) main_call5_c_0) (constantI S_ 32 2#32),
    TRef.unary (TRef.of (T := ⟨S_, .i32⟩) main_call5_c_0) (TRef.of (T := ⟨S4096x512x1, .i32⟩) main_call5_v2) (broadcastInDim S4096x512x1 ![] bcast_S_S4096x512x1),
    TRef.binary (TRef.of (T := ⟨S4096x512x1, .i32⟩) main_v24) (TRef.of (T := ⟨S4096x512x1, .i32⟩) main_call5_v2) (TRef.of (T := ⟨S4096x512x1, .i32⟩) main_call5_v3) addi,
    TRef.ternary (TRef.of (T := ⟨S4096x512x1, .i1⟩) main_call5_v1) (TRef.of (T := ⟨S4096x512x1, .i32⟩) main_call5_v3) (TRef.of (T := ⟨S4096x512x1, .i32⟩) main_v24) (TRef.of (T := ⟨S4096x512x1, .i32⟩) main_call5_v4) select,
    TRef.reshape (TRef.of (T := ⟨S4096x512x1, .i32⟩) main_call5_v4) (TRef.of (T := ⟨S4096x512x1x1, .i32⟩) main_call5_v5) rfl shapeCasts_S4096x512x1_S4096x512x1x1,
    TRef.nullary (TRef.of (T := ⟨S1, .i32⟩) main_call5_c_1) (constantI S1 32 1#32),
    TRef.nullary (TRef.of (T := ⟨S_, .i32⟩) main_call5_c_2) (constantI S_ 32 0#32),
    TRef.unary (TRef.of (T := ⟨S_, .i32⟩) main_call5_c_2) (TRef.of (T := ⟨S4096x512x1x1, .i32⟩) main_call5_v6) (broadcastInDim S4096x512x1x1 ![] bcast_S_S4096x512x1x1),
    TRef.binary (TRef.of (T := ⟨S4096x512x1x1, .i32⟩) main_call5_v5) (TRef.of (T := ⟨S4096x512x1x1, .i32⟩) main_call5_v6) (TRef.of (T := ⟨S4096x512x1x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3),
    TRef.unary (TRef.of (T := ⟨S1x1x1x1, .i32⟩) main_call5_v8) (TRef.of (T := ⟨S4096x512x1x1, .i32⟩) main_call5_v9) (broadcastInDim S4096x512x1x1 ![0, 1, 2, 3] bcast_S1x1x1x1_S4096x512x1x1_0_1_2_3),
    TRef.binary (TRef.of (T := ⟨S4096x512x1x1, .i32⟩) main_call5_v5) (TRef.of (T := ⟨S4096x512x1x1, .i32⟩) main_call5_v9) (TRef.of (T := ⟨S4096x512x1x1, .i1⟩) main_call5_v10) (cmpi .sle),
    TRef.binary (TRef.of (T := ⟨S4096x512x1x1, .i1⟩) main_call5_v7) (TRef.of (T := ⟨S4096x512x1x1, .i1⟩) main_call5_v10) (TRef.of (T := ⟨S4096x512x1x1, .i1⟩) main_call5_v11) andi,
    TRef.nullary (TRef.of (T := ⟨S_, .i1⟩) main_call5_c_3) (constantI S_ 1 1#1),
    TRef.binary (TRef.of (T := ⟨S4096x512x1x1, .i1⟩) main_call5_v11) (TRef.of (T := ⟨S_, .i1⟩) main_call5_c_3) (TRef.of (T := ⟨S4096x512x1, .i1⟩) main_call5_v12) (fun x v => Host.reduce IntOp.andi x v reducesTo_S4096x512x1x1_S4096x512x1_d3 h_S_),
    TRef.binary (TRef.of (T := ⟨S4096x512x2, .f32⟩) main_v23) (TRef.of (T := ⟨S4096x512x1x1, .i32⟩) main_call5_v5) (TRef.of (T := ⟨S4096x512x1, .f32⟩) main_call5_v13) (fun x i => Host.gather gather_S4096x512x2_S4096x512x1x1_S4096x512x1_n_2_01_01_2_3_111 x i),
    TRef.nullary (TRef.of (T := ⟨S_, .f32⟩) main_call5_cst) (constant S_ .f32 0x7FC00000#32),
    TRef.unary (TRef.of (T := ⟨S_, .f32⟩) main_call5_cst) (TRef.of (T := ⟨S4096x512x1, .f32⟩) main_call5_v14) (broadcastInDim S4096x512x1 ![] bcast_S_S4096x512x1),
    TRef.ternary (TRef.of (T := ⟨S4096x512x1, .i1⟩) main_call5_v12) (TRef.of (T := ⟨S4096x512x1, .f32⟩) main_call5_v13) (TRef.of (T := ⟨S4096x512x1, .f32⟩) main_call5_v14) (TRef.of (T := ⟨S4096x512x1, .f32⟩) main_v25) select,
    reshape main_v25 main_v26 rfl shapeCasts_S4096x512x1_S4096x512,
    unary main_v26 main_v27 (Host.negf : (⟨S4096x512, .f32⟩ : BufTy).Contents (Elt F) → (⟨S4096x512, .f32⟩ : BufTy).Contents (Elt F)),
    nullary main_cst_2 (constant S_ .f32 0x00000000#32),
    TRef.unary (TRef.of (T := ⟨S_, .f32⟩) main_cst_2) (TRef.of (T := ⟨S_, .f32⟩) main_call6_v0) id,
    TRef.unary (TRef.of (T := ⟨S_, .f32⟩) main_call6_v0) (TRef.of (T := ⟨S4096x512, .f32⟩) main_call6_v1) (broadcastInDim S4096x512 ![] bcast_S_S4096x512),
    TRef.ternary (TRef.of (T := ⟨S4096x512, .i1⟩) main_v5) (TRef.of (T := ⟨S4096x512, .f32⟩) main_v27) (TRef.of (T := ⟨S4096x512, .f32⟩) main_call6_v1) (TRef.of (T := ⟨S4096x512, .f32⟩) main_v28) select,
    nullary main_cst_3 (constant S_ .f32 0x00000000#32),
    binary main_v28 main_cst_3 main_v29 ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)),
    binary main_v19 main_v29 main_v30 (addf : (⟨S512, .f32⟩ : BufTy).Contents (Elt F) → (⟨S512, .f32⟩ : BufTy).Contents (Elt F) → (⟨S512, .f32⟩ : BufTy).Contents (Elt F)) ]

theorem opsH1_sub : (opsH1 : List (HloOp τ sig (Elt F))).Forall fun op => op.bufs ⊆ tcRefs τ sig :=
  ⟨unary_bufs_sub .., unary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., unary_bufs_sub .., ternary_bufs_sub .., nullary_bufs_sub .., binary_bufs_sub .., binary_bufs_sub ..⟩

/-- The third head (logits 5..6), the same, and its sum added to the other two. (50 operations) -/
abbrev opsH2 : List (HloOp τ sig (Elt F)) :=
  [ unary main_arg0 main_v31 ((extractStridedSlice S4096x512x2 ![0, 0, 5] · slices_S4096x512x7_S4096x512x2_0_0_5) : (⟨S4096x512x7, .f32⟩ : BufTy).Contents (Elt F) → (⟨S4096x512x2, .f32⟩ : BufTy).Contents (Elt F)),
    unary main_arg1 main_v32 ((extractStridedSlice S4096x512x1 ![0, 0, 2] · slices_S4096x512x3_S4096x512x1_0_0_2) : (⟨S4096x512x3, .i32⟩ : BufTy).Contents (Elt F) → (⟨S4096x512x1, .i32⟩ : BufTy).Contents (Elt F)),
    reshape main_v32 main_v33 rfl shapeCasts_S4096x512x1_S4096x512,
    TRef.nullary (TRef.of (T := ⟨S_, .f32⟩) main_call7_cst) (constant S_ .f32 0xFF800000#32),
    TRef.binary (TRef.of (T := ⟨S4096x512x2, .f32⟩) main_v31) (TRef.of (T := ⟨S_, .f32⟩) main_call7_cst) (TRef.of (T := ⟨S4096x512, .f32⟩) main_call7_v0) (fun x v => Host.reduce FloatOps.maximumf x v reducesTo_S4096x512x2_S4096x512_d2 h_S_),
    TRef.nullary (TRef.of (T := ⟨S_, .f32⟩) main_call7_cst_0) (constant S_ .f32 0xFF800000#32),
    TRef.unary (TRef.of (T := ⟨S_, .f32⟩) main_call7_cst_0) (TRef.of (T := ⟨S4096x512, .f32⟩) main_call7_v1) (broadcastInDim S4096x512 ![] bcast_S_S4096x512),
    TRef.binary (TRef.of (T := ⟨S4096x512, .f32⟩) main_call7_v1) (TRef.of (T := ⟨S4096x512, .f32⟩) main_call7_v0) (TRef.of (T := ⟨S4096x512, .f32⟩) main_call7_v2) maximumf,
    TRef.unary (TRef.of (T := ⟨S4096x512, .f32⟩) main_call7_v2) (TRef.of (T := ⟨S4096x512x1, .f32⟩) main_call7_v3) (broadcastInDim S4096x512x1 ![0, 1] bcast_S4096x512_S4096x512x1_0_1),
    TRef.unary (TRef.of (T := ⟨S4096x512x1, .f32⟩) main_call7_v3) (TRef.of (T := ⟨S4096x512x2, .f32⟩) main_call7_v4) (broadcastInDim S4096x512x2 ![0, 1, 2] bcast_S4096x512x1_S4096x512x2_0_1_2),
    TRef.binary (TRef.of (T := ⟨S4096x512x2, .f32⟩) main_v31) (TRef.of (T := ⟨S4096x512x2, .f32⟩) main_call7_v4) (TRef.of (T := ⟨S4096x512x2, .f32⟩) main_call7_v5) subf,
    TRef.unary (TRef.of (T := ⟨S4096x512x2, .f32⟩) main_call7_v5) (TRef.of (T := ⟨S4096x512x2, .f32⟩) main_call7_v6) Host.exp,
    TRef.nullary (TRef.of (T := ⟨S_, .f32⟩) main_call7_cst_1) (constant S_ .f32 0x00000000#32),
    TRef.binary (TRef.of (T := ⟨S4096x512x2, .f32⟩) main_call7_v6) (TRef.of (T := ⟨S_, .f32⟩) main_call7_cst_1) (TRef.of (T := ⟨S4096x512, .f32⟩) main_call7_v7) (fun x v => Host.reduceAdd x v reducesTo_S4096x512x2_S4096x512_d2 h_S_),
    TRef.unary (TRef.of (T := ⟨S4096x512, .f32⟩) main_call7_v7) (TRef.of (T := ⟨S4096x512x1, .f32⟩) main_call7_v8) (broadcastInDim S4096x512x1 ![0, 1] bcast_S4096x512_S4096x512x1_0_1),
    TRef.unary (TRef.of (T := ⟨S4096x512x1, .f32⟩) main_call7_v8) (TRef.of (T := ⟨S4096x512x1, .f32⟩) main_call7_v9) Host.log,
    TRef.unary (TRef.of (T := ⟨S4096x512x1, .f32⟩) main_call7_v9) (TRef.of (T := ⟨S4096x512x2, .f32⟩) main_call7_v10) (broadcastInDim S4096x512x2 ![0, 1, 2] bcast_S4096x512x1_S4096x512x2_0_1_2),
    TRef.binary (TRef.of (T := ⟨S4096x512x2, .f32⟩) main_call7_v5) (TRef.of (T := ⟨S4096x512x2, .f32⟩) main_call7_v10) (TRef.of (T := ⟨S4096x512x2, .f32⟩) main_v34) subf,
    unary main_v33 main_v35 (broadcastInDim S4096x512x1 ![0, 1] bcast_S4096x512_S4096x512x1_0_1 : (⟨S4096x512, .i32⟩ : BufTy).Contents (Elt F) → (⟨S4096x512x1, .i32⟩ : BufTy).Contents (Elt F)),
    TRef.nullary (TRef.of (T := ⟨S_, .i32⟩) main_call8_c) (constantI S_ 32 0#32),
    TRef.unary (TRef.of (T := ⟨S_, .i32⟩) main_call8_c) (TRef.of (T := ⟨S4096x512x1, .i32⟩) main_call8_v0) (broadcastInDim S4096x512x1 ![] bcast_S_S4096x512x1),
    TRef.binary (TRef.of (T := ⟨S4096x512x1, .i32⟩) main_v35) (TRef.of (T := ⟨S4096x512x1, .i32⟩) main_call8_v0) (TRef.of (T := ⟨S4096x512x1, .i1⟩) main_call8_v1) (cmpi .slt),
    TRef.nullary (TRef.of (T := ⟨S_, .i32⟩) main_call8_c_0) (constantI S_ 32 2#32),
    TRef.unary (TRef.of (T := ⟨S_, .i32⟩) main_call8_c_0) (TRef.of (T := ⟨S4096x512x1, .i32⟩) main_call8_v2) (broadcastInDim S4096x512x1 ![] bcast_S_S4096x512x1),
    TRef.binary (TRef.of (T := ⟨S4096x512x1, .i32⟩) main_v35) (TRef.of (T := ⟨S4096x512x1, .i32⟩) main_call8_v2) (TRef.of (T := ⟨S4096x512x1, .i32⟩) main_call8_v3) addi,
    TRef.ternary (TRef.of (T := ⟨S4096x512x1, .i1⟩) main_call8_v1) (TRef.of (T := ⟨S4096x512x1, .i32⟩) main_call8_v3) (TRef.of (T := ⟨S4096x512x1, .i32⟩) main_v35) (TRef.of (T := ⟨S4096x512x1, .i32⟩) main_call8_v4) select,
    TRef.reshape (TRef.of (T := ⟨S4096x512x1, .i32⟩) main_call8_v4) (TRef.of (T := ⟨S4096x512x1x1, .i32⟩) main_call8_v5) rfl shapeCasts_S4096x512x1_S4096x512x1x1,
    TRef.nullary (TRef.of (T := ⟨S1, .i32⟩) main_call8_c_1) (constantI S1 32 1#32),
    TRef.nullary (TRef.of (T := ⟨S_, .i32⟩) main_call8_c_2) (constantI S_ 32 0#32),
    TRef.unary (TRef.of (T := ⟨S_, .i32⟩) main_call8_c_2) (TRef.of (T := ⟨S4096x512x1x1, .i32⟩) main_call8_v6) (broadcastInDim S4096x512x1x1 ![] bcast_S_S4096x512x1x1),
    TRef.binary (TRef.of (T := ⟨S4096x512x1x1, .i32⟩) main_call8_v5) (TRef.of (T := ⟨S4096x512x1x1, .i32⟩) main_call8_v6) (TRef.of (T := ⟨S4096x512x1x1, .i1⟩) main_call8_v7) (cmpi .sge),
    TRef.unary (TRef.of (T := ⟨S1, .i32⟩) main_call8_c_1) (TRef.of (T := ⟨S1x1x1x1, .i32⟩) main_call8_v8) (broadcastInDim S1x1x1x1 ![3] bcast_S1_S1x1x1x1_3),
    TRef.unary (TRef.of (T := ⟨S1x1x1x1, .i32⟩) main_call8_v8) (TRef.of (T := ⟨S4096x512x1x1, .i32⟩) main_call8_v9) (broadcastInDim S4096x512x1x1 ![0, 1, 2, 3] bcast_S1x1x1x1_S4096x512x1x1_0_1_2_3),
    TRef.binary (TRef.of (T := ⟨S4096x512x1x1, .i32⟩) main_call8_v5) (TRef.of (T := ⟨S4096x512x1x1, .i32⟩) main_call8_v9) (TRef.of (T := ⟨S4096x512x1x1, .i1⟩) main_call8_v10) (cmpi .sle),
    TRef.binary (TRef.of (T := ⟨S4096x512x1x1, .i1⟩) main_call8_v7) (TRef.of (T := ⟨S4096x512x1x1, .i1⟩) main_call8_v10) (TRef.of (T := ⟨S4096x512x1x1, .i1⟩) main_call8_v11) andi,
    TRef.nullary (TRef.of (T := ⟨S_, .i1⟩) main_call8_c_3) (constantI S_ 1 1#1),
    TRef.binary (TRef.of (T := ⟨S4096x512x1x1, .i1⟩) main_call8_v11) (TRef.of (T := ⟨S_, .i1⟩) main_call8_c_3) (TRef.of (T := ⟨S4096x512x1, .i1⟩) main_call8_v12) (fun x v => Host.reduce IntOp.andi x v reducesTo_S4096x512x1x1_S4096x512x1_d3 h_S_),
    TRef.binary (TRef.of (T := ⟨S4096x512x2, .f32⟩) main_v34) (TRef.of (T := ⟨S4096x512x1x1, .i32⟩) main_call8_v5) (TRef.of (T := ⟨S4096x512x1, .f32⟩) main_call8_v13) (fun x i => Host.gather gather_S4096x512x2_S4096x512x1x1_S4096x512x1_n_2_01_01_2_3_111 x i),
    TRef.nullary (TRef.of (T := ⟨S_, .f32⟩) main_call8_cst) (constant S_ .f32 0x7FC00000#32),
    TRef.unary (TRef.of (T := ⟨S_, .f32⟩) main_call8_cst) (TRef.of (T := ⟨S4096x512x1, .f32⟩) main_call8_v14) (broadcastInDim S4096x512x1 ![] bcast_S_S4096x512x1),
    TRef.ternary (TRef.of (T := ⟨S4096x512x1, .i1⟩) main_call8_v12) (TRef.of (T := ⟨S4096x512x1, .f32⟩) main_call8_v13) (TRef.of (T := ⟨S4096x512x1, .f32⟩) main_call8_v14) (TRef.of (T := ⟨S4096x512x1, .f32⟩) main_v36) select,
    reshape main_v36 main_v37 rfl shapeCasts_S4096x512x1_S4096x512,
    unary main_v37 main_v38 (Host.negf : (⟨S4096x512, .f32⟩ : BufTy).Contents (Elt F) → (⟨S4096x512, .f32⟩ : BufTy).Contents (Elt F)),
    nullary main_cst_4 (constant S_ .f32 0x00000000#32),
    TRef.unary (TRef.of (T := ⟨S_, .f32⟩) main_cst_4) (TRef.of (T := ⟨S_, .f32⟩) main_call9_v0) id,
    TRef.unary (TRef.of (T := ⟨S_, .f32⟩) main_call9_v0) (TRef.of (T := ⟨S4096x512, .f32⟩) main_call9_v1) (broadcastInDim S4096x512 ![] bcast_S_S4096x512),
    TRef.ternary (TRef.of (T := ⟨S4096x512, .i1⟩) main_v5) (TRef.of (T := ⟨S4096x512, .f32⟩) main_v38) (TRef.of (T := ⟨S4096x512, .f32⟩) main_call9_v1) (TRef.of (T := ⟨S4096x512, .f32⟩) main_v39) select,
    nullary main_cst_5 (constant S_ .f32 0x00000000#32),
    binary main_v39 main_cst_5 main_v40 ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)),
    binary main_v30 main_v40 main_v41 (addf : (⟨S512, .f32⟩ : BufTy).Contents (Elt F) → (⟨S512, .f32⟩ : BufTy).Contents (Elt F) → (⟨S512, .f32⟩ : BufTy).Contents (Elt F)) ]

theorem opsH2_sub : (opsH2 : List (HloOp τ sig (Elt F))).Forall fun op => op.bufs ⊆ tcRefs τ sig :=
  ⟨unary_bufs_sub .., unary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., unary_bufs_sub .., ternary_bufs_sub .., nullary_bufs_sub .., binary_bufs_sub .., binary_bufs_sub ..⟩

/-- The tail: the quotient by the divisor, zero where `len[b] ≤ 0`, the sum over the samples, the quotient by 512. (9 operations) -/
abbrev opsT : List (HloOp τ sig (Elt F)) :=
  [ binary main_v41 main_v9 main_v42 (Host.divf : (⟨S512, .f32⟩ : BufTy).Contents (Elt F) → (⟨S512, .f32⟩ : BufTy).Contents (Elt F) → (⟨S512, .f32⟩ : BufTy).Contents (Elt F)),
    nullary main_cst_6 (constant S_ .f32 0x00000000#32),
    TRef.unary (TRef.of (T := ⟨S_, .f32⟩) main_cst_6) (TRef.of (T := ⟨S_, .f32⟩) main_call10_v0) id,
    TRef.unary (TRef.of (T := ⟨S_, .f32⟩) main_call10_v0) (TRef.of (T := ⟨S512, .f32⟩) main_call10_v1) (broadcastInDim S512 ![] bcast_S_S512),
    TRef.ternary (TRef.of (T := ⟨S512, .i1⟩) main_v7) (TRef.of (T := ⟨S512, .f32⟩) main_v42) (TRef.of (T := ⟨S512, .f32⟩) main_call10_v1) (TRef.of (T := ⟨S512, .f32⟩) main_v43) select,
    nullary main_cst_7 (constant S_ .f32 0x00000000#32),
    binary main_v43 main_cst_7 main_v44 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_8 (constant S_ .f32 0x44000000#32),
    binary main_v44 main_cst_8 main_v45 (Host.divf : (⟨S_, .f32⟩ : BufTy).Contents (Elt F) → (⟨S_, .f32⟩ : BufTy).Contents (Elt F) → (⟨S_, .f32⟩ : BufTy).Contents (Elt F)) ]

theorem opsT_sub : (opsT : List (HloOp τ sig (Elt F))).Forall fun op => op.bufs ⊆ tcRefs τ sig :=
  ⟨binary_bufs_sub .., nullary_bufs_sub .., unary_bufs_sub .., unary_bufs_sub .., ternary_bufs_sub .., nullary_bufs_sub .., binary_bufs_sub .., nullary_bufs_sub .., binary_bufs_sub ..⟩

/-- @main's 172 operations. -/
abbrev ops : List (HloOp τ sig (Elt F)) := opsP ++ (opsH0 ++ (opsH1 ++ (opsH2 ++ opsT)))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RunH

end
-- ==== Proof.RefRunP.lean ====
/-
  The reference's run, read back stage by stage. @main is a straight line of 172 host operations; its final memory is the
  fold of the operations' results over the launch contents. The fold is taken one stretch at a time (prelude, three heads,
  tail): for an arbitrary memory, each stretch leaves in the buffer it ends on the corresponding stage function of what
  it found, and leaves the buffers later stretches read as they were. An inlined callee's operations carry a transport
  between the callee's value types and the buffers' types, which is the identity; each stretch is first rewritten to the
  same operations at the buffers directly, and the fold is read on those.
-/
import proofs.«431143_j2637109919916_2_alg».proof.Proof.RefOps
import proofs.«431143_j2637109919916_2_alg».proof.Proof.RefRead
import Idealize.ShloMosaic.Lib.Pipeline.Frame
import Mathlib.Data.List.Basic

noncomputable section

namespace Cert.ReferenceIdeal.RunP

open Cert.ReferenceIdeal Cert.ReferenceIdeal.Gen Cert.ReferenceIdeal.RunH Cert.ReferenceIdeal.ReadP Idealize.ShloMosaic Idealize.ShloMosaic.TcCoe Idealize.SL.Sem Idealize.ShloMosaic.StableHlo

variable {F : FTy → Type} [FloatOps F]

/-- The prelude with the inlined callee's operations written at the buffers directly. -/
abbrev opsPp : List (HloOp τ sig (Elt F)) :=
  [ nullary main_v0 (iotaInDim S4096 32 0),
    unary main_v0 main_v1 (broadcastInDim S4096x1 ![0] bcast_S4096_S4096x1_0 : (⟨S4096, .i32⟩ : BufTy).Contents (Elt F) → (⟨S4096x1, .i32⟩ : BufTy).Contents (Elt F)),
    unary main_arg2 main_v2 (broadcastInDim S1x512 ![1] bcast_S512_S1x512_1 : (⟨S512, .i32⟩ : BufTy).Contents (Elt F) → (⟨S1x512, .i32⟩ : BufTy).Contents (Elt F)),
    unary main_v1 main_v3 (broadcastInDim S4096x512 ![0, 1] bcast_S4096x1_S4096x512_0_1 : (⟨S4096x1, .i32⟩ : BufTy).Contents (Elt F) → (⟨S4096x512, .i32⟩ : BufTy).Contents (Elt F)),
    unary main_v2 main_v4 (broadcastInDim S4096x512 ![0, 1] bcast_S1x512_S4096x512_0_1 : (⟨S1x512, .i32⟩ : BufTy).Contents (Elt F) → (⟨S4096x512, .i32⟩ : BufTy).Contents (Elt F)),
    binary main_v3 main_v4 main_v5 (cmpi .slt : (⟨S4096x512, .i32⟩ : BufTy).Contents (Elt F) → (⟨S4096x512, .i32⟩ : BufTy).Contents (Elt F) → (⟨S4096x512, .i1⟩ : BufTy).Contents (Elt F)),
    nullary main_c (constantI S_ 32 0#32),
    unary main_c main_v6 (broadcastInDim S512 ![] bcast_S_S512 : (⟨S_, .i32⟩ : BufTy).Contents (Elt F) → (⟨S512, .i32⟩ : BufTy).Contents (Elt F)),
    binary main_arg2 main_v6 main_v7 (cmpi .sgt : (⟨S512, .i32⟩ : BufTy).Contents (Elt F) → (⟨S512, .i32⟩ : BufTy).Contents (Elt F) → (⟨S512, .i1⟩ : BufTy).Contents (Elt F)),
    nullary main_c_0 (constantI S_ 32 1#32),
    unary main_c_0 main_call0_v0 (id : (⟨S_, .i32⟩ : BufTy).Contents (Elt F) → (⟨S_, .i32⟩ : BufTy).Contents (Elt F)),
    unary main_call0_v0 main_call0_v1 ((broadcastInDim S512 ![] bcast_S_S512) : (⟨S_, .i32⟩ : BufTy).Contents (Elt F) → (⟨S512, .i32⟩ : BufTy).Contents (Elt F)),
    ternary main_v7 main_arg2 main_call0_v1 main_v8 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v8 main_v9 (sitofp .f32 : (⟨S512, .i32⟩ : BufTy).Contents (Elt F) → (⟨S512, .f32⟩ : BufTy).Contents (Elt F)) ]

theorem opsP_eq : (opsP : List (HloOp τ sig (Elt F))) = opsPp := by
  simp only [opsP, opsPp, TRef.nullary, TRef.unary, TRef.binary, TRef.ternary, TRef.reshape, TRef.toBuf, TRef.ofBuf, cast_eq]

theorem opsP_fresh : (opsP : List (HloOp τ sig (Elt F))).Forall fun op => op.fresh = ∅ := by
  simp only [List.Forall]; repeat' constructor

/-- The first head's stretch, likewise. -/
abbrev opsH0p : List (HloOp τ sig (Elt F)) :=
  [ unary main_arg0 main_v10 ((extractStridedSlice S4096x512x3 ![0, 0, 0] · slices_S4096x512x7_S4096x512x3_0_0_0) : (⟨S4096x512x7, .f32⟩ : BufTy).Contents (Elt F) → (⟨S4096x512x3, .f32⟩ : BufTy).Contents (Elt F)),
    unary main_arg1 main_v11 ((extractStridedSlice S4096x512x1 ![0, 0, 0] · slices_S4096x512x3_S4096x512x1_0_0_0) : (⟨S4096x512x3, .i32⟩ : BufTy).Contents (Elt F) → (⟨S4096x512x1, .i32⟩ : BufTy).Contents (Elt F)),
    reshape main_v11 main_v12 rfl shapeCasts_S4096x512x1_S4096x512,
    nullary main_call1_cst ((constant S_ .f32 0xFF800000#32) : (⟨S_, .f32⟩ : BufTy).Contents (Elt F)),
    binary main_v10 main_call1_cst main_call1_v0 ((fun x v => Host.reduce FloatOps.maximumf x v reducesTo_S4096x512x3_S4096x512_d2 h_S_) : (⟨S4096x512x3, .f32⟩ : BufTy).Contents (Elt F) → (⟨S_, .f32⟩ : BufTy).Contents (Elt F) → (⟨S4096x512, .f32⟩ : BufTy).Contents (Elt F)),
    nullary main_call1_cst_0 ((constant S_ .f32 0xFF800000#32) : (⟨S_, .f32⟩ : BufTy).Contents (Elt F)),
    unary main_call1_cst_0 main_call1_v1 ((broadcastInDim S4096x512 ![] bcast_S_S4096x512) : (⟨S_, .f32⟩ : BufTy).Contents (Elt F) → (⟨S4096x512, .f32⟩ : BufTy).Contents (Elt F)),
    binary main_call1_v1 main_call1_v0 main_call1_v2 (maximumf : (⟨S4096x512, .f32⟩ : BufTy).Contents (Elt F) → (⟨S4096x512, .f32⟩ : BufTy).Contents (Elt F) → (⟨S4096x512, .f32⟩ : BufTy).Contents (Elt F)),
    unary main_call1_v2 main_call1_v3 ((broadcastInDim S4096x512x1 ![0, 1] bcast_S4096x512_S4096x512x1_0_1) : (⟨S4096x512, .f32⟩ : BufTy).Contents (Elt F) → (⟨S4096x512x1, .f32⟩ : BufTy).Contents (Elt F)),
    unary main_call1_v3 main_call1_v4 ((broadcastInDim S4096x512x3 ![0, 1, 2] bcast_S4096x512x1_S4096x512x3_0_1_2) : (⟨S4096x512x1, .f32⟩ : BufTy).Contents (Elt F) → (⟨S4096x512x3, .f32⟩ : BufTy).Contents (Elt F)),
    binary main_v10 main_call1_v4 main_call1_v5 (subf : (⟨S4096x512x3, .f32⟩ : BufTy).Contents (Elt F) → (⟨S4096x512x3, .f32⟩ : BufTy).Contents (Elt F) → (⟨S4096x512x3, .f32⟩ : BufTy).Contents (Elt F)),
    unary main_call1_v5 main_call1_v6 (Host.exp : (⟨S4096x512x3, .f32⟩ : BufTy).Contents (Elt F) → (⟨S4096x512x3, .f32⟩ : BufTy).Contents (Elt F)),
    nullary main_call1_cst_1 ((constant S_ .f32 0x00000000#32) : (⟨S_, .f32⟩ : BufTy).Contents (Elt F)),
    binary main_call1_v6 main_call1_cst_1 main_call1_v7 ((fun x v => Host.reduceAdd x v reducesTo_S4096x512x3_S4096x512_d2 h_S_) : (⟨S4096x512x3, .f32⟩ : BufTy).Contents (Elt F) → (⟨S_, .f32⟩ : BufTy).Contents (Elt F) → (⟨S4096x512, .f32⟩ : BufTy).Contents (Elt F)),
    unary main_call1_v7 main_call1_v8 ((broadcastInDim S4096x512x1 ![0, 1] bcast_S4096x512_S4096x512x1_0_1) : (⟨S4096x512, .f32⟩ : BufTy).Contents (Elt F) → (⟨S4096x512x1, .f32⟩ : BufTy).Contents (Elt F)),
    unary main_call1_v8 main_call1_v9 (Host.log : (⟨S4096x512x1, .f32⟩ : BufTy).Contents (Elt F) → (⟨S4096x512x1, .f32⟩ : BufTy).Contents (Elt F)),
    unary main_call1_v9 main_call1_v10 ((broadcastInDim S4096x512x3 ![0, 1, 2] bcast_S4096x512x1_S4096x512x3_0_1_2) : (⟨S4096x512x1, .f32⟩ : BufTy).Contents (Elt F) → (⟨S4096x512x3, .f32⟩ : BufTy).Contents (Elt F)),
    binary main_call1_v5 main_call1_v10 main_v13 (subf : (⟨S4096x512x3, .f32⟩ : BufTy).Contents (Elt F) → (⟨S4096x512x3, .f32⟩ : BufTy).Contents (Elt F) → (⟨S4096x512x3, .f32⟩ : BufTy).Contents (Elt F)),
    unary main_v12 main_v14 (broadcastInDim S4096x512x1 ![0, 1] bcast_S4096x512_S4096x512x1_0_1 : (⟨S4096x512, .i32⟩ : BufTy).Contents (Elt F) → (⟨S4096x512x1, .i32⟩ : BufTy).Contents (Elt F)),
    nullary main_call2_c ((constantI S_ 32 0#32) : (⟨S_, .i32⟩ : BufTy).Contents (Elt F)),
    unary main_call2_c main_call2_v0 ((broadcastInDim S4096x512x1 ![] bcast_S_S4096x512x1) : (⟨S_, .i32⟩ : BufTy).Contents (Elt F) → (⟨S4096x512x1, .i32⟩ : BufTy).Contents (Elt F)),
    binary main_v14 main_call2_v0 main_call2_v1 ((cmpi .slt) : (⟨S4096x512x1, .i32⟩ : BufTy).Contents (Elt F) → (⟨S4096x512x1, .i32⟩ : BufTy).Contents (Elt F) → (⟨S4096x512x1, .i1⟩ : BufTy).Contents (Elt F)),
    nullary main_call2_c_0 ((constantI S_ 32 3#32) : (⟨S_, .i32⟩ : BufTy).Contents (Elt F)),
    unary main_call2_c_0 main_call2_v2 ((broadcastInDim S4096x512x1 ![] bcast_S_S4096x512x1) : (⟨S_, .i32⟩ : BufTy).Contents (Elt F) → (⟨S4096x512x1, .i32⟩ : BufTy).Contents (Elt F)),
    binary main_v14 main_call2_v2 main_call2_v3 (addi : (⟨S4096x512x1, .i32⟩ : BufTy).Contents (Elt F) → (⟨S4096x512x1, .i32⟩ : BufTy).Contents (Elt F) → (⟨S4096x512x1, .i32⟩ : BufTy).Contents (Elt F)),
    ternary main_call2_v1 main_call2_v3 main_v14 main_call2_v4 (select : (⟨S4096x512x1, .i1⟩ : BufTy).Contents (Elt F) → (⟨S4096x512x1, .i32⟩ : BufTy).Contents (Elt F) → (⟨S4096x512x1, .i32⟩ : BufTy).Contents (Elt F) → (⟨S4096x512x1, .i32⟩ : BufTy).Contents (Elt F)),
    reshape main_call2_v4 main_call2_v5 rfl shapeCasts_S4096x512x1_S4096x512x1x1,
    nullary main_call2_c_1 ((constantI S1 32 2#32) : (⟨S1, .i32⟩ : BufTy).Contents (Elt F)),
    nullary main_call2_c_2 ((constantI S_ 32 0#32) : (⟨S_, .i32⟩ : BufTy).Contents (Elt F)),
    unary main_call2_c_2 main_call2_v6 ((broadcastInDim S4096x512x1x1 ![] bcast_S_S4096x512x1x1) : (⟨S_, .i32⟩ : BufTy).Contents (Elt F) → (⟨S4096x512x1x1, .i32⟩ : BufTy).Contents (Elt F)),
    binary main_call2_v5 main_call2_v6 main_call2_v7 ((cmpi .sge) : (⟨S4096x512x1x1, .i32⟩ : BufTy).Contents (Elt F) → (⟨S4096x512x1x1, .i32⟩ : BufTy).Contents (Elt F) → (⟨S4096x512x1x1, .i1⟩ : BufTy).Contents (Elt F)),
    unary main_call2_c_1 main_call2_v8 ((broadcastInDim S1x1x1x1 ![3] bcast_S1_S1x1x1x1_3) : (⟨S1, .i32⟩ : BufTy).Contents (Elt F) → (⟨S1x1x1x1, .i32⟩ : BufTy).Contents (Elt F)),
    unary main_call2_v8 main_call2_v9 ((broadcastInDim S4096x512x1x1 ![0, 1, 2, 3] bcast_S1x1x1x1_S4096x512x1x1_0_1_2_3) : (⟨S1x1x1x1, .i32⟩ : BufTy).Contents (Elt F) → (⟨S4096x512x1x1, .i32⟩ : BufTy).Contents (Elt F)),
    binary main_call2_v5 main_call2_v9 main_call2_v10 ((cmpi .sle) : (⟨S4096x512x1x1, .i32⟩ : BufTy).Contents (Elt F) → (⟨S4096x512x1x1, .i32⟩ : BufTy).Contents (Elt F) → (⟨S4096x512x1x1, .i1⟩ : BufTy).Contents (Elt F)),
    binary main_call2_v7 main_call2_v10 main_call2_v11 (andi : (⟨S4096x512x1x1, .i1⟩ : BufTy).Contents (Elt F) → (⟨S4096x512x1x1, .i1⟩ : BufTy).Contents (Elt F) → (⟨S4096x512x1x1, .i1⟩ : BufTy).Contents (Elt F)),
    nullary main_call2_c_3 ((constantI S_ 1 1#1) : (⟨S_, .i1⟩ : BufTy).Contents (Elt F)),
    binary main_call2_v11 main_call2_c_3 main_call2_v12 ((fun x v => Host.reduce IntOp.andi x v reducesTo_S4096x512x1x1_S4096x512x1_d3 h_S_) : (⟨S4096x512x1x1, .i1⟩ : BufTy).Contents (Elt F) → (⟨S_, .i1⟩ : BufTy).Contents (Elt F) → (⟨S4096x512x1, .i1⟩ : BufTy).Contents (Elt F)),
    binary main_v13 main_call2_v5 main_call2_v13 ((fun x i => Host.gather gather_S4096x512x3_S4096x512x1x1_S4096x512x1_n_2_01_01_2_3_111 x i) : (⟨S4096x512x3, .f32⟩ : BufTy).Contents (Elt F) → (⟨S4096x512x1x1, .i32⟩ : BufTy).Contents (Elt F) → (⟨S4096x512x1, .f32⟩ : BufTy).Contents (Elt F)),
    nullary main_call2_cst ((constant S_ .f32 0x7FC00000#32) : (⟨S_, .f32⟩ : BufTy).Contents (Elt F)),
    unary main_call2_cst main_call2_v14 ((broadcastInDim S4096x512x1 ![] bcast_S_S4096x512x1) : (⟨S_, .f32⟩ : BufTy).Contents (Elt F) → (⟨S4096x512x1, .f32⟩ : BufTy).Contents (Elt F)),
    ternary main_call2_v12 main_call2_v13 main_call2_v14 main_v15 (select : (⟨S4096x512x1, .i1⟩ : BufTy).Contents (Elt F) → (⟨S4096x512x1, .f32⟩ : BufTy).Contents (Elt F) → (⟨S4096x512x1, .f32⟩ : BufTy).Contents (Elt F) → (⟨S4096x512x1, .f32⟩ : BufTy).Contents (Elt F)),
    reshape main_v15 main_v16 rfl shapeCasts_S4096x512x1_S4096x512,
    unary main_v16 main_v17 (Host.negf : (⟨S4096x512, .f32⟩ : BufTy).Contents (Elt F) → (⟨S4096x512, .f32⟩ : BufTy).Contents (Elt F)),
    nullary main_cst (constant S_ .f32 0x00000000#32),
    unary main_cst main_call3_v0 (id : (⟨S_, .f32⟩ : BufTy).Contents (Elt F) → (⟨S_, .f32⟩ : BufTy).Contents (Elt F)),
    unary main_call3_v0 main_call3_v1 ((broadcastInDim S4096x512 ![] bcast_S_S4096x512) : (⟨S_, .f32⟩ : BufTy).Contents (Elt F) → (⟨S4096x512, .f32⟩ : BufTy).Contents (Elt F)),
    ternary main_v5 main_v17 main_call3_v1 main_v18 (select : (⟨S4096x512, .i1⟩ : BufTy).Contents (Elt F) → (⟨S4096x512, .f32⟩ : BufTy).Contents (Elt F) → (⟨S4096x512, .f32⟩ : BufTy).Contents (Elt F) → (⟨S4096x512, .f32⟩ : BufTy).Contents (Elt F)),
    nullary main_cst_1 (constant S_ .f32 0x00000000#32),
    binary main_v18 main_cst_1 main_v19 ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)) ]

theorem opsH0_eq : (opsH0 : List (HloOp τ sig (Elt F))) = opsH0p := by
  simp only [opsH0, opsH0p, TRef.nullary, TRef.unary, TRef.binary, TRef.ternary, TRef.reshape, TRef.toBuf, TRef.ofBuf, cast_eq]
  rfl

theorem opsH0_fresh : (opsH0 : List (HloOp τ sig (Elt F))).Forall fun op => op.fresh = ∅ := by
  simp only [List.Forall]; repeat' constructor

/-- The second head's stretch, likewise. -/
abbrev opsH1p : List (HloOp τ sig (Elt F)) :=
  [ unary main_arg0 main_v20 ((extractStridedSlice S4096x512x2 ![0, 0, 3] · slices_S4096x512x7_S4096x512x2_0_0_3) : (⟨S4096x512x7, .f32⟩ : BufTy).Contents (Elt F) → (⟨S4096x512x2, .f32⟩ : BufTy).Contents (Elt F)),
    unary main_arg1 main_v21 ((extractStridedSlice S4096x512x1 ![0, 0, 1] · slices_S4096x512x3_S4096x512x1_0_0_1) : (⟨S4096x512x3, .i32⟩ : BufTy).Contents (Elt F) → (⟨S4096x512x1, .i32⟩ : BufTy).Contents (Elt F)),
    reshape main_v21 main_v22 rfl shapeCasts_S4096x512x1_S4096x512,
    nullary main_call4_cst ((constant S_ .f32 0xFF800000#32) : (⟨S_, .f32⟩ : BufTy).Contents (Elt F)),
    binary main_v20 main_call4_cst main_call4_v0 ((fun x v => Host.reduce FloatOps.maximumf x v reducesTo_S4096x512x2_S4096x512_d2 h_S_) : (⟨S4096x512x2, .f32⟩ : BufTy).Contents (Elt F) → (⟨S_, .f32⟩ : BufTy).Contents (Elt F) → (⟨S4096x512, .f32⟩ : BufTy).Contents (Elt F)),
    nullary main_call4_cst_0 ((constant S_ .f32 0xFF800000#32) : (⟨S_, .f32⟩ : BufTy).Contents (Elt F)),
    unary main_call4_cst_0 main_call4_v1 ((broadcastInDim S4096x512 ![] bcast_S_S4096x512) : (⟨S_, .f32⟩ : BufTy).Contents (Elt F) → (⟨S4096x512, .f32⟩ : BufTy).Contents (Elt F)),
    binary main_call4_v1 main_call4_v0 main_call4_v2 (maximumf : (⟨S4096x512, .f32⟩ : BufTy).Contents (Elt F) → (⟨S4096x512, .f32⟩ : BufTy).Contents (Elt F) → (⟨S4096x512, .f32⟩ : BufTy).Contents (Elt F)),
    unary main_call4_v2 main_call4_v3 ((broadcastInDim S4096x512x1 ![0, 1] bcast_S4096x512_S4096x512x1_0_1) : (⟨S4096x512, .f32⟩ : BufTy).Contents (Elt F) → (⟨S4096x512x1, .f32⟩ : BufTy).Contents (Elt F)),
    unary main_call4_v3 main_call4_v4 ((broadcastInDim S4096x512x2 ![0, 1, 2] bcast_S4096x512x1_S4096x512x2_0_1_2) : (⟨S4096x512x1, .f32⟩ : BufTy).Contents (Elt F) → (⟨S4096x512x2, .f32⟩ : BufTy).Contents (Elt F)),
    binary main_v20 main_call4_v4 main_call4_v5 (subf : (⟨S4096x512x2, .f32⟩ : BufTy).Contents (Elt F) → (⟨S4096x512x2, .f32⟩ : BufTy).Contents (Elt F) → (⟨S4096x512x2, .f32⟩ : BufTy).Contents (Elt F)),
    unary main_call4_v5 main_call4_v6 (Host.exp : (⟨S4096x512x2, .f32⟩ : BufTy).Contents (Elt F) → (⟨S4096x512x2, .f32⟩ : BufTy).Contents (Elt F)),
    nullary main_call4_cst_1 ((constant S_ .f32 0x00000000#32) : (⟨S_, .f32⟩ : BufTy).Contents (Elt F)),
    binary main_call4_v6 main_call4_cst_1 main_call4_v7 ((fun x v => Host.reduceAdd x v reducesTo_S4096x512x2_S4096x512_d2 h_S_) : (⟨S4096x512x2, .f32⟩ : BufTy).Contents (Elt F) → (⟨S_, .f32⟩ : BufTy).Contents (Elt F) → (⟨S4096x512, .f32⟩ : BufTy).Contents (Elt F)),
    unary main_call4_v7 main_call4_v8 ((broadcastInDim S4096x512x1 ![0, 1] bcast_S4096x512_S4096x512x1_0_1) : (⟨S4096x512, .f32⟩ : BufTy).Contents (Elt F) → (⟨S4096x512x1, .f32⟩ : BufTy).Contents (Elt F)),
    unary main_call4_v8 main_call4_v9 (Host.log : (⟨S4096x512x1, .f32⟩ : BufTy).Contents (Elt F) → (⟨S4096x512x1, .f32⟩ : BufTy).Contents (Elt F)),
    unary main_call4_v9 main_call4_v10 ((broadcastInDim S4096x512x2 ![0, 1, 2] bcast_S4096x512x1_S4096x512x2_0_1_2) : (⟨S4096x512x1, .f32⟩ : BufTy).Contents (Elt F) → (⟨S4096x512x2, .f32⟩ : BufTy).Contents (Elt F)),
    binary main_call4_v5 main_call4_v10 main_v23 (subf : (⟨S4096x512x2, .f32⟩ : BufTy).Contents (Elt F) → (⟨S4096x512x2, .f32⟩ : BufTy).Contents (Elt F) → (⟨S4096x512x2, .f32⟩ : BufTy).Contents (Elt F)),
    unary main_v22 main_v24 (broadcastInDim S4096x512x1 ![0, 1] bcast_S4096x512_S4096x512x1_0_1 : (⟨S4096x512, .i32⟩ : BufTy).Contents (Elt F) → (⟨S4096x512x1, .i32⟩ : BufTy).Contents (Elt F)),
    nullary main_call5_c ((constantI S_ 32 0#32) : (⟨S_, .i32⟩ : BufTy).Contents (Elt F)),
    unary main_call5_c main_call5_v0 ((broadcastInDim S4096x512x1 ![] bcast_S_S4096x512x1) : (⟨S_, .i32⟩ : BufTy).Contents (Elt F) → (⟨S4096x512x1, .i32⟩ : BufTy).Contents (Elt F)),
    binary main_v24 main_call5_v0 main_call5_v1 ((cmpi .slt) : (⟨S4096x512x1, .i32⟩ : BufTy).Contents (Elt F) → (⟨S4096x512x1, .i32⟩ : BufTy).Contents (Elt F) → (⟨S4096x512x1, .i1⟩ : BufTy).Contents (Elt F)),
    nullary main_call5_c_0 ((constantI S_ 32 2#32) : (⟨S_, .i32⟩ : BufTy).Contents (Elt F)),
    unary main_call5_c_0 main_call5_v2 ((broadcastInDim S4096x512x1 ![] bcast_S_S4096x512x1) : (⟨S_, .i32⟩ : BufTy).Contents (Elt F) → (⟨S4096x512x1, .i32⟩ : BufTy).Contents (Elt F)),
    binary main_v24 main_call5_v2 main_call5_v3 (addi : (⟨S4096x512x1, .i32⟩ : BufTy).Contents (Elt F) → (⟨S4096x512x1, .i32⟩ : BufTy).Contents (Elt F) → (⟨S4096x512x1, .i32⟩ : BufTy).Contents (Elt F)),
    ternary main_call5_v1 main_call5_v3 main_v24 main_call5_v4 (select : (⟨S4096x512x1, .i1⟩ : BufTy).Contents (Elt F) → (⟨S4096x512x1, .i32⟩ : BufTy).Contents (Elt F) → (⟨S4096x512x1, .i32⟩ : BufTy).Contents (Elt F) → (⟨S4096x512x1, .i32⟩ : BufTy).Contents (Elt F)),
    reshape main_call5_v4 main_call5_v5 rfl shapeCasts_S4096x512x1_S4096x512x1x1,
    nullary main_call5_c_1 ((constantI S1 32 1#32) : (⟨S1, .i32⟩ : BufTy).Contents (Elt F)),
    nullary main_call5_c_2 ((constantI S_ 32 0#32) : (⟨S_, .i32⟩ : BufTy).Contents (Elt F)),
    unary main_call5_c_2 main_call5_v6 ((broadcastInDim S4096x512x1x1 ![] bcast_S_S4096x512x1x1) : (⟨S_, .i32⟩ : BufTy).Contents (Elt F) → (⟨S4096x512x1x1, .i32⟩ : BufTy).Contents (Elt F)),
    binary main_call5_v5 main_call5_v6 main_call5_v7 ((cmpi .sge) : (⟨S4096x512x1x1, .i32⟩ : BufTy).Contents (Elt F) → (⟨S4096x512x1x1, .i32⟩ : BufTy).Contents (Elt F) → (⟨S4096x512x1x1, .i1⟩ : BufTy).Contents (Elt F)),
    unary main_call5_c_1 main_call5_v8 ((broadcastInDim S1x1x1x1 ![3] bcast_S1_S1x1x1x1_3) : (⟨S1, .i32⟩ : BufTy).Contents (Elt F) → (⟨S1x1x1x1, .i32⟩ : BufTy).Contents (Elt F)),
    unary main_call5_v8 main_call5_v9 ((broadcastInDim S4096x512x1x1 ![0, 1, 2, 3] bcast_S1x1x1x1_S4096x512x1x1_0_1_2_3) : (⟨S1x1x1x1, .i32⟩ : BufTy).Contents (Elt F) → (⟨S4096x512x1x1, .i32⟩ : BufTy).Contents (Elt F)),
    binary main_call5_v5 main_call5_v9 main_call5_v10 ((cmpi .sle) : (⟨S4096x512x1x1, .i32⟩ : BufTy).Contents (Elt F) → (⟨S4096x512x1x1, .i32⟩ : BufTy).Contents (Elt F) → (⟨S4096x512x1x1, .i1⟩ : BufTy).Contents (Elt F)),
    binary main_call5_v7 main_call5_v10 main_call5_v11 (andi : (⟨S4096x512x1x1, .i1⟩ : BufTy).Contents (Elt F) → (⟨S4096x512x1x1, .i1⟩ : BufTy).Contents (Elt F) → (⟨S4096x512x1x1, .i1⟩ : BufTy).Contents (Elt F)),
    nullary main_call5_c_3 ((constantI S_ 1 1#1) : (⟨S_, .i1⟩ : BufTy).Contents (Elt F)),
    binary main_call5_v11 main_call5_c_3 main_call5_v12 ((fun x v => Host.reduce IntOp.andi x v reducesTo_S4096x512x1x1_S4096x512x1_d3 h_S_) : (⟨S4096x512x1x1, .i1⟩ : BufTy).Contents (Elt F) → (⟨S_, .i1⟩ : BufTy).Contents (Elt F) → (⟨S4096x512x1, .i1⟩ : BufTy).Contents (Elt F)),
    binary main_v23 main_call5_v5 main_call5_v13 ((fun x i => Host.gather gather_S4096x512x2_S4096x512x1x1_S4096x512x1_n_2_01_01_2_3_111 x i) : (⟨S4096x512x2, .f32⟩ : BufTy).Contents (Elt F) → (⟨S4096x512x1x1, .i32⟩ : BufTy).Contents (Elt F) → (⟨S4096x512x1, .f32⟩ : BufTy).Contents (Elt F)),
    nullary main_call5_cst ((constant S_ .f32 0x7FC00000#32) : (⟨S_, .f32⟩ : BufTy).Contents (Elt F)),
    unary main_call5_cst main_call5_v14 ((broadcastInDim S4096x512x1 ![] bcast_S_S4096x512x1) : (⟨S_, .f32⟩ : BufTy).Contents (Elt F) → (⟨S4096x512x1, .f32⟩ : BufTy).Contents (Elt F)),
    ternary main_call5_v12 main_call5_v13 main_call5_v14 main_v25 (select : (⟨S4096x512x1, .i1⟩ : BufTy).Contents (Elt F) → (⟨S4096x512x1, .f32⟩ : BufTy).Contents (Elt F) → (⟨S4096x512x1, .f32⟩ : BufTy).Contents (Elt F) → (⟨S4096x512x1, .f32⟩ : BufTy).Contents (Elt F)),
    reshape main_v25 main_v26 rfl shapeCasts_S4096x512x1_S4096x512,
    unary main_v26 main_v27 (Host.negf : (⟨S4096x512, .f32⟩ : BufTy).Contents (Elt F) → (⟨S4096x512, .f32⟩ : BufTy).Contents (Elt F)),
    nullary main_cst_2 (constant S_ .f32 0x00000000#32),
    unary main_cst_2 main_call6_v0 (id : (⟨S_, .f32⟩ : BufTy).Contents (Elt F) → (⟨S_, .f32⟩ : BufTy).Contents (Elt F)),
    unary main_call6_v0 main_call6_v1 ((broadcastInDim S4096x512 ![] bcast_S_S4096x512) : (⟨S_, .f32⟩ : BufTy).Contents (Elt F) → (⟨S4096x512, .f32⟩ : BufTy).Contents (Elt F)),
    ternary main_v5 main_v27 main_call6_v1 main_v28 (select : (⟨S4096x512, .i1⟩ : BufTy).Contents (Elt F) → (⟨S4096x512, .f32⟩ : BufTy).Contents (Elt F) → (⟨S4096x512, .f32⟩ : BufTy).Contents (Elt F) → (⟨S4096x512, .f32⟩ : BufTy).Contents (Elt F)),
    nullary main_cst_3 (constant S_ .f32 0x00000000#32),
    binary main_v28 main_cst_3 main_v29 ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)),
    binary main_v19 main_v29 main_v30 (addf : (⟨S512, .f32⟩ : BufTy).Contents (Elt F) → (⟨S512, .f32⟩ : BufTy).Contents (Elt F) → (⟨S512, .f32⟩ : BufTy).Contents (Elt F)) ]

theorem opsH1_eq : (opsH1 : List (HloOp τ sig (Elt F))) = opsH1p := by
  simp only [opsH1, opsH1p, TRef.nullary, TRef.unary, TRef.binary, TRef.ternary, TRef.reshape, TRef.toBuf, TRef.ofBuf, cast_eq]
  rfl

theorem opsH1_fresh : (opsH1 : List (HloOp τ sig (Elt F))).Forall fun op => op.fresh = ∅ := by
  simp only [List.Forall]; repeat' constructor

/-- The third head's stretch, likewise. -/
abbrev opsH2p : List (HloOp τ sig (Elt F)) :=
  [ unary main_arg0 main_v31 ((extractStridedSlice S4096x512x2 ![0, 0, 5] · slices_S4096x512x7_S4096x512x2_0_0_5) : (⟨S4096x512x7, .f32⟩ : BufTy).Contents (Elt F) → (⟨S4096x512x2, .f32⟩ : BufTy).Contents (Elt F)),
    unary main_arg1 main_v32 ((extractStridedSlice S4096x512x1 ![0, 0, 2] · slices_S4096x512x3_S4096x512x1_0_0_2) : (⟨S4096x512x3, .i32⟩ : BufTy).Contents (Elt F) → (⟨S4096x512x1, .i32⟩ : BufTy).Contents (Elt F)),
    reshape main_v32 main_v33 rfl shapeCasts_S4096x512x1_S4096x512,
    nullary main_call7_cst ((constant S_ .f32 0xFF800000#32) : (⟨S_, .f32⟩ : BufTy).Contents (Elt F)),
    binary main_v31 main_call7_cst main_call7_v0 ((fun x v => Host.reduce FloatOps.maximumf x v reducesTo_S4096x512x2_S4096x512_d2 h_S_) : (⟨S4096x512x2, .f32⟩ : BufTy).Contents (Elt F) → (⟨S_, .f32⟩ : BufTy).Contents (Elt F) → (⟨S4096x512, .f32⟩ : BufTy).Contents (Elt F)),
    nullary main_call7_cst_0 ((constant S_ .f32 0xFF800000#32) : (⟨S_, .f32⟩ : BufTy).Contents (Elt F)),
    unary main_call7_cst_0 main_call7_v1 ((broadcastInDim S4096x512 ![] bcast_S_S4096x512) : (⟨S_, .f32⟩ : BufTy).Contents (Elt F) → (⟨S4096x512, .f32⟩ : BufTy).Contents (Elt F)),
    binary main_call7_v1 main_call7_v0 main_call7_v2 (maximumf : (⟨S4096x512, .f32⟩ : BufTy).Contents (Elt F) → (⟨S4096x512, .f32⟩ : BufTy).Contents (Elt F) → (⟨S4096x512, .f32⟩ : BufTy).Contents (Elt F)),
    unary main_call7_v2 main_call7_v3 ((broadcastInDim S4096x512x1 ![0, 1] bcast_S4096x512_S4096x512x1_0_1) : (⟨S4096x512, .f32⟩ : BufTy).Contents (Elt F) → (⟨S4096x512x1, .f32⟩ : BufTy).Contents (Elt F)),
    unary main_call7_v3 main_call7_v4 ((broadcastInDim S4096x512x2 ![0, 1, 2] bcast_S4096x512x1_S4096x512x2_0_1_2) : (⟨S4096x512x1, .f32⟩ : BufTy).Contents (Elt F) → (⟨S4096x512x2, .f32⟩ : BufTy).Contents (Elt F)),
    binary main_v31 main_call7_v4 main_call7_v5 (subf : (⟨S4096x512x2, .f32⟩ : BufTy).Contents (Elt F) → (⟨S4096x512x2, .f32⟩ : BufTy).Contents (Elt F) → (⟨S4096x512x2, .f32⟩ : BufTy).Contents (Elt F)),
    unary main_call7_v5 main_call7_v6 (Host.exp : (⟨S4096x512x2, .f32⟩ : BufTy).Contents (Elt F) → (⟨S4096x512x2, .f32⟩ : BufTy).Contents (Elt F)),
    nullary main_call7_cst_1 ((constant S_ .f32 0x00000000#32) : (⟨S_, .f32⟩ : BufTy).Contents (Elt F)),
    binary main_call7_v6 main_call7_cst_1 main_call7_v7 ((fun x v => Host.reduceAdd x v reducesTo_S4096x512x2_S4096x512_d2 h_S_) : (⟨S4096x512x2, .f32⟩ : BufTy).Contents (Elt F) → (⟨S_, .f32⟩ : BufTy).Contents (Elt F) → (⟨S4096x512, .f32⟩ : BufTy).Contents (Elt F)),
    unary main_call7_v7 main_call7_v8 ((broadcastInDim S4096x512x1 ![0, 1] bcast_S4096x512_S4096x512x1_0_1) : (⟨S4096x512, .f32⟩ : BufTy).Contents (Elt F) → (⟨S4096x512x1, .f32⟩ : BufTy).Contents (Elt F)),
    unary main_call7_v8 main_call7_v9 (Host.log : (⟨S4096x512x1, .f32⟩ : BufTy).Contents (Elt F) → (⟨S4096x512x1, .f32⟩ : BufTy).Contents (Elt F)),
    unary main_call7_v9 main_call7_v10 ((broadcastInDim S4096x512x2 ![0, 1, 2] bcast_S4096x512x1_S4096x512x2_0_1_2) : (⟨S4096x512x1, .f32⟩ : BufTy).Contents (Elt F) → (⟨S4096x512x2, .f32⟩ : BufTy).Contents (Elt F)),
    binary main_call7_v5 main_call7_v10 main_v34 (subf : (⟨S4096x512x2, .f32⟩ : BufTy).Contents (Elt F) → (⟨S4096x512x2, .f32⟩ : BufTy).Contents (Elt F) → (⟨S4096x512x2, .f32⟩ : BufTy).Contents (Elt F)),
    unary main_v33 main_v35 (broadcastInDim S4096x512x1 ![0, 1] bcast_S4096x512_S4096x512x1_0_1 : (⟨S4096x512, .i32⟩ : BufTy).Contents (Elt F) → (⟨S4096x512x1, .i32⟩ : BufTy).Contents (Elt F)),
    nullary main_call8_c ((constantI S_ 32 0#32) : (⟨S_, .i32⟩ : BufTy).Contents (Elt F)),
    unary main_call8_c main_call8_v0 ((broadcastInDim S4096x512x1 ![] bcast_S_S4096x512x1) : (⟨S_, .i32⟩ : BufTy).Contents (Elt F) → (⟨S4096x512x1, .i32⟩ : BufTy).Contents (Elt F)),
    binary main_v35 main_call8_v0 main_call8_v1 ((cmpi .slt) : (⟨S4096x512x1, .i32⟩ : BufTy).Contents (Elt F) → (⟨S4096x512x1, .i32⟩ : BufTy).Contents (Elt F) → (⟨S4096x512x1, .i1⟩ : BufTy).Contents (Elt F)),
    nullary main_call8_c_0 ((constantI S_ 32 2#32) : (⟨S_, .i32⟩ : BufTy).Contents (Elt F)),
    unary main_call8_c_0 main_call8_v2 ((broadcastInDim S4096x512x1 ![] bcast_S_S4096x512x1) : (⟨S_, .i32⟩ : BufTy).Contents (Elt F) → (⟨S4096x512x1, .i32⟩ : BufTy).Contents (Elt F)),
    binary main_v35 main_call8_v2 main_call8_v3 (addi : (⟨S4096x512x1, .i32⟩ : BufTy).Contents (Elt F) → (⟨S4096x512x1, .i32⟩ : BufTy).Contents (Elt F) → (⟨S4096x512x1, .i32⟩ : BufTy).Contents (Elt F)),
    ternary main_call8_v1 main_call8_v3 main_v35 main_call8_v4 (select : (⟨S4096x512x1, .i1⟩ : BufTy).Contents (Elt F) → (⟨S4096x512x1, .i32⟩ : BufTy).Contents (Elt F) → (⟨S4096x512x1, .i32⟩ : BufTy).Contents (Elt F) → (⟨S4096x512x1, .i32⟩ : BufTy).Contents (Elt F)),
    reshape main_call8_v4 main_call8_v5 rfl shapeCasts_S4096x512x1_S4096x512x1x1,
    nullary main_call8_c_1 ((constantI S1 32 1#32) : (⟨S1, .i32⟩ : BufTy).Contents (Elt F)),
    nullary main_call8_c_2 ((constantI S_ 32 0#32) : (⟨S_, .i32⟩ : BufTy).Contents (Elt F)),
    unary main_call8_c_2 main_call8_v6 ((broadcastInDim S4096x512x1x1 ![] bcast_S_S4096x512x1x1) : (⟨S_, .i32⟩ : BufTy).Contents (Elt F) → (⟨S4096x512x1x1, .i32⟩ : BufTy).Contents (Elt F)),
    binary main_call8_v5 main_call8_v6 main_call8_v7 ((cmpi .sge) : (⟨S4096x512x1x1, .i32⟩ : BufTy).Contents (Elt F) → (⟨S4096x512x1x1, .i32⟩ : BufTy).Contents (Elt F) → (⟨S4096x512x1x1, .i1⟩ : BufTy).Contents (Elt F)),
    unary main_call8_c_1 main_call8_v8 ((broadcastInDim S1x1x1x1 ![3] bcast_S1_S1x1x1x1_3) : (⟨S1, .i32⟩ : BufTy).Contents (Elt F) → (⟨S1x1x1x1, .i32⟩ : BufTy).Contents (Elt F)),
    unary main_call8_v8 main_call8_v9 ((broadcastInDim S4096x512x1x1 ![0, 1, 2, 3] bcast_S1x1x1x1_S4096x512x1x1_0_1_2_3) : (⟨S1x1x1x1, .i32⟩ : BufTy).Contents (Elt F) → (⟨S4096x512x1x1, .i32⟩ : BufTy).Contents (Elt F)),
    binary main_call8_v5 main_call8_v9 main_call8_v10 ((cmpi .sle) : (⟨S4096x512x1x1, .i32⟩ : BufTy).Contents (Elt F) → (⟨S4096x512x1x1, .i32⟩ : BufTy).Contents (Elt F) → (⟨S4096x512x1x1, .i1⟩ : BufTy).Contents (Elt F)),
    binary main_call8_v7 main_call8_v10 main_call8_v11 (andi : (⟨S4096x512x1x1, .i1⟩ : BufTy).Contents (Elt F) → (⟨S4096x512x1x1, .i1⟩ : BufTy).Contents (Elt F) → (⟨S4096x512x1x1, .i1⟩ : BufTy).Contents (Elt F)),
    nullary main_call8_c_3 ((constantI S_ 1 1#1) : (⟨S_, .i1⟩ : BufTy).Contents (Elt F)),
    binary main_call8_v11 main_call8_c_3 main_call8_v12 ((fun x v => Host.reduce IntOp.andi x v reducesTo_S4096x512x1x1_S4096x512x1_d3 h_S_) : (⟨S4096x512x1x1, .i1⟩ : BufTy).Contents (Elt F) → (⟨S_, .i1⟩ : BufTy).Contents (Elt F) → (⟨S4096x512x1, .i1⟩ : BufTy).Contents (Elt F)),
    binary main_v34 main_call8_v5 main_call8_v13 ((fun x i => Host.gather gather_S4096x512x2_S4096x512x1x1_S4096x512x1_n_2_01_01_2_3_111 x i) : (⟨S4096x512x2, .f32⟩ : BufTy).Contents (Elt F) → (⟨S4096x512x1x1, .i32⟩ : BufTy).Contents (Elt F) → (⟨S4096x512x1, .f32⟩ : BufTy).Contents (Elt F)),
    nullary main_call8_cst ((constant S_ .f32 0x7FC00000#32) : (⟨S_, .f32⟩ : BufTy).Contents (Elt F)),
    unary main_call8_cst main_call8_v14 ((broadcastInDim S4096x512x1 ![] bcast_S_S4096x512x1) : (⟨S_, .f32⟩ : BufTy).Contents (Elt F) → (⟨S4096x512x1, .f32⟩ : BufTy).Contents (Elt F)),
    ternary main_call8_v12 main_call8_v13 main_call8_v14 main_v36 (select : (⟨S4096x512x1, .i1⟩ : BufTy).Contents (Elt F) → (⟨S4096x512x1, .f32⟩ : BufTy).Contents (Elt F) → (⟨S4096x512x1, .f32⟩ : BufTy).Contents (Elt F) → (⟨S4096x512x1, .f32⟩ : BufTy).Contents (Elt F)),
    reshape main_v36 main_v37 rfl shapeCasts_S4096x512x1_S4096x512,
    unary main_v37 main_v38 (Host.negf : (⟨S4096x512, .f32⟩ : BufTy).Contents (Elt F) → (⟨S4096x512, .f32⟩ : BufTy).Contents (Elt F)),
    nullary main_cst_4 (constant S_ .f32 0x00000000#32),
    unary main_cst_4 main_call9_v0 (id : (⟨S_, .f32⟩ : BufTy).Contents (Elt F) → (⟨S_, .f32⟩ : BufTy).Contents (Elt F)),
    unary main_call9_v0 main_call9_v1 ((broadcastInDim S4096x512 ![] bcast_S_S4096x512) : (⟨S_, .f32⟩ : BufTy).Contents (Elt F) → (⟨S4096x512, .f32⟩ : BufTy).Contents (Elt F)),
    ternary main_v5 main_v38 main_call9_v1 main_v39 (select : (⟨S4096x512, .i1⟩ : BufTy).Contents (Elt F) → (⟨S4096x512, .f32⟩ : BufTy).Contents (Elt F) → (⟨S4096x512, .f32⟩ : BufTy).Contents (Elt F) → (⟨S4096x512, .f32⟩ : BufTy).Contents (Elt F)),
    nullary main_cst_5 (constant S_ .f32 0x00000000#32),
    binary main_v39 main_cst_5 main_v40 ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)),
    binary main_v30 main_v40 main_v41 (addf : (⟨S512, .f32⟩ : BufTy).Contents (Elt F) → (⟨S512, .f32⟩ : BufTy).Contents (Elt F) → (⟨S512, .f32⟩ : BufTy).Contents (Elt F)) ]

theorem opsH2_eq : (opsH2 : List (HloOp τ sig (Elt F))) = opsH2p := by
  simp only [opsH2, opsH2p, TRef.nullary, TRef.unary, TRef.binary, TRef.ternary, TRef.reshape, TRef.toBuf, TRef.ofBuf, cast_eq]
  rfl

theorem opsH2_fresh : (opsH2 : List (HloOp τ sig (Elt F))).Forall fun op => op.fresh = ∅ := by
  simp only [List.Forall]; repeat' constructor

/-- The tail, likewise. -/
abbrev opsTp : List (HloOp τ sig (Elt F)) :=
  [ binary main_v41 main_v9 main_v42 (Host.divf : (⟨S512, .f32⟩ : BufTy).Contents (Elt F) → (⟨S512, .f32⟩ : BufTy).Contents (Elt F) → (⟨S512, .f32⟩ : BufTy).Contents (Elt F)),
    nullary main_cst_6 (constant S_ .f32 0x00000000#32),
    unary main_cst_6 main_call10_v0 (id : (⟨S_, .f32⟩ : BufTy).Contents (Elt F) → (⟨S_, .f32⟩ : BufTy).Contents (Elt F)),
    unary main_call10_v0 main_call10_v1 ((broadcastInDim S512 ![] bcast_S_S512) : (⟨S_, .f32⟩ : BufTy).Contents (Elt F) → (⟨S512, .f32⟩ : BufTy).Contents (Elt F)),
    ternary main_v7 main_v42 main_call10_v1 main_v43 (select : (⟨S512, .i1⟩ : BufTy).Contents (Elt F) → (⟨S512, .f32⟩ : BufTy).Contents (Elt F) → (⟨S512, .f32⟩ : BufTy).Contents (Elt F) → (⟨S512, .f32⟩ : BufTy).Contents (Elt F)),
    nullary main_cst_7 (constant S_ .f32 0x00000000#32),
    binary main_v43 main_cst_7 main_v44 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_8 (constant S_ .f32 0x44000000#32),
    binary main_v44 main_cst_8 main_v45 (Host.divf : (⟨S_, .f32⟩ : BufTy).Contents (Elt F) → (⟨S_, .f32⟩ : BufTy).Contents (Elt F) → (⟨S_, .f32⟩ : BufTy).Contents (Elt F)) ]

theorem opsT_eq : (opsT : List (HloOp τ sig (Elt F))) = opsTp := by
  simp only [opsT, opsTp, TRef.nullary, TRef.unary, TRef.binary, TRef.ternary, TRef.reshape, TRef.toBuf, TRef.ofBuf, cast_eq]

theorem opsT_fresh : (opsT : List (HloOp τ sig (Elt F))).Forall fun op => op.fresh = ∅ := by
  simp only [List.Forall]; repeat' constructor

/-! ## What each stretch leaves, for an arbitrary memory `W` -/

set_option maxRecDepth 8192 in
theorem opsP_v5 (W : Valuation τ sig (Elt F)) : after opsP W (Proc.devRef .tc main_v5) = val_main_v5 (F := F) (W (Proc.devRef .tc main_arg2)) := by
  rw [opsP_eq]; after_results_simp; rfl
set_option maxRecDepth 8192 in
theorem opsP_v7 (W : Valuation τ sig (Elt F)) : after opsP W (Proc.devRef .tc main_v7) = val_main_v7 (F := F) (W (Proc.devRef .tc main_arg2)) := by
  rw [opsP_eq]; after_results_simp; rfl
set_option maxRecDepth 8192 in
theorem opsP_v9 (W : Valuation τ sig (Elt F)) : after opsP W (Proc.devRef .tc main_v9) = val_main_v9 (F := F) (W (Proc.devRef .tc main_arg2)) := by
  rw [opsP_eq]; after_results_simp; rfl
theorem opsP_keeps_main_arg0 (W : Valuation τ sig (Elt F)) : after opsP W (Proc.devRef .tc main_arg0) = W (Proc.devRef .tc main_arg0) := by
  rw [opsP_eq]; after_results_simp
theorem opsP_keeps_main_arg1 (W : Valuation τ sig (Elt F)) : after opsP W (Proc.devRef .tc main_arg1) = W (Proc.devRef .tc main_arg1) := by
  rw [opsP_eq]; after_results_simp
theorem opsP_keeps_main_arg2 (W : Valuation τ sig (Elt F)) : after opsP W (Proc.devRef .tc main_arg2) = W (Proc.devRef .tc main_arg2) := by
  rw [opsP_eq]; after_results_simp

set_option maxRecDepth 8192 in
theorem opsH0_v19 (W : Valuation τ sig (Elt F)) (x2 : (⟨S512, .i32⟩ : BufTy).Contents (Elt F))
    (h5 : W (Proc.devRef .tc main_v5) = val_main_v5 (F := F) x2) :
    after opsH0 W (Proc.devRef .tc main_v19) = val_main_v19 (F := F) (W (Proc.devRef .tc main_arg0)) (W (Proc.devRef .tc main_arg1)) x2 := by
  rw [opsH0_eq]; after_results_simp; rw [h5]; rfl
theorem opsH0_keeps_main_arg0 (W : Valuation τ sig (Elt F)) : after opsH0 W (Proc.devRef .tc main_arg0) = W (Proc.devRef .tc main_arg0) := by
  rw [opsH0_eq]; after_results_simp
theorem opsH0_keeps_main_arg1 (W : Valuation τ sig (Elt F)) : after opsH0 W (Proc.devRef .tc main_arg1) = W (Proc.devRef .tc main_arg1) := by
  rw [opsH0_eq]; after_results_simp
theorem opsH0_keeps_main_arg2 (W : Valuation τ sig (Elt F)) : after opsH0 W (Proc.devRef .tc main_arg2) = W (Proc.devRef .tc main_arg2) := by
  rw [opsH0_eq]; after_results_simp
theorem opsH0_keeps_main_v5 (W : Valuation τ sig (Elt F)) : after opsH0 W (Proc.devRef .tc main_v5) = W (Proc.devRef .tc main_v5) := by
  rw [opsH0_eq]; after_results_simp
theorem opsH0_keeps_main_v7 (W : Valuation τ sig (Elt F)) : after opsH0 W (Proc.devRef .tc main_v7) = W (Proc.devRef .tc main_v7) := by
  rw [opsH0_eq]; after_results_simp
theorem opsH0_keeps_main_v9 (W : Valuation τ sig (Elt F)) : after opsH0 W (Proc.devRef .tc main_v9) = W (Proc.devRef .tc main_v9) := by
  rw [opsH0_eq]; after_results_simp

set_option maxRecDepth 8192 in
theorem opsH1_v30 (W : Valuation τ sig (Elt F)) (x0 : (⟨S4096x512x7, .f32⟩ : BufTy).Contents (Elt F)) (x1 : (⟨S4096x512x3, .i32⟩ : BufTy).Contents (Elt F)) (x2 : (⟨S512, .i32⟩ : BufTy).Contents (Elt F))
    (h0 : W (Proc.devRef .tc main_arg0) = x0) (h1 : W (Proc.devRef .tc main_arg1) = x1) (h5 : W (Proc.devRef .tc main_v5) = val_main_v5 (F := F) x2)
    (h19 : W (Proc.devRef .tc main_v19) = val_main_v19 (F := F) x0 x1 x2) :
    after opsH1 W (Proc.devRef .tc main_v30) = val_main_v30 (F := F) x0 x1 x2 := by
  rw [opsH1_eq]; after_results_simp; rw [h0, h1, h5, h19]; rfl
theorem opsH1_keeps_main_arg0 (W : Valuation τ sig (Elt F)) : after opsH1 W (Proc.devRef .tc main_arg0) = W (Proc.devRef .tc main_arg0) := by
  rw [opsH1_eq]; after_results_simp
theorem opsH1_keeps_main_arg1 (W : Valuation τ sig (Elt F)) : after opsH1 W (Proc.devRef .tc main_arg1) = W (Proc.devRef .tc main_arg1) := by
  rw [opsH1_eq]; after_results_simp
theorem opsH1_keeps_main_arg2 (W : Valuation τ sig (Elt F)) : after opsH1 W (Proc.devRef .tc main_arg2) = W (Proc.devRef .tc main_arg2) := by
  rw [opsH1_eq]; after_results_simp
theorem opsH1_keeps_main_v5 (W : Valuation τ sig (Elt F)) : after opsH1 W (Proc.devRef .tc main_v5) = W (Proc.devRef .tc main_v5) := by
  rw [opsH1_eq]; after_results_simp
theorem opsH1_keeps_main_v7 (W : Valuation τ sig (Elt F)) : after opsH1 W (Proc.devRef .tc main_v7) = W (Proc.devRef .tc main_v7) := by
  rw [opsH1_eq]; after_results_simp
theorem opsH1_keeps_main_v9 (W : Valuation τ sig (Elt F)) : after opsH1 W (Proc.devRef .tc main_v9) = W (Proc.devRef .tc main_v9) := by
  rw [opsH1_eq]; after_results_simp

set_option maxRecDepth 8192 in
theorem opsH2_v41 (W : Valuation τ sig (Elt F)) (x0 : (⟨S4096x512x7, .f32⟩ : BufTy).Contents (Elt F)) (x1 : (⟨S4096x512x3, .i32⟩ : BufTy).Contents (Elt F)) (x2 : (⟨S512, .i32⟩ : BufTy).Contents (Elt F))
    (h0 : W (Proc.devRef .tc main_arg0) = x0) (h1 : W (Proc.devRef .tc main_arg1) = x1) (h5 : W (Proc.devRef .tc main_v5) = val_main_v5 (F := F) x2)
    (h30 : W (Proc.devRef .tc main_v30) = val_main_v30 (F := F) x0 x1 x2) :
    after opsH2 W (Proc.devRef .tc main_v41) = val_main_v41 (F := F) x0 x1 x2 := by
  rw [opsH2_eq]; after_results_simp; rw [h0, h1, h5, h30]; rfl
theorem opsH2_keeps_main_arg0 (W : Valuation τ sig (Elt F)) : after opsH2 W (Proc.devRef .tc main_arg0) = W (Proc.devRef .tc main_arg0) := by
  rw [opsH2_eq]; after_results_simp
theorem opsH2_keeps_main_arg1 (W : Valuation τ sig (Elt F)) : after opsH2 W (Proc.devRef .tc main_arg1) = W (Proc.devRef .tc main_arg1) := by
  rw [opsH2_eq]; after_results_simp
theorem opsH2_keeps_main_arg2 (W : Valuation τ sig (Elt F)) : after opsH2 W (Proc.devRef .tc main_arg2) = W (Proc.devRef .tc main_arg2) := by
  rw [opsH2_eq]; after_results_simp
theorem opsH2_keeps_main_v7 (W : Valuation τ sig (Elt F)) : after opsH2 W (Proc.devRef .tc main_v7) = W (Proc.devRef .tc main_v7) := by
  rw [opsH2_eq]; after_results_simp
theorem opsH2_keeps_main_v9 (W : Valuation τ sig (Elt F)) : after opsH2 W (Proc.devRef .tc main_v9) = W (Proc.devRef .tc main_v9) := by
  rw [opsH2_eq]; after_results_simp

set_option maxRecDepth 8192 in
theorem opsT_v45 (W : Valuation τ sig (Elt F)) (x0 : (⟨S4096x512x7, .f32⟩ : BufTy).Contents (Elt F)) (x1 : (⟨S4096x512x3, .i32⟩ : BufTy).Contents (Elt F)) (x2 : (⟨S512, .i32⟩ : BufTy).Contents (Elt F))
    (h41 : W (Proc.devRef .tc main_v41) = val_main_v41 (F := F) x0 x1 x2) (h7 : W (Proc.devRef .tc main_v7) = val_main_v7 (F := F) x2) (h9 : W (Proc.devRef .tc main_v9) = val_main_v9 (F := F) x2) :
    after opsT W (Proc.devRef .tc main_v45) = val_main_v45 (F := F) x0 x1 x2 := by
  rw [opsT_eq]; after_results_simp; rw [h41, h7, h9]; rfl
theorem opsT_keeps_main_arg0 (W : Valuation τ sig (Elt F)) : after opsT W (Proc.devRef .tc main_arg0) = W (Proc.devRef .tc main_arg0) := by
  rw [opsT_eq]; after_results_simp
theorem opsT_keeps_main_arg1 (W : Valuation τ sig (Elt F)) : after opsT W (Proc.devRef .tc main_arg1) = W (Proc.devRef .tc main_arg1) := by
  rw [opsT_eq]; after_results_simp
theorem opsT_keeps_main_arg2 (W : Valuation τ sig (Elt F)) : after opsT W (Proc.devRef .tc main_arg2) = W (Proc.devRef .tc main_arg2) := by
  rw [opsT_eq]; after_results_simp

/-! ## The whole fold, and the run -/

/-- The fold over all of @main is the five stretches' folds in a row. -/
theorem after_ops (V0 : Valuation τ sig (Elt F)) :
    after ops V0 = after opsT (after opsH2 (after opsH1 (after opsH0 (after opsP V0)))) := by
  show after (opsP ++ (opsH0 ++ (opsH1 ++ (opsH2 ++ opsT)))) V0 = _
  rw [StableHlo.after_append, StableHlo.after_append, StableHlo.after_append, StableHlo.after_append]

/-- After all of @main the result buffer holds the last stage of the three arguments' contents. -/
theorem after_v45 (V0 : Valuation τ sig (Elt F)) :
    after ops V0 (Proc.devRef .tc main_v45)
      = val_main_v45 (F := F) (V0 (Proc.devRef .tc main_arg0)) (V0 (Proc.devRef .tc main_arg1)) (V0 (Proc.devRef .tc main_arg2)) := by
  rw [after_ops]
  -- the memories between the stretches
  generalize hV1 : after opsP V0 = V1
  generalize hV2 : after opsH0 V1 = V2
  generalize hV3 : after opsH1 V2 = V3
  generalize hV4 : after opsH2 V3 = V4
  -- after the prelude
  have a0_1 : V1 (Proc.devRef .tc main_arg0) = V0 (Proc.devRef .tc main_arg0) := by rw [← hV1]; exact opsP_keeps_main_arg0 V0
  have a1_1 : V1 (Proc.devRef .tc main_arg1) = V0 (Proc.devRef .tc main_arg1) := by rw [← hV1]; exact opsP_keeps_main_arg1 V0
  have v5_1 : V1 (Proc.devRef .tc main_v5) = val_main_v5 (F := F) (V0 (Proc.devRef .tc main_arg2)) := by rw [← hV1]; exact opsP_v5 V0
  have v7_1 : V1 (Proc.devRef .tc main_v7) = val_main_v7 (F := F) (V0 (Proc.devRef .tc main_arg2)) := by rw [← hV1]; exact opsP_v7 V0
  have v9_1 : V1 (Proc.devRef .tc main_v9) = val_main_v9 (F := F) (V0 (Proc.devRef .tc main_arg2)) := by rw [← hV1]; exact opsP_v9 V0
  -- after the first head
  have a0_2 : V2 (Proc.devRef .tc main_arg0) = V0 (Proc.devRef .tc main_arg0) := by rw [← hV2, opsH0_keeps_main_arg0]; exact a0_1
  have a1_2 : V2 (Proc.devRef .tc main_arg1) = V0 (Proc.devRef .tc main_arg1) := by rw [← hV2, opsH0_keeps_main_arg1]; exact a1_1
  have v5_2 : V2 (Proc.devRef .tc main_v5) = val_main_v5 (F := F) (V0 (Proc.devRef .tc main_arg2)) := by rw [← hV2, opsH0_keeps_main_v5]; exact v5_1
  have v7_2 : V2 (Proc.devRef .tc main_v7) = val_main_v7 (F := F) (V0 (Proc.devRef .tc main_arg2)) := by rw [← hV2, opsH0_keeps_main_v7]; exact v7_1
  have v9_2 : V2 (Proc.devRef .tc main_v9) = val_main_v9 (F := F) (V0 (Proc.devRef .tc main_arg2)) := by rw [← hV2, opsH0_keeps_main_v9]; exact v9_1
  have v19_2 : V2 (Proc.devRef .tc main_v19)
      = val_main_v19 (F := F) (V0 (Proc.devRef .tc main_arg0)) (V0 (Proc.devRef .tc main_arg1)) (V0 (Proc.devRef .tc main_arg2)) := by
    rw [← hV2, opsH0_v19 V1 _ v5_1, a0_1, a1_1]
  -- after the second head
  have a0_3 : V3 (Proc.devRef .tc main_arg0) = V0 (Proc.devRef .tc main_arg0) := by rw [← hV3, opsH1_keeps_main_arg0]; exact a0_2
  have a1_3 : V3 (Proc.devRef .tc main_arg1) = V0 (Proc.devRef .tc main_arg1) := by rw [← hV3, opsH1_keeps_main_arg1]; exact a1_2
  have v5_3 : V3 (Proc.devRef .tc main_v5) = val_main_v5 (F := F) (V0 (Proc.devRef .tc main_arg2)) := by rw [← hV3, opsH1_keeps_main_v5]; exact v5_2
  have v7_3 : V3 (Proc.devRef .tc main_v7) = val_main_v7 (F := F) (V0 (Proc.devRef .tc main_arg2)) := by rw [← hV3, opsH1_keeps_main_v7]; exact v7_2
  have v9_3 : V3 (Proc.devRef .tc main_v9) = val_main_v9 (F := F) (V0 (Proc.devRef .tc main_arg2)) := by rw [← hV3, opsH1_keeps_main_v9]; exact v9_2
  have v30_3 : V3 (Proc.devRef .tc main_v30)
      = val_main_v30 (F := F) (V0 (Proc.devRef .tc main_arg0)) (V0 (Proc.devRef .tc main_arg1)) (V0 (Proc.devRef .tc main_arg2)) := by
    rw [← hV3]; exact opsH1_v30 V2 _ _ _ a0_2 a1_2 v5_2 v19_2
  -- after the third head
  have v7_4 : V4 (Proc.devRef .tc main_v7) = val_main_v7 (F := F) (V0 (Proc.devRef .tc main_arg2)) := by rw [← hV4, opsH2_keeps_main_v7]; exact v7_3
  have v9_4 : V4 (Proc.devRef .tc main_v9) = val_main_v9 (F := F) (V0 (Proc.devRef .tc main_arg2)) := by rw [← hV4, opsH2_keeps_main_v9]; exact v9_3
  have v41_4 : V4 (Proc.devRef .tc main_v41)
      = val_main_v41 (F := F) (V0 (Proc.devRef .tc main_arg0)) (V0 (Proc.devRef .tc main_arg1)) (V0 (Proc.devRef .tc main_arg2)) := by
    rw [← hV4]; exact opsH2_v41 V3 _ _ _ a0_3 a1_3 v5_3 v30_3
  -- the tail
  exact opsT_v45 V4 _ _ _ v41_4 v7_4 v9_4

/-- No stretch writes an argument. -/
theorem after_arg0 (V0 : Valuation τ sig (Elt F)) : after ops V0 (Proc.devRef .tc main_arg0) = V0 (Proc.devRef .tc main_arg0) := by
  rw [after_ops, opsT_keeps_main_arg0, opsH2_keeps_main_arg0, opsH1_keeps_main_arg0, opsH0_keeps_main_arg0, opsP_keeps_main_arg0]
theorem after_arg1 (V0 : Valuation τ sig (Elt F)) : after ops V0 (Proc.devRef .tc main_arg1) = V0 (Proc.devRef .tc main_arg1) := by
  rw [after_ops, opsT_keeps_main_arg1, opsH2_keeps_main_arg1, opsH1_keeps_main_arg1, opsH0_keeps_main_arg1, opsP_keeps_main_arg1]
theorem after_arg2 (V0 : Valuation τ sig (Elt F)) : after ops V0 (Proc.devRef .tc main_arg2) = V0 (Proc.devRef .tc main_arg2) := by
  rw [after_ops, opsT_keeps_main_arg2, opsH2_keeps_main_arg2, opsH1_keeps_main_arg2, opsH0_keeps_main_arg2, opsP_keeps_main_arg2]

/-- Every operation of @main touches TensorCore buffers only, and allocates nothing. -/
theorem ops_sub : (ops : List (HloOp τ sig (Elt F))).Forall fun op => op.bufs ⊆ tcRefs τ sig :=
  List.forall_append.mpr ⟨opsP_sub, List.forall_append.mpr ⟨opsH0_sub, List.forall_append.mpr ⟨opsH1_sub, List.forall_append.mpr ⟨opsH2_sub, opsT_sub⟩⟩⟩⟩
theorem ops_fresh : (ops : List (HloOp τ sig (Elt F))).Forall fun op => op.fresh = ∅ :=
  List.forall_append.mpr ⟨opsP_fresh, List.forall_append.mpr ⟨opsH0_fresh, List.forall_append.mpr ⟨opsH1_fresh, List.forall_append.mpr ⟨opsH2_fresh, opsT_fresh⟩⟩⟩⟩

/-- THE RUN: on every device, for any float values, from any memory with zero counters, every weakly fair execution of
    @main terminates with the result buffer at the last stage of the arguments' contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
          = val_main_v45 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v45).trans (after_v45 (launchContents m c)),
      (h c main_arg0).trans (after_arg0 (launchContents m c)),
      (h c main_arg1).trans (after_arg1 (launchContents m c)),
      (h c main_arg2).trans (after_arg2 (launchContents m c))⟩)
    (run_seq scopedRefs_eq scopedSems_eq defs main (fun _ => ops) main_eq (fun _ => ops_sub) m ρ
      (hfresh := fun _ op hop => List.forall_iff_forall_mem.mp ops_fresh op hop))

end Cert.ReferenceIdeal.RunP

end
-- ==== Proof.RefHead3.lean ====
/-
  The first head of the reference at one time step and sample: the masked, negated log-softmax entry the label picks is the
  masked cross-entropy `log Σ exp (yₖ - M) + M - y_label` over the logits 0..2.

  The reference's value at `(r, b)` is read one operation at a time down to the three logits `y[r,b,0..2]`, the label
  `t[r,b,0]` and the length `len[b]`: the mask is the signed test `r < len[b]`; the row maximum and the sum of exponentials
  are folds over the three classes; the gather reads the log-softmax at the class the label names, since a label in
  `{0, 1, 2}` is not negative (no wrap), passes the bounds test and is its own clamp. What is left is an identity between
  real numbers, because the logits are real and a sum of exponentials is positive.
-/
import proofs.«431143_j2637109919916_2_alg».proof.Proof.RefRead
import proofs.«431143_j2637109919916_2_alg».proof.Proof.Spec
import Idealize.ShloMosaic.Lib.ValueIdx

noncomputable section

namespace Cert.RefValue

open Idealize.ShloMosaic Idealize.ShloMosaic.ValueIdx Cert.ReferenceIdeal Cert.ReferenceIdeal.ReadP Cert.Spec

/-! ## The mask, the zero and the label column -/

/-- The mask at `(r, b)` is the signed test `r < len[b]`: the iota's element is `r`, the broadcast lengths' is `len[b]`. -/
theorem head0_mask_eq (len : IVec SL 32) (r : Fin 4096) (b : Fin 512) :
    val_main_v5 (F := Ideal) len (ix2 r b) = live len r b := by
  rw [val_main_v5_apply, val_main_v3_apply, val_main_v1_apply, val_main_v0_apply, val_main_v4_apply, val_main_v2_apply]
  unfold live
  refine congrArg₂ (IntOp.cmpi .slt) rfl (congrArg len ?_)
  funext a; match a with | ⟨0, _⟩ => rfl

/-- The value selected where the mask is off is the real number zero (the constant's bit pattern is that of `+0`). -/
theorem head0_zero_eq (i : S4096x512.Idx) : val_main_call3_v1 (F := Ideal) i = 0 := by
  rw [val_main_call3_v1_apply, val_main_call3_v0_apply, val_main_cst_apply]
  exact Ideal.ofBits_zero_f32

/-- Position `(r, b)` of the `[4096, 512]` array is position `(r, b, 0)` of the `[4096, 512, 1]` array it is a reshape of:
    `(r·512 + b) / 512 = r` and `(r·512 + b) % 512 = b` because `b < 512`. -/
theorem head0_idx16_eq (r : Fin 4096) (b : Fin 512) : idx_main_v16 (ix2 r b) = ix3 r b (0 : Fin 1) := by
  funext a
  match a with
  | ⟨0, _⟩ => exact Fin.ext (by show (r.val * 512 + b.val) / 512 = r.val; have := b.isLt; omega)
  | ⟨1, _⟩ => exact Fin.ext (by show (r.val * 512 + b.val) / 1 % 512 = b.val; have := b.isLt; omega)
  | ⟨2, _⟩ => rfl

/-- The label column (slice, reshape, broadcast) read at `(r, b, 0)` is `t[r, b, 0]`. -/
theorem head0_label_eq (t : IVec ST 32) (r : Fin 4096) (b : Fin 512) :
    val_main_v14 (F := Ideal) t (ix3 r b (0 : Fin 1)) = t (ix3 r b 0) := by
  rw [val_main_v14_apply, val_main_v12_apply, val_main_v11_apply]
  refine congrArg t ?_
  funext a
  match a with
  | ⟨0, _⟩ => exact Fin.ext (by show (r.val * 512 + b.val) / 512 = r.val; have := b.isLt; omega)
  | ⟨1, _⟩ => exact Fin.ext (by show (r.val * 512 + b.val) / 1 % 512 = b.val; have := b.isLt; omega)
  | ⟨2, _⟩ => rfl

/-- Position `(r, b, 0, 0)` of the `[4096, 512, 1, 1]` array is position `(r, b, 0)` of the `[4096, 512, 1]` array it is a
    reshape of. -/
theorem head0_idxc5_eq (r : Fin 4096) (b : Fin 512) : idx_main_call2_v5 (ix4 r b (0 : Fin 1) (0 : Fin 1)) = ix3 r b (0 : Fin 1) := by
  funext a
  match a with
  | ⟨0, _⟩ => exact Fin.ext (by show ((((r.val * 512 + b.val) * 1 + 0) * 1 + 0) / 512 = r.val); have := b.isLt; omega)
  | ⟨1, _⟩ => exact Fin.ext (by show ((((r.val * 512 + b.val) * 1 + 0) * 1 + 0) / 1 % 512 = b.val); have := b.isLt; omega)
  | ⟨2, _⟩ => rfl

/-- A label with 3 added when it is negative: the index the gather starts from. -/
def head0_wrap3 (l : BitVec 32) : BitVec 32 := Scalar.select (IntOp.cmpi .slt l 0#32) (IntOp.addi l 3#32) l

/-- A start index read as a signed number and clamped into `[0, 2]`: the class the gather reads. -/
def head0_clamp3 (w : BitVec 32) : Fin 3 := ⟨min w.toInt.toNat 2, by omega⟩

/-- The start index at `(r, b, 0, 0)` is the wrapped label. -/
theorem head0_start_eq (t : IVec ST 32) (r : Fin 4096) (b : Fin 512) :
    val_main_call2_v5 (F := Ideal) t (ix4 r b (0 : Fin 1) (0 : Fin 1)) = head0_wrap3 (t (ix3 r b 0)) := by
  rw [val_main_call2_v5_apply, head0_idxc5_eq, val_main_call2_v4_apply, val_main_call2_v1_apply, val_main_call2_v3_apply,
    head0_label_eq, val_main_call2_v0_apply, val_main_call2_c_apply, val_main_call2_v2_apply, val_main_call2_c_0_apply]
  rfl

/-! ## The two reductions and the gather, read at an index -/

/-- A fold of a commutative, associative operation over the three classes, written out. -/
theorem head0_fold_univ_fin3 {α : Type} (f : α → α → α) [Std.Commutative f] [Std.Associative f] (b : α) (g : Fin 3 → α) :
    (Finset.univ : Finset (Fin 3)).fold f b g = f (g 0) (f (g 1) (f (g 2) b)) := by
  simp only [Fin.univ_succ, Finset.fold_cons, Finset.fold_map, Finset.univ_unique, Finset.fold_singleton]
  rfl

/-- The bounds test reduced by `and` over its one-element axis is the test itself, and-ed with the true initial value: the
    fold over a one-element set is one application. -/
theorem head0_inb_eq (t : IVec ST 32) (r : Fin 4096) (b : Fin 512) :
    val_main_call2_v12 (F := Ideal) t (ix3 r b (0 : Fin 1))
      = IntOp.andi (val_main_call2_v11 (F := Ideal) t (ix4 r b (0 : Fin 1) (0 : Fin 1))) 1#1 := by
  unfold val_main_call2_v12
  generalize val_main_call2_v11 (F := Ideal) t = p
  rw [Host.reduce_eq_fold_single IntOp.andi p _ Gen.reducesTo_S4096x512x1x1_S4096x512x1_d3 (by decide) Gen.h_S_]
  simp only [Finset.univ_unique, Finset.fold_singleton]
  refine congrArg₂ IntOp.andi (congrArg p ?_) rfl
  funext a
  match a with
  | ⟨0, _⟩ => rfl
  | ⟨1, _⟩ => rfl
  | ⟨2, _⟩ => rfl
  | ⟨3, _⟩ => rfl

/-- Result index `(r, b)` with class `k` inserted on the reduced axis is `(r, b, k)`. -/
theorem head0_lift3_eq (r : Fin 4096) (b : Fin 512) (k : Fin 3) :
    Shape.Reduces.lift (by decide : S4096x512x3.Reduces [2] S4096x512) (ix2 r b) k = ix3 r b k := by
  funext a
  match a with
  | ⟨0, _⟩ => rfl
  | ⟨1, _⟩ => rfl
  | ⟨2, _⟩ => rfl

/-- A `max`-reduce over the class axis at `(r, b)`: `max` is commutative and associative, so the reduce is the fold over
    the three classes, in any order, from the initial value. -/
theorem head0_rowmax_fold (x : S4096x512x3.Idx → EReal) (init : S_.Idx → EReal) (r : Fin 4096) (b : Fin 512) :
    Host.reduce (FloatOps.maximumf (F := Ideal) (φ := .f32)) x init Gen.reducesTo_S4096x512x3_S4096x512_d2 Gen.h_S_ (ix2 r b)
      = max (x (ix3 r b 0)) (max (x (ix3 r b 1)) (max (x (ix3 r b 2)) (init (Shape.Idx.first Gen.h_S_)))) := by
  refine (Host.reduce_eq_fold_single FloatOps.maximumf _ _ Gen.reducesTo_S4096x512x3_S4096x512_d2 (by decide) Gen.h_S_ _).trans ?_
  refine (head0_fold_univ_fin3 FloatOps.maximumf _ _).trans ?_
  exact congrArg₂ max (congrArg x (head0_lift3_eq r b 0)) (congrArg₂ max (congrArg x (head0_lift3_eq r b 1)) (congrArg₂ max (congrArg x (head0_lift3_eq r b 2)) rfl))

local notation "gd" => gather_S4096x512x3_S4096x512x1x1_S4096x512x1_n_2_01_01_2_3_111

/-- On the first batching axis the gather's operand coordinate is the result's first coordinate. -/
theorem head0_g_batch0 (r : Fin 4096) (b : Fin 512) : (gd).batchCoord (ix3 r b (0 : Fin 1)) 0 = r.val := by
  unfold GatherDims.batchCoord
  rw [dif_pos (by decide)]
  rfl

/-- On the second batching axis it is the result's second coordinate. -/
theorem head0_g_batch1 (r : Fin 4096) (b : Fin 512) : (gd).batchCoord (ix3 r b (0 : Fin 1)) 1 = b.val := by
  unfold GatherDims.batchCoord
  rw [dif_pos (by decide)]
  rfl

/-- The gather at `(r, b, 0)` reads the operand at `(r, b, c)`, `c` the start index at `(r, b, 0, 0)` read signed and clamped
    into `[0, 2]`: axes 0 and 1 are batching axes (start 0, no offset), axis 2 is collapsed and the only axis the start
    index names (slice size 1, so the clamp is to `3 - 1`). -/
theorem head0_gather_eq {α : Type} (x : S4096x512x3.Idx → α) (idx : IVec S4096x512x1x1 32) (r : Fin 4096) (b : Fin 512) :
    Host.gather gd x idx (ix3 r b (0 : Fin 1)) = x (ix3 r b (head0_clamp3 (idx (ix4 r b (0 : Fin 1) (0 : Fin 1))))) := by
  unfold Host.gather
  refine congrArg x ?_
  funext a
  match a with
  | ⟨0, _⟩ =>
    refine Fin.ext ?_
    show (gd).start (ix3 r b (0 : Fin 1)) idx 0 + (gd).batchCoord (ix3 r b (0 : Fin 1)) 0 + (gd).offCoord (ix3 r b (0 : Fin 1)) 0 = r.val
    rw [GatherDims.start_batching _ _ _ _ (by decide), head0_g_batch0,
      GatherDims.offCoord_eq_zero _ _ _ (fun h => ((GatherDims.mem_sKept _ _).mp h).2 (by decide))]
    omega
  | ⟨1, _⟩ =>
    refine Fin.ext ?_
    show (gd).start (ix3 r b (0 : Fin 1)) idx 1 + (gd).batchCoord (ix3 r b (0 : Fin 1)) 1 + (gd).offCoord (ix3 r b (0 : Fin 1)) 1 = b.val
    rw [GatherDims.start_batching _ _ _ _ (by decide), head0_g_batch1,
      GatherDims.offCoord_eq_zero _ _ _ (fun h => ((GatherDims.mem_sKept _ _).mp h).2 (by decide))]
    omega
  | ⟨2, _⟩ =>
    refine Fin.ext ?_
    show (gd).start (ix3 r b (0 : Fin 1)) idx 2 + (gd).batchCoord (ix3 r b (0 : Fin 1)) 2 + (gd).offCoord (ix3 r b (0 : Fin 1)) 2
      = min (idx (ix4 r b (0 : Fin 1) (0 : Fin 1))).toInt.toNat 2
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (2 : Fin 3) ∈ (gd).startIndexMap by decide)]
    have hsi : (gd).siIdx (ix3 r b (0 : Fin 1)) ⟨List.idxOf (2 : Fin 3) (gd).startIndexMap,
        List.idxOf_lt_length_iff.2 (by decide)⟩ = ix4 r b (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

/-! ## The log-softmax over the first three logits, read at an index -/

/-- The first three logits are the slice the log-softmax works on. -/
theorem head0_slice_eq (y : FVec Ideal SY .f32) (r : Fin 4096) (b : Fin 512) (k : Fin 3) (k' : Fin 7) (hk : k'.val = k.val) :
    val_main_v10 (F := Ideal) y (ix3 r b k) = y (ix3 r b k') := by
  rw [val_main_v10_apply]
  refine congrArg y ?_
  funext a
  match a with
  | ⟨0, _⟩ => rfl
  | ⟨1, _⟩ => rfl
  | ⟨2, _⟩ => exact Fin.ext hk.symm

/-- The bit pattern `0xFF800000` is minus infinity, the bottom of the extended reals. -/
theorem head0_neginf_eq : (FloatOps.ofBits .f32 0xFF800000#32 : Ideal .f32) = (⊥ : EReal) := by
  show Ideal.ofBits .f32 0xFF800000#32 = ⊥
  simp [Ideal.ofBits, Ideal.ieee]

/-- The row maximum at `(r, b)`: `max` from minus infinity over the three logits. -/
theorem head0_rowmax_eq (y : FVec Ideal SY .f32) (r : Fin 4096) (b : Fin 512) :
    val_main_call1_v0 (F := Ideal) y (ix2 r b)
      = max (y (ix3 r b 0)) (max (y (ix3 r b 1)) (max (y (ix3 r b 2)) ⊥)) := by
  unfold val_main_call1_v0
  refine (head0_rowmax_fold _ _ r b).trans ?_
  rw [head0_slice_eq y r b 0 0 rfl, head0_slice_eq y r b 1 1 rfl, head0_slice_eq y r b 2 2 rfl, val_main_call1_cst_apply, head0_neginf_eq]

/-- Class `k` of `(r, b)` reads the broadcast row value at `(r, b, 0)`. -/
theorem head0_idxc4_eq (r : Fin 4096) (b : Fin 512) (k : Fin 3) : idx_main_call1_v4 (ix3 r b k) = ix3 r b (0 : Fin 1) := by
  funext a
  match a with
  | ⟨0, _⟩ => rfl
  | ⟨1, _⟩ => rfl
  | ⟨2, _⟩ => rfl

/-- Position `(r, b, 0)` reads the row value at `(r, b)`. -/
theorem head0_idxc3_eq (r : Fin 4096) (b : Fin 512) : idx_main_call1_v3 (ix3 r b (0 : Fin 1)) = ix2 r b := by
  funext a
  match a with
  | ⟨0, _⟩ => rfl
  | ⟨1, _⟩ => rfl

/-- The `k`-th term of the sum over the class axis at `(r, b)` is the operand at `(r, b, k)`. -/
theorem head0_idxc7_eq (r : Fin 4096) (b : Fin 512) (k : Fin 3) : idx_main_call1_v7 (ix2 r b) k = ix3 r b k := by
  funext a
  match a with
  | ⟨0, _⟩ => rfl
  | ⟨1, _⟩ => rfl
  | ⟨2, _⟩ => rfl

/-- The shifted logit of class `k`: `y[r,b,k] - M`, `M` the larger of minus infinity and the row maximum. -/
theorem head0_shift_eq (y : FVec Ideal SY .f32) (r : Fin 4096) (b : Fin 512) (k : Fin 3) (k' : Fin 7) (hk : k'.val = k.val) :
    val_main_call1_v5 (F := Ideal) y (ix3 r b k)
      = y (ix3 r b k') - max ⊥ (max (y (ix3 r b 0)) (max (y (ix3 r b 1)) (max (y (ix3 r b 2)) ⊥))) := by
  rw [val_main_call1_v5_apply, head0_slice_eq y r b k k' hk, val_main_call1_v4_apply, head0_idxc4_eq, val_main_call1_v3_apply, head0_idxc3_eq,
    val_main_call1_v2_apply, val_main_call1_v1_apply, val_main_call1_cst_0_apply, head0_neginf_eq, head0_rowmax_eq]
  rfl

/-- The sum of exponentials at `(r, b)`: zero plus the three exponentials of the shifted logits. -/
theorem head0_sumexp_eq (y : FVec Ideal SY .f32) (r : Fin 4096) (b : Fin 512) :
    val_main_call1_v7 (F := Ideal) y (ix2 r b)
      = 0 + (Ideal.exp (val_main_call1_v5 (F := Ideal) y (ix3 r b 0)) + Ideal.exp (val_main_call1_v5 (F := Ideal) y (ix3 r b 1))
          + Ideal.exp (val_main_call1_v5 (F := Ideal) y (ix3 r b 2))) := by
  rw [val_main_call1_v7_apply, Fin.sum_univ_three, val_main_call1_cst_1_apply, head0_idxc7_eq, head0_idxc7_eq, head0_idxc7_eq,
    val_main_call1_v6_apply, val_main_call1_v6_apply, val_main_call1_v6_apply]
  exact congrArg₂ (· + ·) Ideal.ofBits_zero_f32 rfl

/-- The broadcast logarithm of the sum, at any class of `(r, b)`. -/
theorem head0_logsum_eq (y : FVec Ideal SY .f32) (r : Fin 4096) (b : Fin 512) (k : Fin 3) :
    val_main_call1_v10 (F := Ideal) y (ix3 r b k) = Ideal.log (val_main_call1_v7 (F := Ideal) y (ix2 r b)) := by
  rw [val_main_call1_v10_apply, val_main_call1_v9_apply, val_main_call1_v8_apply]
  refine congrArg (fun i => Ideal.log (val_main_call1_v7 (F := Ideal) y i)) ?_
  funext a
  match a with
  | ⟨0, _⟩ => rfl
  | ⟨1, _⟩ => rfl

/-- The log-softmax of class `k` at `(r, b)`: `(y_k - M) - log (0 + Σ_j exp (y_j - M))`. -/
theorem head0_lsm_eq (y : FVec Ideal SY .f32) (r : Fin 4096) (b : Fin 512) (k : Fin 3) (k' : Fin 7) (hk : k'.val = k.val) :
    val_main_v13 (F := Ideal) y (ix3 r b k)
      = (y (ix3 r b k') - max ⊥ (max (y (ix3 r b 0)) (max (y (ix3 r b 1)) (max (y (ix3 r b 2)) ⊥))))
        - Ideal.log (0 + (Ideal.exp (y (ix3 r b 0) - max ⊥ (max (y (ix3 r b 0)) (max (y (ix3 r b 1)) (max (y (ix3 r b 2)) ⊥))))
            + Ideal.exp (y (ix3 r b 1) - max ⊥ (max (y (ix3 r b 0)) (max (y (ix3 r b 1)) (max (y (ix3 r b 2)) ⊥))))
            + Ideal.exp (y (ix3 r b 2) - max ⊥ (max (y (ix3 r b 0)) (max (y (ix3 r b 1)) (max (y (ix3 r b 2)) ⊥)))))) := by
  rw [val_main_v13_apply, head0_logsum_eq, head0_sumexp_eq, head0_shift_eq y r b 0 0 rfl, head0_shift_eq y r b 1 1 rfl, head0_shift_eq y r b 2 2 rfl,
    head0_shift_eq y r b k k' hk]
  rfl

/-! ## The gathered entry under a label in range -/

/-- When the label at `(r, b)` is the word `l`, `l` wrapped passes the bounds test `0 ≤ · ≤ 2` and clamps to class `k`, the
    gathered entry selected at `(r, b, 0)` is the log-softmax of class `k` (the out-of-bounds constant is not selected). -/
theorem head0_take_eq (y : FVec Ideal SY .f32) (t : IVec ST 32) (r : Fin 4096) (b : Fin 512) (l : BitVec 32) (k : Fin 3)
    (h : t (ix3 r b 0) = l) (hs : head0_clamp3 (head0_wrap3 l) = k)
    (hb : IntOp.andi (IntOp.andi (IntOp.cmpi .sge (head0_wrap3 l) 0#32) (IntOp.cmpi .sle (head0_wrap3 l) 2#32)) 1#1 = 1#1) :
    val_main_v15 (F := Ideal) y t (ix3 r b (0 : Fin 1)) = val_main_v13 (F := Ideal) y (ix3 r b k) := by
  rw [val_main_v15_apply, head0_inb_eq, val_main_call2_v11_apply, val_main_call2_v7_apply, val_main_call2_v10_apply, head0_start_eq, h,
    val_main_call2_v6_apply, val_main_call2_c_2_apply, val_main_call2_v9_apply, val_main_call2_v8_apply,
    val_main_call2_c_1_apply, hb, select_one]
  unfold val_main_call2_v13
  rw [head0_gather_eq, head0_start_eq, h, hs]

/-! ## The real-number identity -/

/-- The coercion of the reals into the extended reals commutes with `max` (it is monotone). -/
theorem head0_coe_max (a b : ℝ) : max (a : EReal) (b : EReal) = ((max a b : ℝ) : EReal) :=
  (EReal.coe_strictMono.monotone.map_max).symm

/-- For real logits `a b c` and a real `p`: the reference's `-((p - M) - log (0 + Σ exp (· - M)))`, with
    `M = max(-∞, max a (max b (max c -∞)))`, is `lse3 a b c - p`. Both sides are the real number
    `log Σ exp (· - m) + m - p` with `m` the largest of the three: the sum of exponentials is positive, so its logarithm is real. -/
theorem head0_nll3_real (a b c p : ℝ) :
    -(((p : EReal) - max ⊥ (max (a : EReal) (max (b : EReal) (max (c : EReal) ⊥))))
        - Ideal.log (0 + (Ideal.exp ((a : EReal) - max ⊥ (max (a : EReal) (max (b : EReal) (max (c : EReal) ⊥))))
            + Ideal.exp ((b : EReal) - max ⊥ (max (a : EReal) (max (b : EReal) (max (c : EReal) ⊥))))
            + Ideal.exp ((c : EReal) - max ⊥ (max (a : EReal) (max (b : EReal) (max (c : EReal) ⊥)))))))
      = lse3 a b c - p := by
  have hM : max ⊥ (max (a : EReal) (max (b : EReal) (max (c : EReal) ⊥))) = ((max (max a b) c : ℝ) : EReal) := by
    rw [max_bot_right, max_bot_left, head0_coe_max, head0_coe_max, max_assoc]
  have hM' : max (max (a : EReal) (b : EReal)) (c : EReal) = ((max (max a b) c : ℝ) : EReal) := by
    rw [head0_coe_max, head0_coe_max]
  unfold lse3
  rw [hM, hM']
  generalize max (max a b) c = m
  have hpos : 0 < Real.exp (a - m) + Real.exp (b - m) + Real.exp (c - m) := by positivity
  rw [zero_add, ← EReal.coe_sub, ← EReal.coe_sub, ← EReal.coe_sub, ← EReal.coe_sub, Ideal.exp_coe, Ideal.exp_coe, Ideal.exp_coe,
    ← EReal.coe_add, ← EReal.coe_add, Ideal.log_coe, if_neg (not_le.mpr hpos), ← EReal.coe_sub, ← EReal.coe_neg,
    ← EReal.coe_add, ← EReal.coe_sub]
  exact congrArg _ (by ring)

/-! ## What the label picks -/

/-- Label 0 picks the first logit. -/
theorem head0_pick3_zero (a b c : EReal) : pick3 0#32 a b c = a := by
  unfold pick3
  rw [show IntOp.cmpi .eq (0#32 : BitVec 32) 0#32 = 1#1 by decide, select_one]

/-- Label 1 picks the second logit. -/
theorem head0_pick3_one (a b c : EReal) : pick3 1#32 a b c = b := by
  unfold pick3
  rw [show IntOp.cmpi .eq (1#32 : BitVec 32) 0#32 = 0#1 by decide, select_zero,
    show IntOp.cmpi .eq (1#32 : BitVec 32) 1#32 = 1#1 by decide, select_one]

/-- Label 2 picks the third logit. -/
theorem head0_pick3_two (a b c : EReal) : pick3 2#32 a b c = c := by
  unfold pick3
  rw [show IntOp.cmpi .eq (2#32 : BitVec 32) 0#32 = 0#1 by decide, select_zero,
    show IntOp.cmpi .eq (2#32 : BitVec 32) 1#32 = 0#1 by decide, select_zero]

/-! ## The head -/

/-- The masked, negated gathered log-softmax entry at `(r, b)` is the masked cross-entropy of the first three logits: split on the
    label (0, 1 or 2), read the gathered class, name the three logits as reals and apply the real-number identity. -/
theorem head0_eq (y : FVec Ideal SY .f32) (t : IVec ST 32) (len : IVec SL 32) (hy : Finite y) (ht : Labels t)
    (r : Fin 4096) (b : Fin 512) :
    val_main_v18 (F := Ideal) y t len (ix2 r b)
      = Scalar.select (live len r b)
          (lse3 (y (ix3 r b 0)) (y (ix3 r b 1)) (y (ix3 r b 2)) - pick3 (t (ix3 r b 0)) (y (ix3 r b 0)) (y (ix3 r b 1)) (y (ix3 r b 2))) 0 := by
  rw [val_main_v18_apply, head0_mask_eq, head0_zero_eq, val_main_v17_apply, val_main_v16_apply, head0_idx16_eq]
  refine congrArg (fun v => Scalar.select (live len r b) v 0) ?_
  obtain ⟨a0, h0⟩ := hy (ix3 r b 0)
  obtain ⟨a1, h1⟩ := hy (ix3 r b 1)
  obtain ⟨a2, h2⟩ := hy (ix3 r b 2)
  rcases (ht r b).1 with h | h | h
  · rw [head0_take_eq y t r b 0#32 0 h (by decide) (by decide), head0_lsm_eq y r b 0 0 rfl, h, head0_pick3_zero, h0, h1, h2]
    exact head0_nll3_real a0 a1 a2 a0
  · rw [head0_take_eq y t r b 1#32 1 h (by decide) (by decide), head0_lsm_eq y r b 1 1 rfl, h, head0_pick3_one, h0, h1, h2]
    exact head0_nll3_real a0 a1 a2 a1
  · rw [head0_take_eq y t r b 2#32 2 h (by decide) (by decide), head0_lsm_eq y r b 2 2 rfl, h, head0_pick3_two, h0, h1, h2]
    exact head0_nll3_real a0 a1 a2 a2

end Cert.RefValue

end
-- ==== Proof.RefHead2.lean ====
/-
  The second and third heads of the reference at one time step and sample: each is the masked cross-entropy
  `log Σ exp (yₖ - M) + M - y_label` over its two logits (3..4 with label 1, 5..6 with label 2).
-/
import proofs.«431143_j2637109919916_2_alg».proof.Proof.RefRead
import proofs.«431143_j2637109919916_2_alg».proof.Proof.Spec
import Idealize.ShloMosaic.Lib.ValueIdx

noncomputable section

namespace Cert.RefValue

open Idealize.ShloMosaic Idealize.ShloMosaic.ValueIdx Cert.ReferenceIdeal Cert.ReferenceIdeal.ReadP Cert.Spec

/-! ## Reductions and the gather of the two-class arrays, read at an index -/

/-- A fold of a commutative associative operation over the two coordinates of an axis of extent 2. -/
theorem fold_univ_fin2 {α : Type} (op : α → α → α) [Std.Commutative op] [Std.Associative op] (init : α) (f : Fin 2 → α) :
    (Finset.univ : Finset (Fin 2)).fold op init f = op (f 0) (op (f 1) init) := by
  rw [show (Finset.univ : Finset (Fin 2)) = insert 0 {1} from by decide]
  rw [Finset.fold_insert (by decide), Finset.fold_singleton]

/-- A fold over the one coordinate of an axis of extent 1. -/
theorem fold_univ_fin1 {α : Type} (op : α → α → α) [Std.Commutative op] [Std.Associative op] (init : α) (f : Fin 1 → α) :
    (Finset.univ : Finset (Fin 1)).fold op init f = op (f 0) init := by
  rw [show (Finset.univ : Finset (Fin 1)) = {0} from by decide]
  rw [Finset.fold_singleton]

/-- The maximum over the class axis of a two-class array at (r, b). -/
theorem reduceMax_read (x : FVec Ideal S4096x512x2 .f32) (init : FVec Ideal S_ .f32) (r : Fin 4096) (b : Fin 512) :
    Host.reduce FloatOps.maximumf x init Gen.reducesTo_S4096x512x2_S4096x512_d2 Gen.h_S_ (ix2 r b)
      = max (x (ix3 r b 0)) (max (x (ix3 r b 1)) (init (Shape.Idx.first Gen.h_S_))) := by
  refine (Host.reduce_eq_fold_single FloatOps.maximumf x init Gen.reducesTo_S4096x512x2_S4096x512_d2 (by decide) Gen.h_S_ (ix2 r b)).trans ?_
  refine (fold_univ_fin2 _ _ _).trans ?_
  show max (x _) (max (x _) _) = _
  refine congr (congrArg max (congrArg x ?_)) (congr (congrArg max (congrArg x ?_)) rfl)
  · exact funext fun c => Fin.ext (by match c with | ⟨0, _⟩ => rfl | ⟨1, _⟩ => rfl | ⟨2, _⟩ => rfl)
  · exact funext fun c => Fin.ext (by match c with | ⟨0, _⟩ => rfl | ⟨1, _⟩ => rfl | ⟨2, _⟩ => rfl)

/-- The conjunction over an axis of extent 1 of a one-bit array at (r, b, 0). -/
theorem reduceAnd_read (x : S4096x512x1x1.Idx → BitVec 1) (init : S_.Idx → BitVec 1) (r : Fin 4096) (b : Fin 512) :
    Host.reduce IntOp.andi x init Gen.reducesTo_S4096x512x1x1_S4096x512x1_d3 Gen.h_S_ (ix3 r b 0)
      = IntOp.andi (x (ix4 r b 0 0)) (init (Shape.Idx.first Gen.h_S_)) := by
  refine (Host.reduce_eq_fold_single IntOp.andi x init Gen.reducesTo_S4096x512x1x1_S4096x512x1_d3 (by decide) Gen.h_S_ (ix3 r b 0)).trans ?_
  refine (fold_univ_fin1 _ _ _).trans ?_
  show IntOp.andi (x _) _ = _
  refine congr (congrArg IntOp.andi (congrArg x ?_)) rfl
  exact funext fun c => Fin.ext (by match c with | ⟨0, _⟩ => rfl | ⟨1, _⟩ => rfl | ⟨2, _⟩ => rfl | ⟨3, _⟩ => rfl)

/-- The gather along the class axis at (r, b, 0): the operand at (r, b, k), k the start index at (r, b, 0, 0) read signed and clamped into 0 … 1 (`hk`). -/
theorem gather_read {α : Type} (x : S4096x512x2.Idx → α) (idx : S4096x512x1x1.Idx → BitVec 32) (r : Fin 4096) (b : Fin 512)
    (k : Fin 2) (hk : k.val = min (idx (ix4 r b 0 0)).toInt.toNat 1) :
    Host.gather gather_S4096x512x2_S4096x512x1x1_S4096x512x1_n_2_01_01_2_3_111 x idx (ix3 r b 0) = x (ix3 r b k) := by
  unfold Host.gather
  congr 1
  funext a
  refine Fin.ext ?_
  match a with
  | ⟨0, _⟩ =>
    simp [GatherDims.operandIdx, GatherDims.start, GatherDims.offCoord, GatherDims.batchCoord, GatherDims.siCoord,
      gather_S4096x512x2_S4096x512x1x1_S4096x512x1_n_2_01_01_2_3_111, GatherDims.sKept, Shape.kept]
    exact congrArg (fun a => ((ix3 r b (0 : Fin 1) : S4096x512x1.Idx) a : ℕ)) (by decide +revert : _ = (0 : Fin 3))
  | ⟨1, _⟩ =>
    simp [GatherDims.operandIdx, GatherDims.start, GatherDims.offCoord, GatherDims.batchCoord, GatherDims.siCoord,
      gather_S4096x512x2_S4096x512x1x1_S4096x512x1_n_2_01_01_2_3_111, GatherDims.sKept, Shape.kept]
    exact congrArg (fun a => ((ix3 r b (0 : Fin 1) : S4096x512x1.Idx) a : ℕ)) (by decide +revert : _ = (1 : Fin 3))
  | ⟨2, _⟩ =>
    simp [GatherDims.operandIdx, GatherDims.start, GatherDims.offCoord, GatherDims.batchCoord, GatherDims.siCoord,
      gather_S4096x512x2_S4096x512x1x1_S4096x512x1_n_2_01_01_2_3_111, GatherDims.sKept, Shape.kept]
    rw [hk]
    refine congrArg (fun z => min (idx z).toInt.toNat 1) ?_
    funext k
    refine Fin.ext ?_
    match k with
    | ⟨0, _⟩ => rfl
    | ⟨1, _⟩ => rfl
    | ⟨2, _⟩ => rfl
    | ⟨3, _⟩ => rfl

/-! ## One head over abstract scalars -/

/-- The largest entry of the row (a, b) as the reference takes it: the maximum from −∞ over the two, and once more with −∞. -/
def mRef (a b : EReal) : EReal :=
  max (Ideal.ofBits .f32 0xFF800000#32) (max a (max b (Ideal.ofBits .f32 0xFF800000#32)))

/-- The log-softmax of the row (a, b) at the entry c as the reference computes it: (c − M) − log (0 + (e^(a − M) + e^(b − M))). -/
def lsmRef (a b c : EReal) : EReal :=
  (c - mRef a b) - Ideal.log (Ideal.ofBits .f32 0x00000000#32 + (Ideal.exp (a - mRef a b) + Ideal.exp (b - mRef a b)))

/-- The coercion of the reals into the extended reals is monotone, so it carries the larger of two reals to the larger. -/
theorem coe_max (a b : ℝ) : ((max a b : ℝ) : EReal) = max (a : EReal) (b : EReal) :=
  EReal.coe_strictMono.monotone.map_max

theorem mRef_coe (a b : ℝ) : mRef a b = ((max a b : ℝ) : EReal) := by
  have hb : Ideal.ofBits .f32 0xFF800000#32 = (⊥ : EReal) := by simp [Ideal.ofBits, Ideal.ieee]
  unfold mRef
  rw [hb, max_bot_left, max_bot_right, ← coe_max]

/-- For real a, b and c: minus the reference's log-softmax at c is log (e^(a − M) + e^(b − M)) + M − c, M the larger of a, b. -/
theorem neg_lsmRef_coe (a b c : ℝ) : -lsmRef a b c = lse2 a b - c := by
  unfold lsmRef lse2
  rw [mRef_coe, Ideal.ofBits_zero_f32, zero_add, ← coe_max]
  rw [← EReal.coe_sub, ← EReal.coe_sub, ← EReal.coe_sub, Ideal.exp_coe, Ideal.exp_coe, ← EReal.coe_add, Ideal.log_coe]
  have hpos : 0 < Real.exp (a - max a b) + Real.exp (b - max a b) := add_pos (Real.exp_pos _) (Real.exp_pos _)
  rw [if_neg (not_le.mpr hpos), ← EReal.coe_sub, ← EReal.coe_neg, ← EReal.coe_add, ← EReal.coe_sub]
  congr 1
  ring

/-- The label as the gather's start index: a negative word has the class count 2 added. -/
def wrap2 (w : BitVec 32) : BitVec 32 := Scalar.select (IntOp.cmpi .slt w 0#32) (IntOp.addi w 2#32) w

/-- The bounds test of a start index: 0 ≤ w and w ≤ 1 as signed words (and the conjunction's initial bit). -/
def ok2 (w : BitVec 32) : BitVec 1 := IntOp.andi (IntOp.andi (IntOp.cmpi .sge w 0#32) (IntOp.cmpi .sle w 1#32)) 1#1

/-- One head of the reference at one time step and sample, over the head's two logits `row`, its label word `w` and the
    mask bit `m`: the log-softmax entry the wrapped label picks (clamped into 0 … 1), a NaN constant in its place when the
    label is out of bounds, negated, and zero where the mask bit is clear. -/
def headRef (row : Fin 2 → EReal) (w : BitVec 32) (m : BitVec 1) : EReal :=
  Scalar.select m
    (-(Scalar.select (ok2 (wrap2 w)) (lsmRef (row 0) (row 1) (row ⟨min (wrap2 w).toInt.toNat 1, by omega⟩))
        (Ideal.ofBits .f32 0x7FC00000#32)))
    (Ideal.ofBits .f32 0x00000000#32)

/-- With real logits a, b and a label that is 0 or 1 the wrapped label is the label, in bounds, the gather reads the
    log-softmax at that class, and the head is the masked cross-entropy log Σ e^(· − M) + M − (the label's logit). -/
theorem headRef_eq (row : Fin 2 → EReal) (a b : ℝ) (h0 : row 0 = a) (h1 : row 1 = b) (w : BitVec 32)
    (hw : w = 0#32 ∨ w = 1#32) (m : BitVec 1) :
    headRef row w m = Scalar.select m (lse2 a b - pick2 w a b) 0 := by
  unfold headRef
  rw [Ideal.ofBits_zero_f32]
  rcases hw with rfl | rfl
  · have e : (⟨min (wrap2 0#32).toInt.toNat 1, by omega⟩ : Fin 2) = 0 := by decide
    have hk : ok2 (wrap2 0#32) = 1#1 := by decide
    rw [e, hk, select_one, h0, h1, neg_lsmRef_coe]
    rfl
  · have e : (⟨min (wrap2 1#32).toInt.toNat 1, by omega⟩ : Fin 2) = 1 := by decide
    have hk : ok2 (wrap2 1#32) = 1#1 := by decide
    rw [e, hk, select_one, h0, h1, neg_lsmRef_coe]
    rfl

/-! ## The mask -/

/-- The mask at (r, b) is the test r < len[b] on signed words. -/
theorem mask_read (len : IVec SL 32) (r : Fin 4096) (b : Fin 512) :
    val_main_v5 (F := Ideal) len (ix2 r b) = live len r b := by
  rw [val_main_v5_apply, val_main_v3_apply, val_main_v1_apply, val_main_v0_apply, val_main_v4_apply, val_main_v2_apply]
  show IntOp.cmpi .slt (BitVec.ofNat 32 r.val) (len _) = _
  exact congrArg (fun z => IntOp.cmpi .slt (BitVec.ofNat 32 r.val) (len z))
    (funext fun a => by match a with | ⟨0, _⟩ => rfl)

/-! ## The second head (logits 3, 4; label column 1) -/

/-- The head's slice of the logits at (r, b, k) is logit 3 + k. -/
theorem logit_read_1 (y : FVec Ideal SY .f32) (r : Fin 4096) (b : Fin 512) (k : Fin 2) :
    val_main_v20 (F := Ideal) y (ix3 r b k) = y (ix3 r b ⟨3 + k.val, by have := k.isLt; omega⟩) := by
  rw [val_main_v20_apply]
  exact congrArg y (funext fun a => Fin.ext (by match a with | ⟨0, _⟩ => rfl | ⟨1, _⟩ => rfl | ⟨2, _⟩ => rfl))

/-- The row's largest entry, as the reference takes it. -/
theorem max_read_1 (y : FVec Ideal SY .f32) (r : Fin 4096) (b : Fin 512) :
    val_main_call4_v2 (F := Ideal) y (ix2 r b) = mRef (y (ix3 r b 3)) (y (ix3 r b 4)) := by
  rw [val_main_call4_v2_apply, val_main_call4_v1_apply, val_main_call4_cst_0_apply]
  unfold val_main_call4_v0
  refine congrArg (FloatOps.maximumf _) ((reduceMax_read _ _ r b).trans ?_)
  rw [logit_read_1, logit_read_1, val_main_call4_cst_apply]
  rfl

/-- The shifted logit at (r, b, k). -/
theorem sub_read_1 (y : FVec Ideal SY .f32) (r : Fin 4096) (b : Fin 512) (k : Fin 2) :
    val_main_call4_v5 (F := Ideal) y (ix3 r b k)
      = y (ix3 r b ⟨3 + k.val, by have := k.isLt; omega⟩) - mRef (y (ix3 r b 3)) (y (ix3 r b 4)) := by
  rw [val_main_call4_v5_apply, logit_read_1, val_main_call4_v4_apply, val_main_call4_v3_apply]
  have e : idx_main_call4_v3 (idx_main_call4_v4 (ix3 r b k)) = ix2 r b :=
    funext fun a => Fin.ext (by match a with | ⟨0, _⟩ => rfl | ⟨1, _⟩ => rfl)
  rw [e, max_read_1]
  rfl

/-- The sum of the two exponentials at (r, b), from the initial value 0. -/
theorem sum_read_1 (y : FVec Ideal SY .f32) (r : Fin 4096) (b : Fin 512) :
    val_main_call4_v7 (F := Ideal) y (ix2 r b)
      = Ideal.ofBits .f32 0x00000000#32
        + (Ideal.exp (y (ix3 r b 3) - mRef (y (ix3 r b 3)) (y (ix3 r b 4)))
          + Ideal.exp (y (ix3 r b 4) - mRef (y (ix3 r b 3)) (y (ix3 r b 4)))) := by
  rw [val_main_call4_v7_apply, Fin.sum_univ_two, val_main_call4_v6_apply, val_main_call4_v6_apply]
  have e0 : idx_main_call4_v7 (ix2 r b) 0 = ix3 r b 0 :=
    funext fun a => Fin.ext (by match a with | ⟨0, _⟩ => rfl | ⟨1, _⟩ => rfl | ⟨2, _⟩ => rfl)
  have e1 : idx_main_call4_v7 (ix2 r b) 1 = ix3 r b 1 :=
    funext fun a => Fin.ext (by match a with | ⟨0, _⟩ => rfl | ⟨1, _⟩ => rfl | ⟨2, _⟩ => rfl)
  rw [e0, e1, sub_read_1, sub_read_1, val_main_call4_cst_1_apply]
  rfl

/-- The log-softmax at (r, b, k). -/
theorem lsm_read_1 (y : FVec Ideal SY .f32) (r : Fin 4096) (b : Fin 512) (k : Fin 2) :
    val_main_v23 (F := Ideal) y (ix3 r b k)
      = lsmRef (y (ix3 r b 3)) (y (ix3 r b 4)) (y (ix3 r b ⟨3 + k.val, by have := k.isLt; omega⟩)) := by
  rw [val_main_v23_apply, sub_read_1, val_main_call4_v10_apply, val_main_call4_v9_apply, val_main_call4_v8_apply]
  have e : idx_main_call4_v8 (idx_main_call4_v10 (ix3 r b k)) = ix2 r b :=
    funext fun a => Fin.ext (by match a with | ⟨0, _⟩ => rfl | ⟨1, _⟩ => rfl)
  rw [e, sum_read_1]
  rfl

/-- The head's label column at (r, b, 0) is t[r, b, 1]. -/
theorem label_read_1 (t : IVec ST 32) (r : Fin 4096) (b : Fin 512) :
    val_main_v24 (F := Ideal) t (ix3 r b 0) = t (ix3 r b 1) := by
  rw [val_main_v24_apply, val_main_v22_apply, val_main_v21_apply]
  refine congrArg t (funext fun a => Fin.ext ?_)
  have hr := r.isLt
  have hb := b.isLt
  match a with
  | ⟨0, _⟩ => show (r.val * 512 + b.val) / 512 = r.val; omega
  | ⟨1, _⟩ => show (r.val * 512 + b.val) / 1 % 512 = b.val; omega
  | ⟨2, _⟩ => rfl

/-- The gather's start index at (r, b, 0, 0) is the wrapped label. -/
theorem start_read_1 (t : IVec ST 32) (r : Fin 4096) (b : Fin 512) :
    val_main_call5_v5 (F := Ideal) t (ix4 r b 0 0) = wrap2 (t (ix3 r b 1)) := by
  rw [val_main_call5_v5_apply]
  have e : idx_main_call5_v5 (ix4 r b 0 0) = ix3 r b 0 := by
    refine funext fun a => Fin.ext ?_
    have hr := r.isLt
    have hb := b.isLt
    match a with
    | ⟨0, _⟩ => show (((r.val * 512 + b.val) * 1 + 0) * 1 + 0) / 512 = r.val; omega
    | ⟨1, _⟩ => show (((r.val * 512 + b.val) * 1 + 0) * 1 + 0) / 1 % 512 = b.val; omega
    | ⟨2, _⟩ => rfl
  rw [e, val_main_call5_v4_apply, val_main_call5_v1_apply, val_main_call5_v3_apply, val_main_call5_v0_apply, val_main_call5_c_apply,
    val_main_call5_v2_apply, val_main_call5_c_0_apply, label_read_1]
  rfl

/-- The bounds test at (r, b, 0). -/
theorem ok_read_1 (t : IVec ST 32) (r : Fin 4096) (b : Fin 512) :
    val_main_call5_v12 (F := Ideal) t (ix3 r b 0) = ok2 (wrap2 (t (ix3 r b 1))) := by
  unfold val_main_call5_v12
  refine (reduceAnd_read _ _ r b).trans ?_
  rw [val_main_call5_v11_apply, val_main_call5_v7_apply, val_main_call5_v10_apply, start_read_1, val_main_call5_v6_apply,
    val_main_call5_c_2_apply, val_main_call5_v9_apply, val_main_call5_v8_apply, val_main_call5_c_1_apply, val_main_call5_c_3_apply]
  rfl

/-- The gather at (r, b, 0) reads the log-softmax at the class the wrapped label names, clamped into 0 … 1. -/
theorem take_read_1 (y : FVec Ideal SY .f32) (t : IVec ST 32) (r : Fin 4096) (b : Fin 512) (k : Fin 2)
    (hk : k.val = min (wrap2 (t (ix3 r b 1))).toInt.toNat 1) :
    val_main_call5_v13 (F := Ideal) y t (ix3 r b 0) = val_main_v23 (F := Ideal) y (ix3 r b k) := by
  unfold val_main_call5_v13
  exact gather_read _ _ r b k (by rw [start_read_1]; exact hk)

/-- The head at (r, b) is `headRef` of its two logits, its label and the mask bit. -/
theorem head1_read (y : FVec Ideal SY .f32) (t : IVec ST 32) (len : IVec SL 32) (r : Fin 4096) (b : Fin 512) :
    val_main_v28 (F := Ideal) y t len (ix2 r b)
      = headRef (fun k => y (ix3 r b ⟨3 + k.val, by have := k.isLt; omega⟩)) (t (ix3 r b 1)) (live len r b) := by
  rw [val_main_v28_apply, mask_read, val_main_v27_apply, val_main_v26_apply]
  have e : idx_main_v26 (ix2 r b) = ix3 r b 0 := by
    refine funext fun a => Fin.ext ?_
    have hr := r.isLt
    have hb := b.isLt
    match a with
    | ⟨0, _⟩ => show (r.val * 512 + b.val) / 512 = r.val; omega
    | ⟨1, _⟩ => show (r.val * 512 + b.val) / 1 % 512 = b.val; omega
    | ⟨2, _⟩ => rfl
  rw [e, val_main_v25_apply, ok_read_1,
    take_read_1 y t r b ⟨min (wrap2 (t (ix3 r b 1))).toInt.toNat 1, by omega⟩ rfl,
    lsm_read_1, val_main_call5_v14_apply, val_main_call5_cst_apply, val_main_call6_v1_apply, val_main_call6_v0_apply,
    val_main_cst_2_apply]
  rfl

/-! ## The third head (logits 5, 6; label column 2) -/

/-- The head's slice of the logits at (r, b, k) is logit 5 + k. -/
theorem logit_read_2 (y : FVec Ideal SY .f32) (r : Fin 4096) (b : Fin 512) (k : Fin 2) :
    val_main_v31 (F := Ideal) y (ix3 r b k) = y (ix3 r b ⟨5 + k.val, by have := k.isLt; omega⟩) := by
  rw [val_main_v31_apply]
  exact congrArg y (funext fun a => Fin.ext (by match a with | ⟨0, _⟩ => rfl | ⟨1, _⟩ => rfl | ⟨2, _⟩ => rfl))

/-- The row's largest entry, as the reference takes it. -/
theorem max_read_2 (y : FVec Ideal SY .f32) (r : Fin 4096) (b : Fin 512) :
    val_main_call7_v2 (F := Ideal) y (ix2 r b) = mRef (y (ix3 r b 5)) (y (ix3 r b 6)) := by
  rw [val_main_call7_v2_apply, val_main_call7_v1_apply, val_main_call7_cst_0_apply]
  unfold val_main_call7_v0
  refine congrArg (FloatOps.maximumf _) ((reduceMax_read _ _ r b).trans ?_)
  rw [logit_read_2, logit_read_2, val_main_call7_cst_apply]
  rfl

/-- The shifted logit at (r, b, k). -/
theorem sub_read_2 (y : FVec Ideal SY .f32) (r : Fin 4096) (b : Fin 512) (k : Fin 2) :
    val_main_call7_v5 (F := Ideal) y (ix3 r b k)
      = y (ix3 r b ⟨5 + k.val, by have := k.isLt; omega⟩) - mRef (y (ix3 r b 5)) (y (ix3 r b 6)) := by
  rw [val_main_call7_v5_apply, logit_read_2, val_main_call7_v4_apply, val_main_call7_v3_apply]
  have e : idx_main_call7_v3 (idx_main_call7_v4 (ix3 r b k)) = ix2 r b :=
    funext fun a => Fin.ext (by match a with | ⟨0, _⟩ => rfl | ⟨1, _⟩ => rfl)
  rw [e, max_read_2]
  rfl

/-- The sum of the two exponentials at (r, b), from the initial value 0. -/
theorem sum_read_2 (y : FVec Ideal SY .f32) (r : Fin 4096) (b : Fin 512) :
    val_main_call7_v7 (F := Ideal) y (ix2 r b)
      = Ideal.ofBits .f32 0x00000000#32
        + (Ideal.exp (y (ix3 r b 5) - mRef (y (ix3 r b 5)) (y (ix3 r b 6)))
          + Ideal.exp (y (ix3 r b 6) - mRef (y (ix3 r b 5)) (y (ix3 r b 6)))) := by
  rw [val_main_call7_v7_apply, Fin.sum_univ_two, val_main_call7_v6_apply, val_main_call7_v6_apply]
  have e0 : idx_main_call7_v7 (ix2 r b) 0 = ix3 r b 0 :=
    funext fun a => Fin.ext (by match a with | ⟨0, _⟩ => rfl | ⟨1, _⟩ => rfl | ⟨2, _⟩ => rfl)
  have e1 : idx_main_call7_v7 (ix2 r b) 1 = ix3 r b 1 :=
    funext fun a => Fin.ext (by match a with | ⟨0, _⟩ => rfl | ⟨1, _⟩ => rfl | ⟨2, _⟩ => rfl)
  rw [e0, e1, sub_read_2, sub_read_2, val_main_call7_cst_1_apply]
  rfl

/-- The log-softmax at (r, b, k). -/
theorem lsm_read_2 (y : FVec Ideal SY .f32) (r : Fin 4096) (b : Fin 512) (k : Fin 2) :
    val_main_v34 (F := Ideal) y (ix3 r b k)
      = lsmRef (y (ix3 r b 5)) (y (ix3 r b 6)) (y (ix3 r b ⟨5 + k.val, by have := k.isLt; omega⟩)) := by
  rw [val_main_v34_apply, sub_read_2, val_main_call7_v10_apply, val_main_call7_v9_apply, val_main_call7_v8_apply]
  have e : idx_main_call7_v8 (idx_main_call7_v10 (ix3 r b k)) = ix2 r b :=
    funext fun a => Fin.ext (by match a with | ⟨0, _⟩ => rfl | ⟨1, _⟩ => rfl)
  rw [e, sum_read_2]
  rfl

/-- The head's label column at (r, b, 0) is t[r, b, 2]. -/
theorem label_read_2 (t : IVec ST 32) (r : Fin 4096) (b : Fin 512) :
    val_main_v35 (F := Ideal) t (ix3 r b 0) = t (ix3 r b 2) := by
  rw [val_main_v35_apply, val_main_v33_apply, val_main_v32_apply]
  refine congrArg t (funext fun a => Fin.ext ?_)
  have hr := r.isLt
  have hb := b.isLt
  match a with
  | ⟨0, _⟩ => show (r.val * 512 + b.val) / 512 = r.val; omega
  | ⟨1, _⟩ => show (r.val * 512 + b.val) / 1 % 512 = b.val; omega
  | ⟨2, _⟩ => rfl

/-- The gather's start index at (r, b, 0, 0) is the wrapped label. -/
theorem start_read_2 (t : IVec ST 32) (r : Fin 4096) (b : Fin 512) :
    val_main_call8_v5 (F := Ideal) t (ix4 r b 0 0) = wrap2 (t (ix3 r b 2)) := by
  rw [val_main_call8_v5_apply]
  have e : idx_main_call8_v5 (ix4 r b 0 0) = ix3 r b 0 := by
    refine funext fun a => Fin.ext ?_
    have hr := r.isLt
    have hb := b.isLt
    match a with
    | ⟨0, _⟩ => show (((r.val * 512 + b.val) * 1 + 0) * 1 + 0) / 512 = r.val; omega
    | ⟨1, _⟩ => show (((r.val * 512 + b.val) * 1 + 0) * 1 + 0) / 1 % 512 = b.val; omega
    | ⟨2, _⟩ => rfl
  rw [e, val_main_call8_v4_apply, val_main_call8_v1_apply, val_main_call8_v3_apply, val_main_call8_v0_apply, val_main_call8_c_apply,
    val_main_call8_v2_apply, val_main_call8_c_0_apply, label_read_2]
  rfl

/-- The bounds test at (r, b, 0). -/
theorem ok_read_2 (t : IVec ST 32) (r : Fin 4096) (b : Fin 512) :
    val_main_call8_v12 (F := Ideal) t (ix3 r b 0) = ok2 (wrap2 (t (ix3 r b 2))) := by
  unfold val_main_call8_v12
  refine (reduceAnd_read _ _ r b).trans ?_
  rw [val_main_call8_v11_apply, val_main_call8_v7_apply, val_main_call8_v10_apply, start_read_2, val_main_call8_v6_apply,
    val_main_call8_c_2_apply, val_main_call8_v9_apply, val_main_call8_v8_apply, val_main_call8_c_1_apply, val_main_call8_c_3_apply]
  rfl

/-- The gather at (r, b, 0) reads the log-softmax at the class the wrapped label names, clamped into 0 … 1. -/
theorem take_read_2 (y : FVec Ideal SY .f32) (t : IVec ST 32) (r : Fin 4096) (b : Fin 512) (k : Fin 2)
    (hk : k.val = min (wrap2 (t (ix3 r b 2))).toInt.toNat 1) :
    val_main_call8_v13 (F := Ideal) y t (ix3 r b 0) = val_main_v34 (F := Ideal) y (ix3 r b k) := by
  unfold val_main_call8_v13
  exact gather_read _ _ r b k (by rw [start_read_2]; exact hk)

/-- The head at (r, b) is `headRef` of its two logits, its label and the mask bit. -/
theorem head2_read (y : FVec Ideal SY .f32) (t : IVec ST 32) (len : IVec SL 32) (r : Fin 4096) (b : Fin 512) :
    val_main_v39 (F := Ideal) y t len (ix2 r b)
      = headRef (fun k => y (ix3 r b ⟨5 + k.val, by have := k.isLt; omega⟩)) (t (ix3 r b 2)) (live len r b) := by
  rw [val_main_v39_apply, mask_read, val_main_v38_apply, val_main_v37_apply]
  have e : idx_main_v37 (ix2 r b) = ix3 r b 0 := by
    refine funext fun a => Fin.ext ?_
    have hr := r.isLt
    have hb := b.isLt
    match a with
    | ⟨0, _⟩ => show (r.val * 512 + b.val) / 512 = r.val; omega
    | ⟨1, _⟩ => show (r.val * 512 + b.val) / 1 % 512 = b.val; omega
    | ⟨2, _⟩ => rfl
  rw [e, val_main_v36_apply, ok_read_2,
    take_read_2 y t r b ⟨min (wrap2 (t (ix3 r b 2))).toInt.toNat 1, by omega⟩ rfl,
    lsm_read_2, val_main_call8_v14_apply, val_main_call8_cst_apply, val_main_call9_v1_apply, val_main_call9_v0_apply,
    val_main_cst_4_apply]
  rfl

/-! ## The two heads against the specification -/

theorem head1_eq (y : FVec Ideal SY .f32) (t : IVec ST 32) (len : IVec SL 32) (hy : Finite y) (ht : Labels t)
    (r : Fin 4096) (b : Fin 512) :
    val_main_v28 (F := Ideal) y t len (ix2 r b)
      = Scalar.select (live len r b)
          (lse2 (y (ix3 r b 3)) (y (ix3 r b 4)) - pick2 (t (ix3 r b 1)) (y (ix3 r b 3)) (y (ix3 r b 4))) 0 := by
  obtain ⟨a, ha⟩ := hy (ix3 r b 3)
  obtain ⟨c, hc⟩ := hy (ix3 r b 4)
  rw [head1_read, ha, hc]
  exact headRef_eq _ a c ha hc _ (ht r b).2.1 _

theorem head2_eq (y : FVec Ideal SY .f32) (t : IVec ST 32) (len : IVec SL 32) (hy : Finite y) (ht : Labels t)
    (r : Fin 4096) (b : Fin 512) :
    val_main_v39 (F := Ideal) y t len (ix2 r b)
      = Scalar.select (live len r b)
          (lse2 (y (ix3 r b 5)) (y (ix3 r b 6)) - pick2 (t (ix3 r b 2)) (y (ix3 r b 5)) (y (ix3 r b 6))) 0 := by
  obtain ⟨a, ha⟩ := hy (ix3 r b 5)
  obtain ⟨c, hc⟩ := hy (ix3 r b 6)
  rw [head2_read, ha, hc]
  exact headRef_eq _ a c ha hc _ (ht r b).2.2 _

end Cert.RefValue

end
-- ==== Proof.RefNum.lean ====
/-
  The reference's per-sample numerators and its last stages. Each head's masked losses are summed over the time steps
  and the three sums added; sums on the extended reals regroup freely, and the masks agree, so this is the sum over the
  time steps of the masked total loss. The stages after that are the shared tail.
-/
import proofs.«431143_j2637109919916_2_alg».proof.Proof.RefHead3
import proofs.«431143_j2637109919916_2_alg».proof.Proof.RefHead2
import proofs.«431143_j2637109919916_2_alg».proof.Proof.SpecTail

noncomputable section

namespace Cert.RefValue

open Idealize.ShloMosaic Idealize.ShloMosaic.ValueIdx Cert.ReferenceIdeal Cert.ReferenceIdeal.ReadP Cert.Spec

/-- Two values masked by one bit add to the masked sum: on bit 1 both sides are `a + b`, on bit 0 both are `0 + 0 = 0`. -/
theorem num_select_add (c : BitVec 1) (a b : EReal) :
    Scalar.select c a 0 + Scalar.select c b 0 = Scalar.select c (a + b) 0 := by
  rcases BitVec.eq_zero_or_eq_one c with h | h
  · rw [h, select_zero, select_zero, select_zero, add_zero]
  · rw [h, select_one, select_one, select_one]

/-- The `k`-th term of the first head's sum over the time steps at sample `b` is the operand at `(k, b)`. -/
theorem num_idx19_eq (b : Fin 512) (k : Fin 4096) : idx_main_v19 (ix1 b) k = ix2 k b := by
  funext a
  match a with
  | ⟨0, _⟩ => rfl
  | ⟨1, _⟩ => rfl

/-- The same for the second head's sum. -/
theorem num_idx29_eq (b : Fin 512) (k : Fin 4096) : idx_main_v29 (ix1 b) k = ix2 k b := by
  funext a
  match a with
  | ⟨0, _⟩ => rfl
  | ⟨1, _⟩ => rfl

/-- The same for the third head's sum. -/
theorem num_idx40_eq (b : Fin 512) (k : Fin 4096) : idx_main_v40 (ix1 b) k = ix2 k b := by
  funext a
  match a with
  | ⟨0, _⟩ => rfl
  | ⟨1, _⟩ => rfl

/-- The first head summed over the time steps at sample `b`: the initial value is zero, each term the masked cross-entropy of
    the first three logits. -/
theorem num_sum0_eq (y : FVec Ideal SY .f32) (t : IVec ST 32) (len : IVec SL 32) (hy : Finite y) (ht : Labels t) (b : Fin 512) :
    val_main_v19 (F := Ideal) y t len (ix1 b)
      = ∑ k : Fin 4096, Scalar.select (live len k b)
          (lse3 (y (ix3 k b 0)) (y (ix3 k b 1)) (y (ix3 k b 2)) - pick3 (t (ix3 k b 0)) (y (ix3 k b 0)) (y (ix3 k b 1)) (y (ix3 k b 2))) 0 := by
  rw [val_main_v19_apply, val_main_cst_1_apply]
  refine (congrArg₂ (· + ·) Ideal.ofBits_zero_f32 (Finset.sum_congr rfl fun k _ => ?_)).trans (zero_add _)
  rw [num_idx19_eq]
  exact head0_eq y t len hy ht k b

/-- The second head summed over the time steps at sample `b`. -/
theorem num_sum1_eq (y : FVec Ideal SY .f32) (t : IVec ST 32) (len : IVec SL 32) (hy : Finite y) (ht : Labels t) (b : Fin 512) :
    val_main_v29 (F := Ideal) y t len (ix1 b)
      = ∑ k : Fin 4096, Scalar.select (live len k b)
          (lse2 (y (ix3 k b 3)) (y (ix3 k b 4)) - pick2 (t (ix3 k b 1)) (y (ix3 k b 3)) (y (ix3 k b 4))) 0 := by
  rw [val_main_v29_apply, val_main_cst_3_apply]
  refine (congrArg₂ (· + ·) Ideal.ofBits_zero_f32 (Finset.sum_congr rfl fun k _ => ?_)).trans (zero_add _)
  rw [num_idx29_eq]
  exact head1_eq y t len hy ht k b

/-- The third head summed over the time steps at sample `b`. -/
theorem num_sum2_eq (y : FVec Ideal SY .f32) (t : IVec ST 32) (len : IVec SL 32) (hy : Finite y) (ht : Labels t) (b : Fin 512) :
    val_main_v40 (F := Ideal) y t len (ix1 b)
      = ∑ k : Fin 4096, Scalar.select (live len k b)
          (lse2 (y (ix3 k b 5)) (y (ix3 k b 6)) - pick2 (t (ix3 k b 2)) (y (ix3 k b 5)) (y (ix3 k b 6))) 0 := by
  rw [val_main_v40_apply, val_main_cst_5_apply]
  refine (congrArg₂ (· + ·) Ideal.ofBits_zero_f32 (Finset.sum_congr rfl fun k _ => ?_)).trans (zero_add _)
  rw [num_idx40_eq]
  exact head2_eq y t len hy ht k b

/-- The reference's numerators are the specification's. -/
theorem num_eq (y : FVec Ideal SY .f32) (t : IVec ST 32) (len : IVec SL 32) (hy : Finite y) (ht : Labels t) :
    val_main_v41 (F := Ideal) y t len = numVec y t len := by
  funext i
  obtain ⟨b, rfl⟩ : ∃ b : Fin 512, i = ix1 b := ⟨i 0, eq_ix1 i⟩
  rw [val_main_v41_apply, val_main_v30_apply, num_sum0_eq y t len hy ht b, num_sum1_eq y t len hy ht b, num_sum2_eq y t len hy ht b]
  show _ + _ + _ = ∑ r : Fin 4096, term y t len r b
  rw [← Finset.sum_add_distrib, ← Finset.sum_add_distrib]
  refine Finset.sum_congr rfl fun k _ => ?_
  rw [num_select_add, num_select_add]
  rfl

/-- The reference's result is the shared tail of its numerators. -/
theorem tail_eq (y : FVec Ideal SY .f32) (t : IVec ST 32) (len : IVec SL 32) :
    val_main_v45 (F := Ideal) y t len
      = tail Cert.ReferenceIdeal.Facts₀.bcast_S_S512 Cert.ReferenceIdeal.Facts₀.reducesTo_S512_S_d0 Cert.ReferenceIdeal.Facts₀.h_S_ (val_main_v41 (F := Ideal) y t len) len := by
  unfold val_main_v45 val_main_v44 val_main_cst_8 val_main_cst_7 val_main_v43 val_main_call10_v1 val_main_call10_v0 val_main_cst_6
    val_main_v42 val_main_v9 val_main_v8 val_main_call0_v1 val_main_call0_v0 val_main_c_0 val_main_v7 val_main_v6 val_main_c tail
  generalize val_main_v41 (F := Ideal) y t len = n
  rfl

end Cert.RefValue

end
-- ==== Proof.PreFacts.lean ====
/-
  What the precondition says of the inputs: every logit is a real number, and every label is a class of its group.

  The precondition is the conjunction of five "all elements" reductions of compared arrays. If it is the bit 1, each
  reduction is 1, so every element of each compared array is 1. An element of the first says |y i| < +∞, which on the
  extended reals leaves only the real numbers; an element of the second says the label word is signed-nonnegative; an
  element of each of the last three says the label of one class group is signed-below the group's class count.
-/
import proofs.«431143_j2637109919916_2_alg».proof.Pre_finite_inputs
import proofs.«431143_j2637109919916_2_alg».proof.Proof.Gen.Pre_finite_inputs
import proofs.«431143_j2637109919916_2_alg».proof.Proof.Spec
import Idealize.ShloMosaic.Lib.ValueIdx
import Idealize.ShloMosaic.Lib.ReduceAll
import Idealize.ShloMosaic.Lib.StableHlo.Predicate
import Idealize.ShloMosaic.Lib.Pipeline.Value

noncomputable section

namespace Cert.PreFacts

open Idealize.ShloMosaic Idealize.ShloMosaic.ValueIdx Cert.Spec

open Cert.Pre_finite_inputs Cert.Pre_finite_inputs.Facts

/-- The scalar shape has one index. -/
instance : Subsingleton S_.Idx := ⟨fun a b => funext fun d => d.elim0⟩

/-! ## One element of each compared array -/

/-- An extended real whose absolute value `max x (-x)` is below `+∞` (the pattern 0x7F800000) is a real number:
    at `⊥` and at `⊤` the absolute value is `⊤`, which is not below itself. -/
theorem real_of_abs_lt (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  induction x using EReal.rec with
  | bot => simp [Ideal.cmp] at hx
  | coe r => exact ⟨r, rfl⟩
  | top => simp [Ideal.cmp] at hx

/-- A word that is signed-nonnegative and signed-below 3 is 0, 1 or 2: its signed value is one of those three integers,
    and a word is determined by its signed value. -/
theorem word_lt3 (w : BitVec 32) (h0 : IntOp.cmpi .sge w 0#32 = 1#1) (h1 : IntOp.cmpi .slt w 3#32 = 1#1) :
    w = 0#32 ∨ w = 1#32 ∨ w = 2#32 := by
  rw [IntOp.cmpi_sge] at h0
  rw [IntOp.cmpi_slt] at h1
  have e0 : (0#32 : BitVec 32).toInt = 0 := by decide
  have e3 : (3#32 : BitVec 32).toInt = 3 := by decide
  rw [e0] at h0
  rw [e3] at h1
  have hc : w.toInt = 0 ∨ w.toInt = 1 ∨ w.toInt = 2 := by omega
  rcases hc with hc | hc | hc
  · exact Or.inl (BitVec.eq_of_toInt_eq (hc.trans (by decide)))
  · exact Or.inr (Or.inl (BitVec.eq_of_toInt_eq (hc.trans (by decide))))
  · exact Or.inr (Or.inr (BitVec.eq_of_toInt_eq (hc.trans (by decide))))

/-- A word that is signed-nonnegative and signed-below 2 is 0 or 1. -/
theorem word_lt2 (w : BitVec 32) (h0 : IntOp.cmpi .sge w 0#32 = 1#1) (h1 : IntOp.cmpi .slt w 2#32 = 1#1) :
    w = 0#32 ∨ w = 1#32 := by
  rw [IntOp.cmpi_sge] at h0
  rw [IntOp.cmpi_slt] at h1
  have e0 : (0#32 : BitVec 32).toInt = 0 := by decide
  have e2 : (2#32 : BitVec 32).toInt = 2 := by decide
  rw [e0] at h0
  rw [e2] at h1
  have hc : w.toInt = 0 ∨ w.toInt = 1 := by omega
  rcases hc with hc | hc
  · exact Or.inl (BitVec.eq_of_toInt_eq (hc.trans (by decide)))
  · exact Or.inr (BitVec.eq_of_toInt_eq (hc.trans (by decide)))

section Reads

variable [Cert.Pre_finite_inputs.Facts]

/-- A word array compared with a broadcast scalar constant: the bit at an index compares the array's word there with
    the constant, because a broadcast scalar reads the scalar at every index. -/
theorem cmp_const_read {s : Shape} (p : CmpIPredicate) (x : IVec s 32) (hb : S_.BroadcastsInDim s (![] : Fin 0 → Fin s.rank))
    (c : BitVec 32) (i : s.Idx) (h : cmpi p x (broadcastInDim s ![] hb (constantI S_ 32 c)) i = 1#1) :
    IntOp.cmpi p (x i) c = 1#1 := by
  have hc : broadcastInDim s ![] hb (constantI S_ 32 c) i = c :=
    StableHlo.Predicate.bcast_scalar hb h_S_ (constantI S_ 32 c) i
  exact (congrArg (IntOp.cmpi p (x i)) hc).symm.trans h

/-- The slice of the label array that keeps class group `c` (offset `o = c` on the last axis, width one) reads, at
    `(r, b, 0)`, the label array at `(r, b, c)`. -/
theorem slice_read (o : Nat) (hs : S4096x512x3.Slices ![0, 0, o] S4096x512x1) (t : IVec ST 32) (r : Fin 4096) (b : Fin 512)
    (c : Fin 3) (hc : c.val = o) :
    extractStridedSlice S4096x512x1 ![0, 0, o] t hs (ix3 r b (0 : Fin 1)) = t (ix3 r b c) :=
  extractStridedSlice_apply _ _ _ _ _ (fun ax => by
    match ax with
    | ⟨0, _⟩ => exact (Nat.zero_add _).symm
    | ⟨1, _⟩ => exact (Nat.zero_add _).symm
    | ⟨2, _⟩ => exact hc)

end Reads

/-! ## The precondition decoded -/

theorem of_pre [Cert.Pre_finite_inputs.Facts] (y : FVec Ideal SY .f32) (t : IVec ST 32) (len : IVec SL 32)
    (h : Cert.Pre_finite_inputs.fn (F := Ideal) y t len = fun _ => 1#1) : Finite y ∧ Labels t := by
  have h0 := congrFun h ValueIdx.ix0
  dsimp only [Cert.Pre_finite_inputs.fn, Cert.Pre_finite_inputs.fn_part1, Idealize.ShloMosaic.andi] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  have a1 := fun i => Host.reduce_andi_all _ _ _ _ _ h1 i
  have a2 := fun i => Host.reduce_andi_all _ _ _ _ _ h2 i
  have a3 := fun i => Host.reduce_andi_all _ _ _ _ _ h3 i
  have a4 := fun i => Host.reduce_andi_all _ _ _ _ _ h4 i
  have a5 := fun i => Host.reduce_andi_all _ _ _ _ _ h5 i
  refine ⟨fun i => ?_, fun r b => ?_⟩
  · have hb : broadcastInDim S4096x512x7 ![] bcast_S_S4096x512x7 (constant (F := Ideal) S_ .f32 0x7F800000#32) i
        = Ideal.ofBits .f32 0x7F800000#32 :=
      StableHlo.Predicate.bcast_scalar bcast_S_S4096x512x7 h_S_ _ i
    exact real_of_abs_lt (y i) ((congrArg (Ideal.cmp .olt (max (y i) (-(y i)))) hb).symm.trans (a1 i))
  · have g0 := cmp_const_read _ _ _ _ _ (a2 (ix3 r b 0))
    have g1 := cmp_const_read _ _ _ _ _ (a2 (ix3 r b 1))
    have g2 := cmp_const_read _ _ _ _ _ (a2 (ix3 r b 2))
    have s0 := cmp_const_read _ _ _ _ _ (a3 (ix3 r b 0))
    have s1 := cmp_const_read _ _ _ _ _ (a4 (ix3 r b 0))
    have s2 := cmp_const_read _ _ _ _ _ (a5 (ix3 r b 0))
    rw [slice_read 0 _ t r b 0 rfl] at s0
    rw [slice_read 1 _ t r b 1 rfl] at s1
    rw [slice_read 2 _ t r b 2 rfl] at s2
    exact ⟨word_lt3 _ g0 s0, word_lt2 _ g1 s1, word_lt2 _ g2 s2⟩

end Cert.PreFacts

end
-- ==== Proof.lean ====
/-
  The certificate of the masked three-head cross-entropy kernel against its jnp reference.

  Both programs compute, per sample `b`, the sum over the time steps `r < len[b]` of three softmax cross-entropies (a
  three-class one over logits 0..2 and two two-class ones over logits 3..4 and 5..6), divide it by the sample's length,
  and average over the 512 samples. The kernel works on [1024, 256] planes with the class axis moved to the front, picks
  the labelled logit by equality tests, adds the three losses before masking, and accumulates the masked lane sums over
  four time-step blocks; the reference takes log-softmax, gathers the labelled entry, masks and sums each head by itself.
  On the extended reals sums regroup freely, so the two numerators agree as soon as each head's loss does; that holds
  where every logit is a real number (then `-((y - M) - log S) = (log S + M) - y`) and every label is a class of its
  group (then the gather reads the entry the equality tests pick): the precondition. The shared tail is one function of
  the numerators and the lengths.
-/
import proofs.«431143_j2637109919916_2_alg».proof.Defs
import proofs.«431143_j2637109919916_2_alg».proof.Proof.Gen.Kernel
import proofs.«431143_j2637109919916_2_alg».proof.Proof.Gen.Kernel.Skeleton
import proofs.«431143_j2637109919916_2_alg».proof.Proof.Gen.Kernel.Launch
import proofs.«431143_j2637109919916_2_alg».proof.Proof.Gen.Kernel.Points
import proofs.«431143_j2637109919916_2_alg».proof.Proof.Gen.Kernel.Frame
import proofs.«431143_j2637109919916_2_alg».proof.Proof.Gen.KernelIdeal
import proofs.«431143_j2637109919916_2_alg».proof.Proof.Gen.KernelIdeal.Skeleton
import proofs.«431143_j2637109919916_2_alg».proof.Proof.Gen.KernelIdeal.Launch
import proofs.«431143_j2637109919916_2_alg».proof.Proof.Gen.KernelIdeal.Points
import proofs.«431143_j2637109919916_2_alg».proof.Proof.Gen.KernelIdeal.Frame
import proofs.«431143_j2637109919916_2_alg».proof.Proof.Gen.ReferenceIdeal
import proofs.«431143_j2637109919916_2_alg».proof.Proof.Gen.Pre_finite_inputs
import proofs.«431143_j2637109919916_2_alg».proof.Proof.KFinal
import proofs.«431143_j2637109919916_2_alg».proof.Proof.RefRunP
import proofs.«431143_j2637109919916_2_alg».proof.Proof.RefNum
import proofs.«431143_j2637109919916_2_alg».proof.Proof.PreFacts
import Idealize.ShloMosaic.Adequacy
import Idealize.ShloMosaic.Init

noncomputable section

namespace Cert.Proof

open Idealize.ShloMosaic Idealize.SL.Sem

/-- The word-level kernel runs and keeps its arguments: its generated frame. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote nothing. -/
theorem preserves : Cert.preserves_Kernel_KernelIdeal := trivial

/-- On the extended reals the kernel's result is the shared tail of the numerators, and so is the reference's: its
    numerators are the same function of the arguments once the logits are real and the labels in range. -/
theorem algebraic : Cert.algebraic_KernelIdeal_ReferenceIdeal := by
  intro m ρ m' ρ' hpre hagree
  refine ⟨fun c => Cert.Spec.tail Cert.KernelIdeal.Facts₀.bcast_S_S512 Cert.KernelIdeal.Facts₀.reducesTo_S512_S_d0 Cert.KernelIdeal.Facts₀.h_S_
      (Cert.Spec.numVec (Cert.KernelIdeal.KV.yA m c) (Cert.KernelIdeal.KV.tA m c) (Cert.KernelIdeal.KV.lA m c)) (Cert.KernelIdeal.KV.lA m c),
    Cert.KernelIdeal.KV.run m ρ, ?_⟩
  refine (θ_run Cert.ReferenceIdeal.defs _ _).mono (fun _ h c => ⟨(h c).1.trans ?_, (h c).2⟩)
    (Cert.ReferenceIdeal.RunP.run (F := Ideal) m' ρ')
  obtain ⟨hy, ht⟩ := Cert.PreFacts.of_pre _ _ _ (hpre c)
  rw [(hagree c).1, (hagree c).2.1, (hagree c).2.2, Cert.RefValue.tail_eq, Cert.RefValue.num_eq _ _ _ hy ht]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
